-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1x256 : Shape := ⟨2, ![1, 256]⟩
abbrev S500000 : Shape := ⟨1, ![500000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x256 : S_.BroadcastsInDim S1x256 (![] : Fin 0 → Fin S1x256.rank)
  reducesTo_S1x256_S_d0_1 : S1x256.ReducesTo [0, 1] S_
  bcast_S_S500000 : S_.BroadcastsInDim S500000 (![] : Fin 0 → Fin S500000.rank)
  reducesTo_S500000_S_d0 : S500000.ReducesTo [0] S_

variable [Facts]

def fn_part2 {F : FTy → Type} [FloatOps F] (main_arg7 : IVec S500000 32) (main_v28 : IVec S_ 1) (main_v33 : IVec S500000 1) : IVec S_ 1 :=
  let main_c_12 : IVec S_ 1 := constantI S_ 1 1#1
  let main_v34 : IVec S_ 1 := (fun x v => Host.reduce IntOp.andi x v reducesTo_S500000_S_d0 h_S_) main_v33 main_c_12
  let main_v35 : IVec S_ 1 := andi main_v28 main_v34
  let main_c_13 : IVec S_ 32 := constantI S_ 32 4294867296#32
  let main_v36 : IVec S500000 32 := broadcastInDim S500000 ![] bcast_S_S500000 main_c_13
  let main_v37 : IVec S500000 1 := cmpi .sge main_arg7 main_v36
  let main_c_14 : IVec S_ 32 := constantI S_ 32 100000#32
  let main_v38 : IVec S500000 32 := broadcastInDim S500000 ![] bcast_S_S500000 main_c_14
  let main_v39 : IVec S500000 1 := cmpi .slt main_arg7 main_v38
  let main_v40 : IVec S500000 1 := andi main_v37 main_v39
  let main_c_15 : IVec S_ 1 := constantI S_ 1 1#1
  let main_v41 : IVec S_ 1 := (fun x v => Host.reduce IntOp.andi x v reducesTo_S500000_S_d0 h_S_) main_v40 main_c_15
  let main_v42 : IVec S_ 1 := andi main_v35 main_v41
  main_v42

def fn_part1 {F : FTy → Type} [FloatOps F] (main_arg4 : FVec F S128 .f32) (main_arg5 : FVec F S1x256 .f32) (main_arg6 : IVec S500000 32) (main_arg7 : IVec S500000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1x256 .f32 := Host.absf main_arg5
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  let main_c_10 : IVec S_ 32 := constantI S_ 32 4294867296#32
  let main_v29 : IVec S500000 32 := broadcastInDim S500000 ![] bcast_S_S500000 main_c_10
  let main_v30 : IVec S500000 1 := cmpi .sge main_arg6 main_v29
  let main_c_11 : IVec S_ 32 := constantI S_ 32 100000#32
  let main_v31 : IVec S500000 32 := broadcastInDim S500000 ![] bcast_S_S500000 main_c_11
  let main_v32 : IVec S500000 1 := cmpi .slt main_arg6 main_v31
  let main_v33 : IVec S500000 1 := andi main_v30 main_v32
  fn_part2 (F := F) main_arg7 main_v28 main_v33

def fn {F : FTy → Type} [FloatOps F] (main_arg0 : FVec F S100000x128 .f32) (main_arg1 : FVec F S128x128 .f32) (main_arg2 : FVec F S128 .f32) (main_arg3 : FVec F S128 .f32) (main_arg4 : FVec F S128 .f32) (main_arg5 : FVec F S1x256 .f32) (main_arg6 : IVec S500000 32) (main_arg7 : IVec S500000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S100000x128 : Shape := ⟨2, ![100000, 128]⟩
abbrev S128x128 : Shape := ⟨2, ![128, 128]⟩
abbrev S128 : Shape := ⟨1, ![128]⟩
abbrev S1x256 : Shape := ⟨2, ![1, 256]⟩
abbrev S500000 : Shape := ⟨1, ![500000]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S500000x128 : Shape := ⟨2, ![500000, 128]⟩
abbrev S1x128 : Shape := ⟨2, ![1, 128]⟩
abbrev S5000x128 : Shape := ⟨2, ![5000, 128]⟩
abbrev S5000x1 : Shape := ⟨2, ![5000, 1]⟩
abbrev S5000 : Shape := ⟨1, ![5000]⟩

abbrev nBuf : Space → Nat
  | .hbm => 88
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S1x256, .f32⟩
  | .hbm, ⟨6, _⟩ => ⟨S500000, .i32⟩
  | .hbm, ⟨7, _⟩ => ⟨S500000, .i32⟩
  | .hbm, ⟨8, _⟩ => ⟨S_, .i32⟩
  | .hbm, ⟨9, _⟩ => ⟨S500000, .i32⟩
  | .hbm, ⟨10, _⟩ => ⟨S500000, .i1⟩
  | .hbm, ⟨11, _⟩ => ⟨S_, .i32⟩
  | .hbm, ⟨12, _⟩ => ⟨S500000, .i32⟩
  | .hbm, ⟨13, _⟩ => ⟨S500000, .i32⟩
  | .hbm, ⟨14, _⟩ => ⟨S500000, .i32⟩
  | .hbm, ⟨15, _⟩ => ⟨S500000x1, .i32⟩
  | .hbm, ⟨16, _⟩ => ⟨S1, .i32⟩
  | .hbm, ⟨17, _⟩ => ⟨S_, .i32⟩
  | .hbm, ⟨18, _⟩ => ⟨S500000x1, .i32⟩
  | .hbm, ⟨19, _⟩ => ⟨S500000x1, .i1⟩
  | .hbm, ⟨20, _⟩ => ⟨S1x1, .i32⟩
  | .hbm, ⟨21, _⟩ => ⟨S500000x1, .i32⟩
  | .hbm, ⟨22, _⟩ => ⟨S500000x1, .i1⟩
  | .hbm, ⟨23, _⟩ => ⟨S500000x1, .i1⟩
  | .hbm, ⟨24, _⟩ => ⟨S_, .i1⟩
  | .hbm, ⟨25, _⟩ => ⟨S500000, .i1⟩
  | .hbm, ⟨26, _⟩ => ⟨S500000x128, .f32⟩
  | .hbm, ⟨27, _⟩ => ⟨S500000x128, .i1⟩
  | .hbm, ⟨28, _⟩ => ⟨S_, .f32⟩
  | .hbm, ⟨29, _⟩ => ⟨S500000x128, .f32⟩
  | .hbm, ⟨30, _⟩ => ⟨S500000x128, .f32⟩
  | .hbm, ⟨31, _⟩ => ⟨S_, .i32⟩
  | .hbm, ⟨32, _⟩ => ⟨S500000, .i32⟩
  | .hbm, ⟨33, _⟩ => ⟨S500000, .i1⟩
  | .hbm, ⟨34, _⟩ => ⟨S_, .i32⟩
  | .hbm, ⟨35, _⟩ => ⟨S500000, .i32⟩
  | .hbm, ⟨36, _⟩ => ⟨S500000, .i32⟩
  | .hbm, ⟨37, _⟩ => ⟨S500000, .i32⟩
  | .hbm, ⟨38, _⟩ => ⟨S500000x1, .i32⟩
  | .hbm, ⟨39, _⟩ => ⟨S1, .i32⟩
  | .hbm, ⟨40, _⟩ => ⟨S_, .i32⟩
  | .hbm, ⟨41, _⟩ => ⟨S500000x1, .i32⟩
  | .hbm, ⟨42, _⟩ => ⟨S500000x1, .i1⟩
  | .hbm, ⟨43, _⟩ => ⟨S1x1, .i32⟩
  | .hbm, ⟨44, _⟩ => ⟨S500000x1, .i32⟩
  | .hbm, ⟨45, _⟩ => ⟨S500000x1, .i1⟩
  | .hbm, ⟨46, _⟩ => ⟨S500000x1, .i1⟩
  | .hbm, ⟨47, _⟩ => ⟨S_, .i1⟩
  | .hbm, ⟨48, _⟩ => ⟨S500000, .i1⟩
  | .hbm, ⟨49, _⟩ => ⟨S500000x128, .f32⟩
  | .hbm, ⟨50, _⟩ => ⟨S500000x128, .i1⟩
  | .hbm, ⟨51, _⟩ => ⟨S_, .f32⟩
  | .hbm, ⟨52, _⟩ => ⟨S500000x128, .f32⟩
  | .hbm, ⟨53, _⟩ => ⟨S500000x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S_, .f32⟩
  | .hbm, ⟨64, _⟩ => ⟨S1x128, .f32⟩
  | .hbm, ⟨65, _⟩ => ⟨S1x128, .f32⟩
  | .hbm, ⟨66, _⟩ => ⟨S_, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S_, .f32⟩
  | .hbm, ⟨76, _⟩ => ⟨S1x128, .f32⟩
  | .hbm, ⟨77, _⟩ => ⟨S1x128, .f32⟩
  | .hbm, ⟨78, _⟩ => ⟨S_, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S_, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S500000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x1, .f32⟩
  | .local _ .vmem, ⟨25, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7_0 : Ref sig .tc := ⟨.hbm, 59, rfl⟩
abbrev main_v7_1 : Ref sig .tc := ⟨.hbm, 60, rfl⟩
abbrev main_v7_2 : Ref sig .tc := ⟨.hbm, 61, rfl⟩
abbrev main_v7_3 : Ref sig .tc := ⟨.hbm, 62, rfl⟩
abbrev main_cst : Ref sig .tc := ⟨.hbm, 63, rfl⟩
abbrev main_v8 : Ref sig .tc := ⟨.hbm, 64, rfl⟩
abbrev main_v9 : Ref sig .tc := ⟨.hbm, 65, rfl⟩
abbrev main_cst_0 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_cst_1 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_cst_2 : Ref sig .tc := ⟨.hbm, 75, rfl⟩
abbrev main_v17 : Ref sig .tc := ⟨.hbm, 76, rfl⟩
abbrev main_v18 : Ref sig .tc := ⟨.hbm, 77, rfl⟩
abbrev main_cst_3 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_cst_4 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem12_1 : DmaSem sig := 25

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S5000x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  shapeCasts_S128_S1x128 : S128.ShapeCasts S1x128
  slices_S1x256_S1x128_0_0 : S1x256.Slices ![0, 0] S1x128
  slices_S1x256_S1x128_0_128 : S1x256.Slices ![0, 128] S1x128
  inb_S1x128_S1x128_0_0 : ∀ a, (![0, 0] : Fin 2 → Nat) a + S1x128.size a ≤ S1x128.size a
  h_S1x128 : 0 < S1x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  transposes_S128x128_p1_0_S128x128 : S128x128.Transposes [1, 0] S128x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  reduces_S5000x128_S5000 : S5000x128.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  gather_S100000x128_S500000x1_S500000x128_1_0_n_n_0_1_1128_wf : GatherDims.WF S100000x128 S500000x1 S500000x128 [1] [0] [] [0] [] 1 ![1, 128]
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S500000x128.size a
  hwx1_0 : ∀ i : grid1.Coords, EltTy.bits .f32 = 32 ∨ (Rect.block (s := S500000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S500000x128.size a
  hwx1_1 : ∀ i : grid1.Coords, EltTy.bits .f32 = 32 ∨ (Rect.block (s := S500000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S5000x1.size a ≤ S500000x1.size a
  hwx1_12 : ∀ i : grid1.Coords, EltTy.bits .f32 = 32 ∨ (Rect.block (s := S500000x1) S5000x1.size (cc1_transform_12 i) (hinb1_12 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_2) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_3) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v18) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v25) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v5) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v6) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v26) S5000x1.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1x256 : Shape := ⟨2, ![1, 256]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S1x128 : Shape := ⟨2, ![1, 128]⟩
abbrev S500000x256 : Shape := ⟨2, ![500000, 256]⟩
abbrev S256x1 : Shape := ⟨2, ![256, 1]⟩

abbrev nBuf : Space → Nat
  | .hbm => 113
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S1x256, .f32⟩
  | .hbm, ⟨6, _⟩ => ⟨S500000, .i32⟩
  | .hbm, ⟨7, _⟩ => ⟨S500000, .i32⟩
  | .hbm, ⟨8, _⟩ => ⟨S_, .i32⟩
  | .hbm, ⟨9, _⟩ => ⟨S500000, .i32⟩
  | .hbm, ⟨10, _⟩ => ⟨S500000, .i1⟩
  | .hbm, ⟨11, _⟩ => ⟨S_, .i32⟩
  | .hbm, ⟨12, _⟩ => ⟨S500000, .i32⟩
  | .hbm, ⟨13, _⟩ => ⟨S500000, .i32⟩
  | .hbm, ⟨14, _⟩ => ⟨S500000, .i32⟩
  | .hbm, ⟨15, _⟩ => ⟨S500000x1, .i32⟩
  | .hbm, ⟨16, _⟩ => ⟨S500000x128, .f32⟩
  | .hbm, ⟨17, _⟩ => ⟨S128x128, .f32⟩
  | .hbm, ⟨18, _⟩ => ⟨S500000x128, .f32⟩
  | .hbm, ⟨19, _⟩ => ⟨S1x128, .f32⟩
  | .hbm, ⟨20, _⟩ => ⟨S500000x128, .f32⟩
  | .hbm, ⟨21, _⟩ => ⟨S500000x128, .f32⟩
  | .hbm, ⟨22, _⟩ => ⟨S_, .f32⟩
  | .hbm, ⟨23, _⟩ => ⟨S128, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S1x128, .f32⟩
  | .hbm, ⟨28, _⟩ => ⟨S500000x128, .f32⟩
  | .hbm, ⟨29, _⟩ => ⟨S500000x128, .f32⟩
  | .hbm, ⟨30, _⟩ => ⟨S500000x128, .f32⟩
  | .hbm, ⟨31, _⟩ => ⟨S_, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S1x128, .f32⟩
  | .hbm, ⟨37, _⟩ => ⟨S500000x128, .f32⟩
  | .hbm, ⟨38, _⟩ => ⟨S500000x128, .f32⟩
  | .hbm, ⟨39, _⟩ => ⟨S1x128, .f32⟩
  | .hbm, ⟨40, _⟩ => ⟨S500000x128, .f32⟩
  | .hbm, ⟨41, _⟩ => ⟨S500000x128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S1x128, .f32⟩
  | .hbm, ⟨47, _⟩ => ⟨S500000x128, .f32⟩
  | .hbm, ⟨48, _⟩ => ⟨S500000x128, .f32⟩
  | .hbm, ⟨49, _⟩ => ⟨S1x128, .f32⟩
  | .hbm, ⟨50, _⟩ => ⟨S500000x128, .f32⟩
  | .hbm, ⟨51, _⟩ => ⟨S500000x128, .f32⟩
  | .hbm, ⟨52, _⟩ => ⟨S_, .i32⟩
  | .hbm, ⟨53, _⟩ => ⟨S500000, .i32⟩
  | .hbm, ⟨54, _⟩ => ⟨S500000, .i1⟩
  | .hbm, ⟨55, _⟩ => ⟨S_, .i32⟩
  | .hbm, ⟨56, _⟩ => ⟨S500000, .i32⟩
  | .hbm, ⟨57, _⟩ => ⟨S500000, .i32⟩
  | .hbm, ⟨58, _⟩ => ⟨S500000, .i32⟩
  | .hbm, ⟨59, _⟩ => ⟨S500000x1, .i32⟩
  | .hbm, ⟨60, _⟩ => ⟨S500000x128, .f32⟩
  | .hbm, ⟨61, _⟩ => ⟨S128x128, .f32⟩
  | .hbm, ⟨62, _⟩ => ⟨S500000x128, .f32⟩
  | .hbm, ⟨63, _⟩ => ⟨S1x128, .f32⟩
  | .hbm, ⟨64, _⟩ => ⟨S500000x128, .f32⟩
  | .hbm, ⟨65, _⟩ => ⟨S500000x128, .f32⟩
  | .hbm, ⟨66, _⟩ => ⟨S_, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S1x128, .f32⟩
  | .hbm, ⟨72, _⟩ => ⟨S500000x128, .f32⟩
  | .hbm, ⟨73, _⟩ => ⟨S500000x128, .f32⟩
  | .hbm, ⟨74, _⟩ => ⟨S500000x128, .f32⟩
  | .hbm, ⟨75, _⟩ => ⟨S_, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S500000x128, .f32⟩
  | .hbm, ⟨82, _⟩ => ⟨S500000x128, .f32⟩
  | .hbm, ⟨83, _⟩ => ⟨S1x128, .f32⟩
  | .hbm, ⟨84, _⟩ => ⟨S500000x128, .f32⟩
  | .hbm, ⟨85, _⟩ => ⟨S500000x128, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S128, .f32⟩
  | .hbm, ⟨90, _⟩ => ⟨S1x128, .f32⟩
  | .hbm, ⟨91, _⟩ => ⟨S500000x128, .f32⟩
  | .hbm, ⟨92, _⟩ => ⟨S500000x128, .f32⟩
  | .hbm, ⟨93, _⟩ => ⟨S1x128, .f32⟩
  | .hbm, ⟨94, _⟩ => ⟨S500000x128, .f32⟩
  | .hbm, ⟨95, _⟩ => ⟨S500000x128, .f32⟩
  | .hbm, ⟨96, _⟩ => ⟨S500000x256, .f32⟩
  | .hbm, ⟨97, _⟩ => ⟨S256x1, .f32⟩
  | .hbm, ⟨98, _⟩ => ⟨S500000x1, .f32⟩
  | .hbm, ⟨99, _⟩ => ⟨S500000x1, .f32⟩
  | .hbm, ⟨100, _⟩ => ⟨S500000x1, .f32⟩
  | .hbm, ⟨101, _⟩ => ⟨S_, .f32⟩
  | .hbm, ⟨102, _⟩ => ⟨S500000x1, .f32⟩
  | .hbm, ⟨103, _⟩ => ⟨S500000x1, .f32⟩
  | .hbm, ⟨104, _⟩ => ⟨S_, .f32⟩
  | .hbm, ⟨105, _⟩ => ⟨S500000x1, .f32⟩
  | .hbm, ⟨106, _⟩ => ⟨S500000x1, .f32⟩
  | .hbm, ⟨107, _⟩ => ⟨S_, .f32⟩
  | .hbm, ⟨108, _⟩ => ⟨S500000x1, .f32⟩
  | .hbm, ⟨109, _⟩ => ⟨S500000x1, .f32⟩
  | .hbm, ⟨110, _⟩ => ⟨S_, .f32⟩
  | .hbm, ⟨111, _⟩ => ⟨S500000x1, .f32⟩
  | .hbm, ⟨112, _⟩ => ⟨S500000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_5 : Ref sig .tc := ⟨.hbm, 52, rfl⟩
abbrev main_v37 : Ref sig .tc := ⟨.hbm, 53, rfl⟩
abbrev main_v38 : Ref sig .tc := ⟨.hbm, 54, rfl⟩
abbrev main_c_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_11 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_12 : Ref sig .tc := ⟨.hbm, 101, rfl⟩
abbrev main_v79 : Ref sig .tc := ⟨.hbm, 102, rfl⟩
abbrev main_v80 : Ref sig .tc := ⟨.hbm, 103, rfl⟩
abbrev main_cst_13 : Ref sig .tc := ⟨.hbm, 104, rfl⟩
abbrev main_v81 : Ref sig .tc := ⟨.hbm, 105, rfl⟩
abbrev main_v82 : Ref sig .tc := ⟨.hbm, 106, rfl⟩
abbrev main_cst_14 : Ref sig .tc := ⟨.hbm, 107, rfl⟩
abbrev main_v83 : Ref sig .tc := ⟨.hbm, 108, rfl⟩
abbrev main_v84 : Ref sig .tc := ⟨.hbm, 109, rfl⟩
abbrev main_cst_15 : Ref sig .tc := ⟨.hbm, 110, rfl⟩
abbrev main_v85 : Ref sig .tc := ⟨.hbm, 111, rfl⟩
abbrev main_v86 : Ref sig .tc := ⟨.hbm, 112, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  transposes_S128x128_S128x128_1_0 : S128x128.Transposes [1, 0] S128x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  reducesTo_S500000x128_S128_d0 : S500000x128.ReducesTo [0] S128
  h_S_ : 0 < S_.numel
  bcast_S_S128 : S_.BroadcastsInDim S128 (![] : Fin 0 → Fin S128.rank)
  concatenates_S500000x128_S500000x128_S500000x256_d1 : Shape.Concatenates [S500000x128, S500000x128] S500000x256 1
  transposes_S1x256_S256x1_1_0 : S1x256.Transposes [1, 0] S256x1
  bcast_S_S500000x1 : S_.BroadcastsInDim S500000x1 (![] : Fin 0 → Fin S500000x1.rank)
  gather_S100000x128_S500000x1_S500000x128_1_0_n_n_0_1_1128_wf : GatherDims.WF S100000x128 S500000x1 S500000x128 [1] [0] [] [0] [] 1 ![1, 128]
  dot_S500000x128_S128x128_S500000x128_1_0_0_1_n_n_wf : DotDims.WF S500000x128 S128x128 S500000x128 [1] [0] [0] [1] [] []
  dot_S500000x256_S256x1_S500000x1_1_0_0_1_n_n_wf : DotDims.WF S500000x256 S256x1 S500000x1 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x256_S256x1_S500000x1_1_0_0_1_n_n : DotDims S500000x256 S256x1 S500000x1 where
  lhsContracting := [1]
  rhsContracting := [0]
  lhsNonContracting := [0]
  rhsNonContracting := [1]
  lhsBatch := []
  rhsBatch := []
  wf := dot_S500000x256_S256x1_S500000x1_1_0_0_1_n_n_wf

class Facts : Prop extends Facts₀ where

variable [Facts]
-- ==== Proof.Spec.lean ====
/-
  The mathematics of the certificate, with no program in sight.

  Edges e ∈ [0, 500000), features j, k ∈ [0, 128).  For a table of gathered rows `X` (one row of 128 node
  features per edge), a weight matrix `W` and a bias `b`, the affine map is
      lin X W b e j = (∑ k, X e k · W j k) + b j.
  Batch normalisation over the edge axis takes the column mean `mean h j = (∑ e, h e j) / 500000` and a variance,
  which the two programs compute differently:
      varK h j = (∑ e, h e j²) / 500000 − (mean h j)²          (one pass over sums of squares)
      varR h j = (∑ e, (h e j − mean h j)²) / 500000           (two passes)
  and then `bn var g β h e j = g j · (h e j − mean h j) · rsqrt (var h j + ε) + β j`.  The attention logit of an
  edge pairs the normalised source row with the first half of the attention vector and the normalised
  destination row with its second half; the result is `σ(logit) · ½ + ½`.
-/
import Idealize.ShloMosaic.PureOps.Ideal
import Idealize.ShloMosaic.Lib.ValueIdx

noncomputable section

namespace Cert.Spec

open Idealize.ShloMosaic

/-- The number of edges, as the f32 constant both programs divide by. -/
abbrev nE : EReal := Ideal.ofBits .f32 0x48F42400#32
/-- The variance offset ε, as the f32 constant both programs add. -/
abbrev eps : EReal := Ideal.ofBits .f32 0x3727C5AC#32
/-- The constant ½ of the final scaling. -/
abbrev half : EReal := Ideal.ofBits .f32 0x3F000000#32
/-- The constant 1 of the reference's spelled-out sigmoid. -/
abbrev one : EReal := Ideal.ofBits .f32 0x3F800000#32

/-- The affine map of one gathered row: `(X · Wᵀ + b)` at edge `e`, feature `j`. -/
def lin (X : Fin 500000 → Fin 128 → EReal) (W : Fin 128 → Fin 128 → EReal) (b : Fin 128 → EReal)
    (e : Fin 500000) (j : Fin 128) : EReal :=
  (∑ k : Fin 128, X e k * W j k) + b j

/-- The column sum over all edges. -/
def colSum (h : Fin 500000 → Fin 128 → EReal) (j : Fin 128) : EReal := ∑ e : Fin 500000, h e j

/-- The column sum of squares over all edges. -/
def colSumSq (h : Fin 500000 → Fin 128 → EReal) (j : Fin 128) : EReal := ∑ e : Fin 500000, h e j * h e j

/-- The column mean. -/
def mean (h : Fin 500000 → Fin 128 → EReal) (j : Fin 128) : EReal := Ideal.div (colSum h j) nE

/-- The variance as the mean of squares minus the squared mean. -/
def varK (h : Fin 500000 → Fin 128 → EReal) (j : Fin 128) : EReal :=
  Ideal.div (colSumSq h j) nE - mean h j * mean h j

/-- The variance as the mean squared deviation. -/
def varR (h : Fin 500000 → Fin 128 → EReal) (j : Fin 128) : EReal :=
  Ideal.div (∑ e : Fin 500000, (h e j - mean h j) * (h e j - mean h j)) nE

/-- Normalisation with a given mean and inverse standard deviation, then scale and shift. -/
def bnWith (g β mu istd : Fin 128 → EReal) (h : Fin 500000 → Fin 128 → EReal) (e : Fin 500000) (j : Fin 128) : EReal :=
  g j * (h e j - mu j) * istd j + β j

/-- Batch normalisation over the edge axis with the variance `var`. -/
def bn (var : (Fin 500000 → Fin 128 → EReal) → Fin 128 → EReal) (g β : Fin 128 → EReal)
    (h : Fin 500000 → Fin 128 → EReal) : Fin 500000 → Fin 128 → EReal :=
  bnWith g β (mean h) (fun j => Ideal.rsqrt (var h j + eps)) h

/-- The logit as two sums of 128 products: source rows against the first half of the attention vector,
    destination rows against the second. -/
def logitK (aw : Fin 256 → EReal) (hs hd : Fin 500000 → Fin 128 → EReal) (e : Fin 500000) : EReal :=
  (∑ j : Fin 128, hs e j * aw ⟨j.val, by omega⟩) + (∑ j : Fin 128, hd e j * aw ⟨128 + j.val, by omega⟩)

/-- The two normalised rows of an edge side by side, as one row of 256. -/
def cat (hs hd : Fin 500000 → Fin 128 → EReal) (e : Fin 500000) (k : Fin 256) : EReal :=
  if h : k.val < 128 then hs e ⟨k.val, h⟩ else hd e ⟨k.val - 128, by omega⟩

/-- The logit as one sum of 256 products over the concatenated row. -/
def logitR (aw : Fin 256 → EReal) (hs hd : Fin 500000 → Fin 128 → EReal) (e : Fin 500000) : EReal :=
  ∑ k : Fin 256, cat hs hd e k * aw k

/-- The kernel's result at edge `e`. -/
def GK (Xs Xd : Fin 500000 → Fin 128 → EReal) (W : Fin 128 → Fin 128 → EReal) (b g β : Fin 128 → EReal)
    (aw : Fin 256 → EReal) (e : Fin 500000) : EReal :=
  Ideal.logistic (logitK aw (bn varK g β (lin Xs W b)) (bn varK g β (lin Xd W b)) e) * half + half

/-- The reference's result at edge `e`, with its sigmoid spelled `1 / (1 + exp (−l))`. -/
def GR (Xs Xd : Fin 500000 → Fin 128 → EReal) (W : Fin 128 → Fin 128 → EReal) (b g β : Fin 128 → EReal)
    (aw : Fin 256 → EReal) (e : Fin 500000) : EReal :=
  Ideal.div one (one + Ideal.exp (-(logitR aw (bn varR g β (lin Xs W b)) (bn varR g β (lin Xd W b)) e))) * half + half

/-! ## Indices into the node table -/

/-- A signed index word with Python's wrap of a negative index: `s + 100000` below zero, `s` otherwise. -/
def wrapW (s : BitVec 32) : BitVec 32 := if s.slt 0#32 then s + 100000#32 else s

/-- The row of the node table a wrapped index word selects: read signed and clamped into `[0, 99999]`. -/
def rowOf (s : BitVec 32) : Fin 100000 := ⟨min (wrapW s).toInt.toNat (100000 - 1), by omega⟩

/-- The gathered rows: edge `e` takes row `rowOf (idx e)` of the node table. -/
def gatherRows (x : (⟨2, ![100000, 128]⟩ : Shape).Idx → EReal) (idx : (⟨1, ![500000]⟩ : Shape).Idx → BitVec 32) :
    Fin 500000 → Fin 128 → EReal :=
  fun e k => x (ValueIdx.ix2 (rowOf (idx (ValueIdx.ix1 e))) k)

/-! ## Arrays as functions of coordinates, and back -/

/-- A rank-2 array as a function of its two coordinates. -/
def mat {n m : Nat} (a : (⟨2, ![n, m]⟩ : Shape).Idx → EReal) : Fin n → Fin m → EReal := fun p q => a (ValueIdx.ix2 p q)

/-- A `[1, m]` row as a function of its column. -/
def row {m : Nat} (a : (⟨2, ![1, m]⟩ : Shape).Idx → EReal) : Fin m → EReal := fun q => a (ValueIdx.ix2 (0 : Fin 1) q)

/-- A rank-1 array as a function of its coordinate. -/
def vec {n : Nat} (a : (⟨1, ![n]⟩ : Shape).Idx → EReal) : Fin n → EReal := fun p => a (ValueIdx.ix1 p)

/-- A function of the edge laid out as the `[500000, 1]` result array. -/
def outArr (f : Fin 500000 → EReal) : (⟨2, ![500000, 1]⟩ : Shape).Idx → EReal :=
  fun i => f ⟨(i 0).val, ValueIdx.idx2_lt0 i⟩

/-- A function of the feature laid out as a `[1, 128]` row array. -/
def rowArr (f : Fin 128 → EReal) : (⟨2, ![1, 128]⟩ : Shape).Idx → EReal :=
  fun i => f ⟨(i 1).val, ValueIdx.idx2_lt1 i⟩

/-- The second pass of the kernel at edge `e`, from the two gathered tables, the parameters as rows, the
    statistics `ms, is, md, id` it is handed, and the two halves `as, ad` of the attention vector. -/
def outK1 (Xs Xd : Fin 500000 → Fin 128 → EReal) (W : Fin 128 → Fin 128 → EReal)
    (b g β mS iS mD iD aS aD : Fin 128 → EReal) (e : Fin 500000) : EReal :=
  Ideal.logistic ((∑ j : Fin 128, bnWith g β mS iS (lin Xs W b) e j * aS j)
    + (∑ j : Fin 128, bnWith g β mD iD (lin Xd W b) e j * aD j)) * half + half

end Cert.Spec

end
-- ==== Proof.HostKeep.lean ====
/-
  Which buffers each stretch of host operations leaves alone, and what the third stretch computes.

  @main runs four stretches of host operations around its two kernel regions: the take of the source rows, the take
  of the destination rows, the re-layout of the parameters (three vectors reshaped to rows, the attention row cut in
  two halves), and, between the regions, the statistics' arithmetic.  A buffer no operation of a stretch writes
  holds after the stretch what it held before.
-/
import proofs.«429111_j24678882083441_1_alg».proof.Proof.Gen.KernelIdeal.Frame

set_option maxRecDepth 16384

noncomputable section

namespace Cert.KernelIdeal.Host

open Idealize.ShloMosaic Idealize.ShloMosaic.TcCoe Idealize.SL.Sem Cert.KernelIdeal Cert.KernelIdeal.Gen
open Idealize.ShloMosaic.StableHlo

variable {F : FTy → Type} [FloatOps F]

/-- No operation of the named stretch writes the buffer of the goal: each operation writes its one result buffer,
    and that is another reference. -/
local macro "keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ### hostOps0 -/

theorem take_s_keeps_arg0 (V : Valuation τ sig (Elt F)) :
    StableHlo.after hostOps0 V (Proc.devRef .tc main_arg0) = V (Proc.devRef .tc main_arg0) := by
  keeps hostOps0

theorem take_s_keeps_arg1 (V : Valuation τ sig (Elt F)) :
    StableHlo.after hostOps0 V (Proc.devRef .tc main_arg1) = V (Proc.devRef .tc main_arg1) := by
  keeps hostOps0

theorem take_s_keeps_arg2 (V : Valuation τ sig (Elt F)) :
    StableHlo.after hostOps0 V (Proc.devRef .tc main_arg2) = V (Proc.devRef .tc main_arg2) := by
  keeps hostOps0

theorem take_s_keeps_arg3 (V : Valuation τ sig (Elt F)) :
    StableHlo.after hostOps0 V (Proc.devRef .tc main_arg3) = V (Proc.devRef .tc main_arg3) := by
  keeps hostOps0

theorem take_s_keeps_arg4 (V : Valuation τ sig (Elt F)) :
    StableHlo.after hostOps0 V (Proc.devRef .tc main_arg4) = V (Proc.devRef .tc main_arg4) := by
  keeps hostOps0

theorem take_s_keeps_arg5 (V : Valuation τ sig (Elt F)) :
    StableHlo.after hostOps0 V (Proc.devRef .tc main_arg5) = V (Proc.devRef .tc main_arg5) := by
  keeps hostOps0

theorem take_s_keeps_arg7 (V : Valuation τ sig (Elt F)) :
    StableHlo.after hostOps0 V (Proc.devRef .tc main_arg7) = V (Proc.devRef .tc main_arg7) := by
  keeps hostOps0

/-! ### hostOps0_1 -/

theorem take_d_keeps_v0 (V : Valuation τ sig (Elt F)) :
    StableHlo.after hostOps0_1 V (Proc.devRef .tc main_v0) = V (Proc.devRef .tc main_v0) := by
  keeps hostOps0_1

theorem take_d_keeps_arg1 (V : Valuation τ sig (Elt F)) :
    StableHlo.after hostOps0_1 V (Proc.devRef .tc main_arg1) = V (Proc.devRef .tc main_arg1) := by
  keeps hostOps0_1

theorem take_d_keeps_arg2 (V : Valuation τ sig (Elt F)) :
    StableHlo.after hostOps0_1 V (Proc.devRef .tc main_arg2) = V (Proc.devRef .tc main_arg2) := by
  keeps hostOps0_1

theorem take_d_keeps_arg3 (V : Valuation τ sig (Elt F)) :
    StableHlo.after hostOps0_1 V (Proc.devRef .tc main_arg3) = V (Proc.devRef .tc main_arg3) := by
  keeps hostOps0_1

theorem take_d_keeps_arg4 (V : Valuation τ sig (Elt F)) :
    StableHlo.after hostOps0_1 V (Proc.devRef .tc main_arg4) = V (Proc.devRef .tc main_arg4) := by
  keeps hostOps0_1

theorem take_d_keeps_arg5 (V : Valuation τ sig (Elt F)) :
    StableHlo.after hostOps0_1 V (Proc.devRef .tc main_arg5) = V (Proc.devRef .tc main_arg5) := by
  keeps hostOps0_1

/-! ### hostOps0_2 -/

theorem relayout_keeps_v0 (V : Valuation τ sig (Elt F)) :
    StableHlo.after hostOps0_2 V (Proc.devRef .tc main_v0) = V (Proc.devRef .tc main_v0) := by
  keeps hostOps0_2

theorem relayout_keeps_v1 (V : Valuation τ sig (Elt F)) :
    StableHlo.after hostOps0_2 V (Proc.devRef .tc main_v1) = V (Proc.devRef .tc main_v1) := by
  keeps hostOps0_2

theorem relayout_keeps_arg1 (V : Valuation τ sig (Elt F)) :
    StableHlo.after hostOps0_2 V (Proc.devRef .tc main_arg1) = V (Proc.devRef .tc main_arg1) := by
  keeps hostOps0_2

/-! ### hostOps1 -/

theorem stats_keeps_v0 (V : Valuation τ sig (Elt F)) :
    StableHlo.after hostOps1 V (Proc.devRef .tc main_v0) = V (Proc.devRef .tc main_v0) := by
  keeps hostOps1

theorem stats_keeps_v1 (V : Valuation τ sig (Elt F)) :
    StableHlo.after hostOps1 V (Proc.devRef .tc main_v1) = V (Proc.devRef .tc main_v1) := by
  keeps hostOps1

theorem stats_keeps_arg1 (V : Valuation τ sig (Elt F)) :
    StableHlo.after hostOps1 V (Proc.devRef .tc main_arg1) = V (Proc.devRef .tc main_arg1) := by
  keeps hostOps1

theorem stats_keeps_v2 (V : Valuation τ sig (Elt F)) :
    StableHlo.after hostOps1 V (Proc.devRef .tc main_v2) = V (Proc.devRef .tc main_v2) := by
  keeps hostOps1

theorem stats_keeps_v3 (V : Valuation τ sig (Elt F)) :
    StableHlo.after hostOps1 V (Proc.devRef .tc main_v3) = V (Proc.devRef .tc main_v3) := by
  keeps hostOps1

theorem stats_keeps_v4 (V : Valuation τ sig (Elt F)) :
    StableHlo.after hostOps1 V (Proc.devRef .tc main_v4) = V (Proc.devRef .tc main_v4) := by
  keeps hostOps1

theorem stats_keeps_v5 (V : Valuation τ sig (Elt F)) :
    StableHlo.after hostOps1 V (Proc.devRef .tc main_v5) = V (Proc.devRef .tc main_v5) := by
  keeps hostOps1

theorem stats_keeps_v6 (V : Valuation τ sig (Elt F)) :
    StableHlo.after hostOps1 V (Proc.devRef .tc main_v6) = V (Proc.devRef .tc main_v6) := by
  keeps hostOps1

/-! ### What the re-layout computes -/

/-- The bias as a row. -/
theorem relayout_v2 (V : Valuation τ sig (Elt F)) :
    StableHlo.after hostOps0_2 V (Proc.devRef .tc main_v2)
      = shapeCast S1x128 (V (Proc.devRef .tc main_arg2) : FVec F S128 .f32) shapeCasts_S128_S1x128 := by
  after_results
  rfl

/-- The scale as a row. -/
theorem relayout_v3 (V : Valuation τ sig (Elt F)) :
    StableHlo.after hostOps0_2 V (Proc.devRef .tc main_v3)
      = shapeCast S1x128 (V (Proc.devRef .tc main_arg3) : FVec F S128 .f32) shapeCasts_S128_S1x128 := by
  after_results
  rfl

/-- The shift as a row. -/
theorem relayout_v4 (V : Valuation τ sig (Elt F)) :
    StableHlo.after hostOps0_2 V (Proc.devRef .tc main_v4)
      = shapeCast S1x128 (V (Proc.devRef .tc main_arg4) : FVec F S128 .f32) shapeCasts_S128_S1x128 := by
  after_results
  rfl

/-- The first half of the attention row. -/
theorem relayout_v5 (V : Valuation τ sig (Elt F)) :
    StableHlo.after hostOps0_2 V (Proc.devRef .tc main_v5)
      = extractStridedSlice S1x128 ![0, 0] (V (Proc.devRef .tc main_arg5) : FVec F S1x256 .f32) slices_S1x256_S1x128_0_0 := by
  after_results

/-- The second half of the attention row. -/
theorem relayout_v6 (V : Valuation τ sig (Elt F)) :
    StableHlo.after hostOps0_2 V (Proc.devRef .tc main_v6)
      = extractStridedSlice S1x128 ![0, 128] (V (Proc.devRef .tc main_arg5) : FVec F S1x256 .f32) slices_S1x256_S1x128_0_128 := by
  after_results

end Cert.KernelIdeal.Host

end
-- ==== Proof.HostStats.lean ====
/-
  The statistics between the two passes, read at a feature.

  Between the two kernel regions the host turns the four column sums of the first pass (the sum and the sum of squares
  of the source rows, then of the destination rows, each a [1, 128] row) into a mean and an inverse standard
  deviation per feature: mean = sum / 500000, and istd = rsqrt((sumsq / 500000 − mean · mean) + ε).  Each operation is
  elementwise and each constant a broadcast scalar, so at feature j the result is that expression of the sums'
  entries at j.  The facts hold for any contents of the buffers the stretch starts from.
-/
import proofs.«429111_j24678882083441_1_alg».proof.Proof.Gen.KernelIdeal.Frame
import proofs.«429111_j24678882083441_1_alg».proof.Proof.Spec

noncomputable section

namespace Cert.KernelIdeal.Host

open Idealize.ShloMosaic Idealize.ShloMosaic.TcCoe Idealize.SL.Sem Cert.KernelIdeal Cert.KernelIdeal.Gen
  Idealize.ShloMosaic.StableHlo Idealize.ShloMosaic.ValueIdx

/-! ## The four result rows as arrays -/

/-- The mean row of the source side: the sum row divided by the broadcast edge count. -/
theorem v9_array (V : Valuation τ sig (Elt Ideal)) :
    (StableHlo.after hostOps1 V (Proc.devRef .tc main_v9) : FVec Ideal S1x128 .f32)
      = Host.divf (F := Ideal) (V (Proc.devRef .tc main_v7_0) : FVec Ideal S1x128 .f32)
          (broadcastInDim S1x128 ![] bcast_S_S1x128 (constant (F := Ideal) S_ .f32 0x48F42400#32)) := by
  after_results <;> rfl

set_option maxHeartbeats 2000000 in
/-- The inverse standard deviation row of the source side: rsqrt of (mean of squares − squared mean) + ε. -/
theorem v16_array (V : Valuation τ sig (Elt Ideal)) :
    (StableHlo.after hostOps1 V (Proc.devRef .tc main_v16) : FVec Ideal S1x128 .f32)
      = Host.rsqrt (F := Ideal)
          (addf
            (subf
              (Host.divf (V (Proc.devRef .tc main_v7_1) : FVec Ideal S1x128 .f32)
                (broadcastInDim S1x128 ![] bcast_S_S1x128 (constant (F := Ideal) S_ .f32 0x48F42400#32)))
              (mulf
                (Host.divf (V (Proc.devRef .tc main_v7_0) : FVec Ideal S1x128 .f32)
                  (broadcastInDim S1x128 ![] bcast_S_S1x128 (constant (F := Ideal) S_ .f32 0x48F42400#32)))
                (Host.divf (V (Proc.devRef .tc main_v7_0) : FVec Ideal S1x128 .f32)
                  (broadcastInDim S1x128 ![] bcast_S_S1x128 (constant (F := Ideal) S_ .f32 0x48F42400#32)))))
            (broadcastInDim S1x128 ![] bcast_S_S1x128 (constant (F := Ideal) S_ .f32 0x3727C5AC#32))) := by
  after_results <;> rfl

/-- The mean row of the destination side. -/
theorem v18_array (V : Valuation τ sig (Elt Ideal)) :
    (StableHlo.after hostOps1 V (Proc.devRef .tc main_v18) : FVec Ideal S1x128 .f32)
      = Host.divf (F := Ideal) (V (Proc.devRef .tc main_v7_2) : FVec Ideal S1x128 .f32)
          (broadcastInDim S1x128 ![] bcast_S_S1x128 (constant (F := Ideal) S_ .f32 0x48F42400#32)) := by
  after_results <;> rfl

set_option maxHeartbeats 2000000 in
/-- The inverse standard deviation row of the destination side. -/
theorem v25_array (V : Valuation τ sig (Elt Ideal)) :
    (StableHlo.after hostOps1 V (Proc.devRef .tc main_v25) : FVec Ideal S1x128 .f32)
      = Host.rsqrt (F := Ideal)
          (addf
            (subf
              (Host.divf (V (Proc.devRef .tc main_v7_3) : FVec Ideal S1x128 .f32)
                (broadcastInDim S1x128 ![] bcast_S_S1x128 (constant (F := Ideal) S_ .f32 0x48F42400#32)))
              (mulf
                (Host.divf (V (Proc.devRef .tc main_v7_2) : FVec Ideal S1x128 .f32)
                  (broadcastInDim S1x128 ![] bcast_S_S1x128 (constant (F := Ideal) S_ .f32 0x48F42400#32)))
                (Host.divf (V (Proc.devRef .tc main_v7_2) : FVec Ideal S1x128 .f32)
                  (broadcastInDim S1x128 ![] bcast_S_S1x128 (constant (F := Ideal) S_ .f32 0x48F42400#32)))))
            (broadcastInDim S1x128 ![] bcast_S_S1x128 (constant (F := Ideal) S_ .f32 0x3727C5AC#32))) := by
  after_results <;> rfl

/-! ## Read at feature `j`

Every operation acts entry by entry and a broadcast scalar reads the scalar, so each array at `(0, j)` is the same
expression of the operands' entries at `(0, j)`; on the extended reals the host's division and reciprocal square root
are the ideal ones and the two constants are the words of the edge count and of ε. -/

theorem stats_v9 (V : Valuation τ sig (Elt Ideal)) (j : Fin 128) :
    (StableHlo.after hostOps1 V (Proc.devRef .tc main_v9) : FVec Ideal S1x128 .f32) (ix2 (0 : Fin 1) j)
      = Ideal.div ((V (Proc.devRef .tc main_v7_0) : FVec Ideal S1x128 .f32) (ix2 (0 : Fin 1) j)) Cert.Spec.nE := by
  rw [v9_array]
  rfl

theorem stats_v16 (V : Valuation τ sig (Elt Ideal)) (j : Fin 128) :
    (StableHlo.after hostOps1 V (Proc.devRef .tc main_v16) : FVec Ideal S1x128 .f32) (ix2 (0 : Fin 1) j)
      = Ideal.rsqrt (Ideal.div ((V (Proc.devRef .tc main_v7_1) : FVec Ideal S1x128 .f32) (ix2 (0 : Fin 1) j)) Cert.Spec.nE
          - Ideal.div ((V (Proc.devRef .tc main_v7_0) : FVec Ideal S1x128 .f32) (ix2 (0 : Fin 1) j)) Cert.Spec.nE
            * Ideal.div ((V (Proc.devRef .tc main_v7_0) : FVec Ideal S1x128 .f32) (ix2 (0 : Fin 1) j)) Cert.Spec.nE
          + Cert.Spec.eps) := by
  rw [v16_array]
  rfl

theorem stats_v18 (V : Valuation τ sig (Elt Ideal)) (j : Fin 128) :
    (StableHlo.after hostOps1 V (Proc.devRef .tc main_v18) : FVec Ideal S1x128 .f32) (ix2 (0 : Fin 1) j)
      = Ideal.div ((V (Proc.devRef .tc main_v7_2) : FVec Ideal S1x128 .f32) (ix2 (0 : Fin 1) j)) Cert.Spec.nE := by
  rw [v18_array]
  rfl

theorem stats_v25 (V : Valuation τ sig (Elt Ideal)) (j : Fin 128) :
    (StableHlo.after hostOps1 V (Proc.devRef .tc main_v25) : FVec Ideal S1x128 .f32) (ix2 (0 : Fin 1) j)
      = Ideal.rsqrt (Ideal.div ((V (Proc.devRef .tc main_v7_3) : FVec Ideal S1x128 .f32) (ix2 (0 : Fin 1) j)) Cert.Spec.nE
          - Ideal.div ((V (Proc.devRef .tc main_v7_2) : FVec Ideal S1x128 .f32) (ix2 (0 : Fin 1) j)) Cert.Spec.nE
            * Ideal.div ((V (Proc.devRef .tc main_v7_2) : FVec Ideal S1x128 .f32) (ix2 (0 : Fin 1) j)) Cert.Spec.nE
          + Cert.Spec.eps) := by
  rw [v25_array]
  rfl

end Cert.KernelIdeal.Host

end
-- ==== Proof.HostTake.lean ====
/-
  What the two take stretches of @main leave in their result buffers: the take (wrap, range test, gather, fill) of
  the node table at the source index vector, and at the destination index vector, as the operations' composed term
  of the contents the stretch starts from.
-/
import proofs.«429111_j24678882083441_1_alg».proof.Proof.Gen.KernelIdeal.Frame

set_option maxRecDepth 16384

noncomputable section

namespace Cert.KernelIdeal.Host

open Idealize.ShloMosaic Idealize.ShloMosaic.TcCoe Idealize.SL.Sem Cert.KernelIdeal Cert.KernelIdeal.Gen
open Idealize.ShloMosaic.StableHlo

variable {F : FTy → Type} [FloatOps F]

set_option maxHeartbeats 4000000 in
/-- After the first stretch the source rows' buffer holds the take of the table at the source index vector. -/
theorem take_s_result (V : Valuation τ sig (Elt F)) :
    StableHlo.after hostOps0 V (Proc.devRef .tc main_v0)
      = (select
        (broadcastInDim S500000x128 ![0] bcast_S500000_S500000x128_0
          (Host.reduce IntOp.andi
            (andi
              (cmpi .sge
                (broadcastInDim S500000x1 ![0] bcast_S500000_S500000x1_0
        (select (cmpi .slt (V (Proc.devRef .tc main_arg6)) (broadcastInDim S500000 ![] bcast_S_S500000 (constantI S_ 32 0#32)))
          (addi (V (Proc.devRef .tc main_arg6)) (broadcastInDim S500000 ![] bcast_S_S500000 (constantI S_ 32 100000#32))) (V (Proc.devRef .tc main_arg6))))
                (broadcastInDim S500000x1 ![] bcast_S_S500000x1 (constantI S_ 32 0#32)))
              (cmpi .sle
                (broadcastInDim S500000x1 ![0] bcast_S500000_S500000x1_0
        (select (cmpi .slt (V (Proc.devRef .tc main_arg6)) (broadcastInDim S500000 ![] bcast_S_S500000 (constantI S_ 32 0#32)))
          (addi (V (Proc.devRef .tc main_arg6)) (broadcastInDim S500000 ![] bcast_S_S500000 (constantI S_ 32 100000#32))) (V (Proc.devRef .tc main_arg6))))
                (broadcastInDim S500000x1 ![0, 1] bcast_S1x1_S500000x1_0_1
                  (broadcastInDim S1x1 ![1] bcast_S1_S1x1_1 (constantI S1 32 99999#32)))))
            (constantI S_ 1 1#1) reducesTo_S500000x1_S500000_d1 h_S_))
        (Host.gather gather_S100000x128_S500000x1_S500000x128_1_0_n_n_0_1_1128 (V (Proc.devRef .tc main_arg0))
          (broadcastInDim S500000x1 ![0] bcast_S500000_S500000x1_0
        (select (cmpi .slt (V (Proc.devRef .tc main_arg6)) (broadcastInDim S500000 ![] bcast_S_S500000 (constantI S_ 32 0#32)))
          (addi (V (Proc.devRef .tc main_arg6)) (broadcastInDim S500000 ![] bcast_S_S500000 (constantI S_ 32 100000#32))) (V (Proc.devRef .tc main_arg6)))))
        (broadcastInDim S500000x128 ![] bcast_S_S500000x128 (constant S_ .f32 0x7FC00000#32))
        : FVec F S500000x128 .f32) := by
  after_results
  simp only [TRef.toBuf, TRef.ofBuf, cast_cast, cast_eq]

set_option maxHeartbeats 4000000 in
/-- After the second stretch the destination rows' buffer holds the take at the destination index vector. -/
theorem take_d_result (V : Valuation τ sig (Elt F)) :
    StableHlo.after hostOps0_1 V (Proc.devRef .tc main_v1)
      = (select
        (broadcastInDim S500000x128 ![0] bcast_S500000_S500000x128_0
          (Host.reduce IntOp.andi
            (andi
              (cmpi .sge
                (broadcastInDim S500000x1 ![0] bcast_S500000_S500000x1_0
        (select (cmpi .slt (V (Proc.devRef .tc main_arg7)) (broadcastInDim S500000 ![] bcast_S_S500000 (constantI S_ 32 0#32)))
          (addi (V (Proc.devRef .tc main_arg7)) (broadcastInDim S500000 ![] bcast_S_S500000 (constantI S_ 32 100000#32))) (V (Proc.devRef .tc main_arg7))))
                (broadcastInDim S500000x1 ![] bcast_S_S500000x1 (constantI S_ 32 0#32)))
              (cmpi .sle
                (broadcastInDim S500000x1 ![0] bcast_S500000_S500000x1_0
        (select (cmpi .slt (V (Proc.devRef .tc main_arg7)) (broadcastInDim S500000 ![] bcast_S_S500000 (constantI S_ 32 0#32)))
          (addi (V (Proc.devRef .tc main_arg7)) (broadcastInDim S500000 ![] bcast_S_S500000 (constantI S_ 32 100000#32))) (V (Proc.devRef .tc main_arg7))))
                (broadcastInDim S500000x1 ![0, 1] bcast_S1x1_S500000x1_0_1
                  (broadcastInDim S1x1 ![1] bcast_S1_S1x1_1 (constantI S1 32 99999#32)))))
            (constantI S_ 1 1#1) reducesTo_S500000x1_S500000_d1 h_S_))
        (Host.gather gather_S100000x128_S500000x1_S500000x128_1_0_n_n_0_1_1128 (V (Proc.devRef .tc main_arg0))
          (broadcastInDim S500000x1 ![0] bcast_S500000_S500000x1_0
        (select (cmpi .slt (V (Proc.devRef .tc main_arg7)) (broadcastInDim S500000 ![] bcast_S_S500000 (constantI S_ 32 0#32)))
          (addi (V (Proc.devRef .tc main_arg7)) (broadcastInDim S500000 ![] bcast_S_S500000 (constantI S_ 32 100000#32))) (V (Proc.devRef .tc main_arg7)))))
        (broadcastInDim S500000x128 ![] bcast_S_S500000x128 (constant S_ .f32 0x7FC00000#32))
        : FVec F S500000x128 .f32) := by
  after_results
  simp only [TRef.toBuf, TRef.ofBuf, cast_cast, cast_eq]

end Cert.KernelIdeal.Host

end
-- ==== Proof.LibGatherRows.lean ====
/-
  A gather of whole rows of a rank-2 table, read at an index.

  What `x[idx]` of a table `x : [N, C]` at a column of integers `idx : [R]` is as a gather (StableHLO's `gather`, the
  function `Host.gather`): offset_dims `[1]`, collapsed_slice_dims `[0]`, start_index_map `[0]`, index_vector_dim `1` and
  slice_sizes `[1, C]` over the indices as `[R, 1]`. Result element `(n, c)` is the table at row `idx[n, 0]` and column
  `c`, the start word read as a signed integer and clamped into `[0, N − 1]`, as the gather clamps every start index so
  that the slice fits: on the row axis the slice has one row, so the start may be any row; on the column axis the slice
  is the whole row, the start index map does not name it, and the offset coordinate is the result's column.
-/
import Idealize.ShloMosaic.Lib.ValueIdx

noncomputable section

namespace Cert.Lib.GatherRows

open Idealize.ShloMosaic Idealize.ShloMosaic.ValueIdx

variable {α : Type}

/-- The dimension numbers of a gather of whole rows: an operand `[N, C]`, start indices `[R, 1]` and a result `[R, C]`;
    the row axis is collapsed and is the one the start index names, the column axis is the result's offset axis, and a
    slice is one row. Their conditions `wf` are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The start-indices index that result index `(n, c)` reads its one start word at: `(n, 0)`, whatever the column. -/
theorem rowDims_siIdx {N R C : Nat}
    (wf : GatherDims.WF ⟨2, ![N, C]⟩ ⟨2, ![R, 1]⟩ ⟨2, ![R, C]⟩ [1] [0] [] [0] [] 1 ![1, C]) (n : Fin R) (c : Fin C) :
    (rowDims N R C wf).siIdx (ix2 n c) ⟨List.idxOf (0 : Fin 2) (rowDims N R C wf).startIndexMap,
        List.idxOf_lt_length_iff.2 (List.mem_singleton.mpr rfl)⟩ = ix2 n (0 : Fin 1) := by
  funext b
  refine Fin.ext ?_
  match b with
  | ⟨0, _⟩ => rfl
  | ⟨1, _⟩ => rfl

/-- THE GATHER OF ROWS READ AT `(n, c)`: the table at the row of the start word `idx[n, 0]`, read signed and clamped into
    `[0, N − 1]`, and at column `c`. -/
theorem gather_row_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (n : Fin R) (c : Fin C) :
    Host.gather (rowDims N R C wf) x idx (ix2 n c)
      = x (ix2 ⟨min (idx (ix2 n (0 : Fin 1))).toInt.toNat (N - 1), by omega⟩ c) := by
  unfold Host.gather
  congr 1
  funext a
  refine Fin.ext ?_
  have h10 : ¬ (1 : Fin 2) = 0 := by decide
  match a with
  | ⟨0, _⟩ =>
    -- the row axis: the clamped start word, no batching coordinate, no offset (the axis is collapsed)
    show (rowDims N R C wf).start (ix2 n c) idx 0 + (rowDims N R C wf).batchCoord (ix2 n c) 0
      + (rowDims N R C wf).offCoord (ix2 n c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl),
      rowDims_siIdx wf n c]
    rfl
  | ⟨1, _⟩ =>
    -- the column axis: no start (the start index map does not name it), no batching coordinate, the offset `c`
    show (rowDims N R C wf).start (ix2 n c) idx 1 + (rowDims N R C wf).batchCoord (ix2 n c) 1
      + (rowDims N R C wf).offCoord (ix2 n c) 1 = c.val
    rw [GatherDims.batchCoord_eq_zero _ _ _ List.not_mem_nil]
    unfold GatherDims.start
    rw [dif_neg (show ¬ (1 : Fin 2) ∈ (rowDims N R C wf).startIndexMap from fun h => h10 (List.mem_singleton.mp h))]
    simp only [Nat.add_zero, Nat.zero_add]
    unfold GatherDims.offCoord
    rw [dif_pos (show (1 : Fin 2) ∈ (rowDims N R C wf).sKept from
      (GatherDims.mem_sKept _ _).mpr ⟨fun h => h10 (List.mem_singleton.mp h), List.not_mem_nil⟩)]
    rfl

end Cert.Lib.GatherRows

end
-- ==== Proof.Index.lean ====
/-
  The node-table gather both programs start with, read at an index.

  An edge's index word `s` is first wrapped as Python wraps a negative index (`s + 100000` when `s < 0`), the
  wrapped words are laid out as a `[500000, 1]` column of start indices, and a gather of whole rows takes, for edge
  `e`, the row of the table at the start word read signed and clamped into `[0, 99999]`. So element `(e, k)` of the
  gathered table is `x (rowOf (s e), k)`.
-/
import Idealize.ShloMosaic.Lib.ValueIdx
import proofs.«429111_j24678882083441_1_alg».proof.Proof.Spec
import proofs.«429111_j24678882083441_1_alg».proof.Proof.LibGatherRows

noncomputable section

namespace Cert.Index

open Idealize.ShloMosaic Idealize.ShloMosaic.ValueIdx Cert.Lib.GatherRows

/-- The wrap of a negative index, as the two programs print it (a signed compare with zero, an add of 100000
    and a select), at edge `e`. -/
theorem wrap_apply (src : IVec ⟨1, ![500000]⟩ 32)
    (h0 : (⟨0, ![]⟩ : Shape).BroadcastsInDim ⟨1, ![500000]⟩ ![]) (i : (⟨1, ![500000]⟩ : Shape).Idx) :
    select (cmpi .slt src (broadcastInDim ⟨1, ![500000]⟩ ![] h0 (constantI ⟨0, ![]⟩ 32 0#32)))
        (addi src (broadcastInDim ⟨1, ![500000]⟩ ![] h0 (constantI ⟨0, ![]⟩ 32 100000#32))) src i
      = Spec.wrapW (src i) := by
  show Scalar.select (IntOp.cmpi .slt (src i) 0#32) (IntOp.addi (src i) 100000#32) (src i) = _
  unfold Spec.wrapW IntOp.cmpi IntOp.addi
  by_cases h : (src i).slt 0#32
  · rw [h, if_pos rfl]; exact select_one _ _
  · have h' : (src i).slt 0#32 = false := by simpa using h
    rw [h', if_neg (by simp)]; exact select_zero _ _

/-- A column `[R] → [R, 1]` read at `(n, 0)`. -/
theorem column_apply {R w : Nat} (v : IVec ⟨1, ![R]⟩ w)
    (hb : (⟨1, ![R]⟩ : Shape).BroadcastsInDim ⟨2, ![R, 1]⟩ ![0]) (n : Fin R) :
    broadcastInDim ⟨2, ![R, 1]⟩ ![0] hb v (ix2 n (0 : Fin 1)) = v (ix1 n) := by
  unfold broadcastInDim
  refine congrArg v (funext fun a => Fin.ext ?_)
  match a with
  | ⟨0, _⟩ =>
    split
    · next h1 =>
      -- a column of length one: its only row is row 0
      have hR : R = 1 := h1
      have hn := n.isLt
      show 0 = n.val
      omega
    · rfl

/-- THE GATHERED TABLE AT `(e, k)`: the row the wrapped, clamped index word of edge `e` selects, at column `k`. -/
theorem gathered_apply
    (wf : GatherDims.WF ⟨2, ![100000, 128]⟩ ⟨2, ![500000, 1]⟩ ⟨2, ![500000, 128]⟩ [1] [0] [] [0] [] 1 ![1, 128])
    (x : (⟨2, ![100000, 128]⟩ : Shape).Idx → EReal) (src : IVec ⟨1, ![500000]⟩ 32)
    (h0 : (⟨0, ![]⟩ : Shape).BroadcastsInDim ⟨1, ![500000]⟩ ![])
    (hb : (⟨1, ![500000]⟩ : Shape).BroadcastsInDim ⟨2, ![500000, 1]⟩ ![0]) (e : Fin 500000) (k : Fin 128) :
    Host.gather (rowDims 100000 500000 128 wf) x
        (broadcastInDim ⟨2, ![500000, 1]⟩ ![0] hb
          (select (cmpi .slt src (broadcastInDim ⟨1, ![500000]⟩ ![] h0 (constantI ⟨0, ![]⟩ 32 0#32)))
            (addi src (broadcastInDim ⟨1, ![500000]⟩ ![] h0 (constantI ⟨0, ![]⟩ 32 100000#32))) src)) (ix2 e k)
      = Spec.gatherRows x src e k := by
  refine (gather_row_apply (by decide) wf x _ e k).trans ?_
  unfold Spec.gatherRows Spec.rowOf
  refine congrArg x (congrArg (fun r => ix2 r k) (Fin.ext ?_))
  show min _ _ = min _ _
  rw [column_apply, wrap_apply]

end Cert.Index

end
-- ==== Proof.LibAndAll.lean ====
import Idealize.ShloMosaic.PureOps.Reduce

/-!
# A conjunction over an axis that holds everywhere

`Lib/ReduceAll.lean` of the library reads a `stablehlo.reduce` with body `and` from its result to its operand: if
the result is true at `j`, every operand element that drops to `j` is true.  This file has the converse for a
reduction that starts from `true`: if EVERY element of the operand is true, the result is true at every index,
whatever the axes reduced.
-/

namespace Idealize.ShloMosaic

namespace IntOp

/-- A left fold of `and` from `true` over elements that are all `true` is `true`. -/
theorem foldl_andi_of_all {ι : Type} (f : ι → BitVec 1) :
    ∀ l : List ι, (∀ n ∈ l, f n = 1#1) → l.foldl (fun r n => andi r (f n)) 1#1 = 1#1
  | [], _ => rfl
  | a :: l, h => by
    have e : andi 1#1 (f a) = 1#1 := by rw [h a (List.mem_cons_self ..)]; decide
    rw [List.foldl_cons, e]
    exact foldl_andi_of_all f l fun n hn => h n (List.mem_cons_of_mem _ hn)

end IntOp

namespace Host

variable {s t u : Shape} {axes : List (Fin s.rank)}

/-- A `stablehlo.reduce` with body `and`, started from `true`, of an operand that is `true` everywhere, is `true`
    at every index of the result. -/
theorem reduce_andi_of_all (x : s.Idx → BitVec 1) (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl, hinit]
  exact IntOp.foldl_andi_of_all x _ fun n _ => hx n

end Host

end Idealize.ShloMosaic
-- ==== Proof.Mask.lean ====
/-
  The out-of-range fill of the table take is never taken.

  After the wrap of a negative index (`s + 100000` below zero, `s` otherwise) the programs test, per edge, that the
  wrapped word w has 0 ≤ w and w ≤ 99999 (signed), reduce the two tests by `and` along the column's unit axis, and
  select the gathered row where the test holds and a fill constant elsewhere.  For an index word with
  -100000 ≤ s < 100000 the wrapped word is in [0, 99999]: below zero, s + 100000 lies in [0, 99999] and the 32-bit
  sum does not wrap; otherwise s itself is in [0, 99999].  So both tests hold at every edge, the conjunction over the
  unit axis holds at every edge, and the select returns the gathered table everywhere.
-/
import Idealize.ShloMosaic.Lib.Affine
import Idealize.ShloMosaic.Lib.ValueIdx
import proofs.«429111_j24678882083441_1_alg».proof.Proof.Spec
import proofs.«429111_j24678882083441_1_alg».proof.Proof.Index
import proofs.«429111_j24678882083441_1_alg».proof.Proof.LibAndAll

noncomputable section

namespace Cert.Mask

open Idealize.ShloMosaic

/-- The wrapped word of an index in [-100000, 100000) lies in [0, 99999], read signed. -/
theorem wrap_range (s : BitVec 32) (h : (-100000 : Int) ≤ s.toInt ∧ s.toInt < 100000) :
    (0 : Int) ≤ (Spec.wrapW s).toInt ∧ (Spec.wrapW s).toInt ≤ 99999 := by
  unfold Spec.wrapW
  have hz : (0#32 : BitVec 32).toInt = 0 := by decide
  by_cases hs : s.slt 0#32 = true
  · rw [if_pos hs]
    have hneg : s.toInt < 0 := by
      have := BitVec.slt_iff_toInt_lt.1 hs
      rwa [hz] at this
    have hc : (100000#32 : BitVec 32).toInt = 100000 := by decide
    -- the sum s + 100000 is in [0, 99999], inside the signed range, so the 32-bit addition is the integer one
    have hb : (s.toInt + 100000).bmod (2 ^ 32) = s.toInt + 100000 := by
      apply Int.bmod_eq_of_le <;> omega
    rw [BitVec.toInt_add, hc, hb]
    omega
  · rw [if_neg hs]
    have hnn : ¬ s.toInt < 0 := fun hlt => hs (BitVec.slt_iff_toInt_lt.2 (by rwa [hz]))
    omega

/-- A property of every element of the operand holds of every element of its broadcast. -/
theorem bcast_forall {α : Type} {s t : Shape} {dims : Fin s.rank → Fin t.rank} (P : α → Prop)
    (h : s.BroadcastsInDim t dims) (x : s.Idx → α) (hx : ∀ k, P (x k)) (j : t.Idx) :
    P (broadcastInDim t dims h x j) := hx _

/-- A select whose condition is true everywhere is its first branch. -/
theorem select_of_all_one {α : Type} {s : Shape} (c : IVec s 1) (a b : s.Idx → α) (hc : ∀ j, c j = 1#1) :
    select c a b = a := by
  funext j
  show Scalar.select (c j) (a j) (b j) = a j
  rw [hc j]
  exact ValueIdx.select_one _ _

/-- The range test on a column of words that all lie in [0, 99999], reduced by `and` along the unit axis, is
    true at every edge. -/
theorem mask_true {axes : List (Fin (⟨2, ![500000, 1]⟩ : Shape).rank)} (W : IVec ⟨2, ![500000, 1]⟩ 32)
    (hW : ∀ i, (0 : Int) ≤ (W i).toInt ∧ (W i).toInt ≤ 99999)
    (h05 : (⟨0, ![]⟩ : Shape).BroadcastsInDim ⟨2, ![500000, 1]⟩ ![])
    (h1 : (⟨1, ![1]⟩ : Shape).BroadcastsInDim ⟨2, ![1, 1]⟩ ![1])
    (h11 : (⟨2, ![1, 1]⟩ : Shape).BroadcastsInDim ⟨2, ![500000, 1]⟩ ![0, 1])
    (hred : (⟨2, ![500000, 1]⟩ : Shape).ReducesTo axes ⟨1, ![500000]⟩) (hpos : 0 < (⟨0, ![]⟩ : Shape).numel)
    (e : (⟨1, ![500000]⟩ : Shape).Idx) :
    Host.reduce IntOp.andi
        (andi (cmpi .sge W (broadcastInDim ⟨2, ![500000, 1]⟩ ![] h05 (constantI ⟨0, ![]⟩ 32 0#32)))
          (cmpi .sle W (broadcastInDim ⟨2, ![500000, 1]⟩ ![0, 1] h11
            (broadcastInDim ⟨2, ![1, 1]⟩ ![1] h1 (constantI ⟨1, ![1]⟩ 32 99999#32)))))
        (constantI ⟨0, ![]⟩ 1 1#1) hred hpos e = 1#1 := by
  apply Host.reduce_andi_of_all
  · rfl
  · intro i
    show IntOp.andi (IntOp.cmpi .sge (W i) 0#32) (IntOp.cmpi .sle (W i) 99999#32) = 1#1
    have hz : (0#32 : BitVec 32).toInt = 0 := by decide
    have hc : (99999#32 : BitVec 32).toInt = 99999 := by decide
    exact IntOp.andi_eq_one.2 ⟨IntOp.cmpi_sge.2 (by rw [hz]; exact (hW i).1), IntOp.cmpi_sle.2 (by rw [hc]; exact (hW i).2)⟩

/-- THE TAKE'S SELECT IS THE GATHERED TABLE: for index words in [-100000, 100000) the range test of the wrapped
    column holds at every edge, so the fill constant is never selected. -/
theorem take_eq (src : IVec ⟨1, ![500000]⟩ 32)
    (hr : ∀ i, (-100000 : Int) ≤ (src i).toInt ∧ (src i).toInt < 100000)
    (G : (⟨2, ![500000, 128]⟩ : Shape).Idx → EReal)
    (h0 : (⟨0, ![]⟩ : Shape).BroadcastsInDim ⟨1, ![500000]⟩ ![])
    (hb : (⟨1, ![500000]⟩ : Shape).BroadcastsInDim ⟨2, ![500000, 1]⟩ ![0])
    (h05 : (⟨0, ![]⟩ : Shape).BroadcastsInDim ⟨2, ![500000, 1]⟩ ![])
    (h1 : (⟨1, ![1]⟩ : Shape).BroadcastsInDim ⟨2, ![1, 1]⟩ ![1])
    (h11 : (⟨2, ![1, 1]⟩ : Shape).BroadcastsInDim ⟨2, ![500000, 1]⟩ ![0, 1])
    (hred : (⟨2, ![500000, 1]⟩ : Shape).ReducesTo [1] ⟨1, ![500000]⟩) (hpos : 0 < (⟨0, ![]⟩ : Shape).numel)
    (hbm : (⟨1, ![500000]⟩ : Shape).BroadcastsInDim ⟨2, ![500000, 128]⟩ ![0])
    (hbn : (⟨0, ![]⟩ : Shape).BroadcastsInDim ⟨2, ![500000, 128]⟩ ![]) :
    select
        (broadcastInDim ⟨2, ![500000, 128]⟩ ![0] hbm
          (Host.reduce IntOp.andi
            (andi
              (cmpi .sge
                (broadcastInDim ⟨2, ![500000, 1]⟩ ![0] hb
                  (select (cmpi .slt src (broadcastInDim ⟨1, ![500000]⟩ ![] h0 (constantI ⟨0, ![]⟩ 32 0#32)))
                    (addi src (broadcastInDim ⟨1, ![500000]⟩ ![] h0 (constantI ⟨0, ![]⟩ 32 100000#32))) src))
                (broadcastInDim ⟨2, ![500000, 1]⟩ ![] h05 (constantI ⟨0, ![]⟩ 32 0#32)))
              (cmpi .sle
                (broadcastInDim ⟨2, ![500000, 1]⟩ ![0] hb
                  (select (cmpi .slt src (broadcastInDim ⟨1, ![500000]⟩ ![] h0 (constantI ⟨0, ![]⟩ 32 0#32)))
                    (addi src (broadcastInDim ⟨1, ![500000]⟩ ![] h0 (constantI ⟨0, ![]⟩ 32 100000#32))) src))
                (broadcastInDim ⟨2, ![500000, 1]⟩ ![0, 1] h11
                  (broadcastInDim ⟨2, ![1, 1]⟩ ![1] h1 (constantI ⟨1, ![1]⟩ 32 99999#32)))))
            (constantI ⟨0, ![]⟩ 1 1#1) hred hpos))
        G
        (broadcastInDim ⟨2, ![500000, 128]⟩ ![] hbn (constant (F := Ideal) ⟨0, ![]⟩ .f32 0x7FC00000#32))
      = G := by
  refine select_of_all_one _ _ _ fun j => ?_
  refine bcast_forall (fun b => b = 1#1) hbm _ (fun e => ?_) j
  refine mask_true _ (fun i => ?_) h05 h1 h11 hred hpos e
  refine bcast_forall (fun v : BitVec 32 => (0 : Int) ≤ v.toInt ∧ v.toInt ≤ 99999) hb _ (fun k => ?_) i
  rw [Index.wrap_apply]
  exact wrap_range _ (hr k)

end Cert.Mask

end
-- ==== Proof.TakeRows.lean ====
/-
  The table take both of the kernel's gathered operands come from, as one function of the node table and an index
  vector: the index words are wrapped (Python's negative index), laid out as a column of start indices, tested
  against the table's row range, and the gathered rows are kept where the test holds and replaced by a fill
  constant elsewhere.  For index words in [-100000, 100000) the test holds at every edge, and the take at
  `(e, k)` is the node table at the row the wrapped, clamped word of edge `e` selects and at column `k`.
-/
import proofs.«429111_j24678882083441_1_alg».proof.Proof.Gen.KernelIdeal.Frame
import proofs.«429111_j24678882083441_1_alg».proof.Proof.Spec
import proofs.«429111_j24678882083441_1_alg».proof.Proof.Index
import proofs.«429111_j24678882083441_1_alg».proof.Proof.Mask

set_option maxRecDepth 16384

noncomputable section

namespace Cert.KernelIdeal.Host

open Idealize.ShloMosaic Idealize.ShloMosaic.TcCoe Idealize.SL.Sem Cert.KernelIdeal Cert.KernelIdeal.Gen
open Idealize.ShloMosaic.ValueIdx

variable {F : FTy → Type} [FloatOps F]

/-- The take of rows of the node table `x` at the index vector `s`, as @main's operations spell it. -/
def takeRows (x : FVec F S100000x128 .f32) (s : IVec S500000 32) : FVec F S500000x128 .f32 :=
  select
    (broadcastInDim S500000x128 ![0] bcast_S500000_S500000x128_0
      (Host.reduce IntOp.andi
        (andi
          (cmpi .sge
            (broadcastInDim S500000x1 ![0] bcast_S500000_S500000x1_0
        (select (cmpi .slt s (broadcastInDim S500000 ![] bcast_S_S500000 (constantI S_ 32 0#32)))
          (addi s (broadcastInDim S500000 ![] bcast_S_S500000 (constantI S_ 32 100000#32))) s))
            (broadcastInDim S500000x1 ![] bcast_S_S500000x1 (constantI S_ 32 0#32)))
          (cmpi .sle
            (broadcastInDim S500000x1 ![0] bcast_S500000_S500000x1_0
        (select (cmpi .slt s (broadcastInDim S500000 ![] bcast_S_S500000 (constantI S_ 32 0#32)))
          (addi s (broadcastInDim S500000 ![] bcast_S_S500000 (constantI S_ 32 100000#32))) s))
            (broadcastInDim S500000x1 ![0, 1] bcast_S1x1_S500000x1_0_1
              (broadcastInDim S1x1 ![1] bcast_S1_S1x1_1 (constantI S1 32 99999#32)))))
        (constantI S_ 1 1#1) reducesTo_S500000x1_S500000_d1 h_S_))
    (Host.gather gather_S100000x128_S500000x1_S500000x128_1_0_n_n_0_1_1128 x
      (broadcastInDim S500000x1 ![0] bcast_S500000_S500000x1_0
        (select (cmpi .slt s (broadcastInDim S500000 ![] bcast_S_S500000 (constantI S_ 32 0#32)))
          (addi s (broadcastInDim S500000 ![] bcast_S_S500000 (constantI S_ 32 100000#32))) s)))
    (broadcastInDim S500000x128 ![] bcast_S_S500000x128 (constant S_ .f32 0x7FC00000#32))

/-- With every index word in [-100000, 100000) the fill is never taken: the take at `(e, k)` is the gathered row. -/
theorem takeRows_apply (x : FVec Ideal S100000x128 .f32) (s : IVec S500000 32)
    (hr : ∀ i, (-100000 : Int) ≤ (s i).toInt ∧ (s i).toInt < 100000) (e : Fin 500000) (k : Fin 128) :
    takeRows (F := Ideal) x s (ix2 e k) = Cert.Spec.gatherRows x s e k := by
  unfold takeRows
  rw [Cert.Mask.take_eq s hr]
  exact Cert.Index.gathered_apply gather_S100000x128_S500000x1_S500000x128_1_0_n_n_0_1_1128_wf x s bcast_S_S500000
    bcast_S500000_S500000x1_0 e k

end Cert.KernelIdeal.Host

end
-- ==== Proof.LibMatmulPlain.lean ====
/-
  A plain matrix product, read at an index.

  For dimension numbers that contract the left operand's axis 1 with the right operand's axis 0, keep the left operand's
  axis 0 and the right operand's axis 1, and have no batch axis, the product of `l : [M, K]` and `r : [K, N]` into a zero
  accumulator is, at `(p, q)`, the sum over `k < K` of `l (p, k) · r (k, q)` on the extended reals. The contraction
  index set has one axis of extent `K`; the sum over it is re-indexed by its one coordinate.
-/
import Idealize.ShloMosaic.PureOps.Ideal.Laws
import Idealize.ShloMosaic.Lib.ValueIdx

noncomputable section

namespace Cert.Lib.MatmulPlain

open Idealize.ShloMosaic Idealize.ShloMosaic.ValueIdx

variable {M K N : Nat} (d : DotDims ⟨2, ![M, K]⟩ ⟨2, ![K, N]⟩ ⟨2, ![M, N]⟩)

/-- The contraction index set has one axis. -/
theorem contr_rank (hlc : d.lhsContracting = [1]) : d.contr.rank = 1 := by
  rw [d.rank_contr, hlc]; rfl

/-- Its extent is the contracted extent `K`. -/
theorem contr_size (hlc : d.lhsContracting = [1]) :
    d.contr.size ⟨0, by rw [contr_rank d hlc]; exact Nat.one_pos⟩ = K := by
  have key : ∀ (L : List (Fin 2)) (h : L = [1]) (hp : 0 < (Shape.ofList (L.map (⟨2, ![M, K]⟩ : Shape).size)).rank),
      (Shape.ofList (L.map (⟨2, ![M, K]⟩ : Shape).size)).size ⟨0, hp⟩ = K := by
    intro L h hp; subst h; rfl
  exact key _ hlc _

/-- The left operand's row coordinate is the result's row. -/
theorem lhs_0 (hln : d.lhsNonContracting = [0]) (hlb : d.lhsBatch = []) (j : (⟨2, ![M, N]⟩ : Shape).Idx) (k : d.contr.Idx) :
    (d.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln])

/-- The left operand's column coordinate is the contraction position. -/
theorem lhs_1 (hlc : d.lhsContracting = [1]) (j : (⟨2, ![M, N]⟩ : Shape).Idx) (k : d.contr.Idx) :
    (d.lhsIdx j k 1).val = (k ⟨0, by rw [contr_rank d hlc]; exact Nat.one_pos⟩).val :=
  d.lhsIdx_val_of_single hlc j k

/-- The right operand's row coordinate is the contraction position. -/
theorem rhs_0 (hlc : d.lhsContracting = [1]) (hrc : d.rhsContracting = [0]) (j : (⟨2, ![M, N]⟩ : Shape).Idx) (k : d.contr.Idx) :
    (d.rhsIdx j k 0).val = (k ⟨0, by rw [contr_rank d hlc]; exact Nat.one_pos⟩).val :=
  d.rhsIdx_val_of_single hrc j k

/-- The right operand's column coordinate is the result's column. -/
theorem rhs_1 (hrn : d.rhsNonContracting = [1]) (hln : d.lhsNonContracting = [0]) (hlb : d.lhsBatch = []) (hrb : d.rhsBatch = [])
    (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln, hrn])

/-- THE PRODUCT AT `(p, q)`: the sum over the contracted coordinate of the operands' products. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q)
      = ∑ k : Fin K, l (ix2 p k) * r (ix2 k q) := by
  rw [Ideal.matmul_constant_zero_apply]
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_0 d hln hlb _ _
    | ⟨1, _⟩ => exact (lhs_1 d hlc _ _).trans hk
  have er : d.rhsIdx (ix2 p q) ((contrEquiv1 d K (contr_rank d hlc) (contr_size d hlc)).symm k) = ix2 k q := by
    funext a; apply Fin.ext
    match a with
    | ⟨0, _⟩ => exact (rhs_0 d hlc hrc _ _).trans hk
    | ⟨1, _⟩ => exact rhs_1 d hrn hln hlb hrb _ _
  rw [el, er]

end Cert.Lib.MatmulPlain

end
-- ==== Proof.LibTiles.lean ====
/-
  A sum over a range cut into equal tiles.

  The index range [0, T·R) is the disjoint union of the T tiles [R·s, R·s + R), s < T: every index e < T·R is
  R·s + r for exactly one pair (s, r) with s < T and r < R, namely s = e / R and r = e % R.  So the sum of a
  family over [0, T·R) is the sum over the tiles s of the sums over the rows r of each tile.  Here the tiles are
  counted by a range of natural numbers and the entry at (s, r) is read behind a bound check R·s + r < T·R, which
  holds for every s < T and r < R; outside it the entry is read as 0, a case that never occurs in the sum.
  The family takes values in any additive commutative monoid.
-/
import Mathlib.Algebra.BigOperators.Fin
import Mathlib.Data.Fintype.BigOperators
import Mathlib.Logic.Equiv.Fin.Basic

namespace Cert.Lib.Tiles

/-- Row r of tile s lies inside the range: R·s + r < R·s + R = R·(s + 1) ≤ R·T. -/
theorem tile_row_lt {T R : ℕ} (s : Fin T) (r : Fin R) : R * s.val + r.val < T * R :=
  calc R * s.val + r.val < R * s.val + R := Nat.add_lt_add_left r.isLt _
    _ = R * (s.val + 1) := (Nat.mul_succ R s.val).symm
    _ ≤ R * T := Nat.mul_le_mul_left R s.isLt
    _ = T * R := Nat.mul_comm R T

/-- The sum over the tiles of the sums over each tile's rows is the sum over all rows: the pairs (s, r) with
    s < T and r < R correspond one to one to the indices R·s + r below T·R, and a sum over pairs is the
    iterated sum. -/
theorem sum_range_tiles {M : Type*} [AddCommMonoid M] (T R : ℕ) (f : Fin (T * R) → M) :
    (∑ s ∈ Finset.range T, ∑ r : Fin R, (if h : R * s + r.val < T * R then f ⟨R * s + r.val, h⟩ else 0)) = ∑ e : Fin (T * R), f e := by
  rw [Finset.sum_range
    (fun s => ∑ r : Fin R, (if h : R * s + r.val < T * R then f ⟨R * s + r.val, h⟩ else 0))]
  have step : ∀ (s : Fin T) (r : Fin R),
      (if h : R * s.val + r.val < T * R then f ⟨R * s.val + r.val, h⟩ else 0)
        = f (finProdFinEquiv (s, r)) := by
    intro s r
    rw [dif_pos (tile_row_lt s r)]
    exact congrArg f (Fin.ext (Nat.add_comm _ _))
  simp only [step]
  rw [← Fintype.sum_prod_type (fun p : Fin T × Fin R => f (finProdFinEquiv p))]
  exact Equiv.sum_comp finProdFinEquiv f

/-- The same with the length of the range named on its own: for N = T·R. -/
theorem sum_range_tiles_of_eq {M : Type*} [AddCommMonoid M] (T R N : ℕ) (hN : T * R = N) (f : Fin N → M) :
    (∑ s ∈ Finset.range T, ∑ r : Fin R, (if h : R * s + r.val < N then f ⟨R * s + r.val, h⟩ else 0)) = ∑ e : Fin N, f e := by
  subst hN
  exact sum_range_tiles T R f

/-- 500000 rows in 100 tiles of 5000. -/
theorem sum_range_tiles_500000 {M : Type*} [AddCommMonoid M] (f : Fin 500000 → M) :
    (∑ s ∈ Finset.range 100, ∑ r : Fin 5000, (if h : 5000 * s + r.val < 500000 then f ⟨5000 * s + r.val, h⟩ else 0)) = ∑ e : Fin 500000, f e :=
  sum_range_tiles_of_eq 100 5000 500000 rfl f

end Cert.Lib.Tiles
-- ==== Proof.Region0.lean ====
/-
  The value of the statistics region.

  The grid has 100 points; point `t` sees rows `5000 t … 5000 t + 4999` of the two gathered tables (one row of
  128 features per edge), the whole weight matrix `W` and the bias row `b`. With `h e j = (∑ k, X e k · W j k) + b j`
  for a table `X`, each point adds to four `[1, 128]` rows the column sums over its tile of `h` and of `h²`, for
  the source table and for the destination table; the first point starts the rows from zero, and the rows are written
  back once, after the last point. So the four arrays end as `∑ e, h e j` and `∑ e, h e j · h e j` over all 500000
  edges, for each table: the sum over the tiles of the sums over each tile's rows is the sum over all rows.
-/
import proofs.«429111_j24678882083441_1_alg».proof.Proof.Gen.KernelIdeal.Frame
import proofs.«429111_j24678882083441_1_alg».proof.Proof.Spec
import Idealize.ShloMosaic.Lib.Pipeline.Value
import Idealize.ShloMosaic.Lib.Tactic
import Idealize.ShloMosaic.Lib.ValueIdx
import Idealize.ShloMosaic.PureOps.Ideal.Laws
import proofs.«429111_j24678882083441_1_alg».proof.Proof.LibMatmulPlain
import proofs.«429111_j24678882083441_1_alg».proof.Proof.LibTiles

set_option maxRecDepth 16384

noncomputable section

namespace Cert.KernelIdeal.Regions

open Idealize.ShloMosaic Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-! region 0's arrays as the region finds them, by literal type -/
abbrev xs0 (c : Dev nD) : Vec Ideal S500000x128 .f32 := V c (Pipeline.arrRef spec0 0)
abbrev xd0 (c : Dev nD) : Vec Ideal S500000x128 .f32 := V c (Pipeline.arrRef spec0 1)
abbrev w0 (c : Dev nD) : Vec Ideal S128x128 .f32 := V c (Pipeline.arrRef spec0 2)
abbrev b0 (c : Dev nD) : Vec Ideal S1x128 .f32 := V c (Pipeline.arrRef spec0 3)

/-! ## What each control case leaves in each output block

At the first grid point the block is set to zero and the update then reads that zero back; at every later point
the update reads what the point before left. In both cases the one store that covers the block last decides its
contents, and every load reads a whole buffer, so the block is the update's arithmetic applied to the loaded
blocks. -/

namespace R0
section Pieces
variable {F : FTy → Type} [FloatOps F]

/-- The zero offsets of a rank-2 block, as the constant function. -/
theorem hz : (![0, 0] : Fin 2 → Nat) = fun _ => 0 := funext fun a => by fin_cases a <;> rfl

/-- Output 4 after a later point: what it held plus the source tile's affine map summed over its rows. -/
theorem piece_B_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 : Vec F S5000x128 .f32) (x1 : Vec F S5000x128 .f32) (x2 : Vec F S128x128 .f32) (x3 : Vec F S1x128 .f32) (xo4 : Vec F S1x128 .f32) (xo5 : Vec F S1x128 .f32) (xo6 : Vec F S1x128 .f32) (xo7 : Vec F S1x128 .f32) :
    out0_B_4 c i arg1 harg1 arg2 harg2 arg3 harg3 arg4 harg4 arg5 harg5 arg6 harg6 arg7 harg7 arg8 harg8 hc0 x0 x1 x2 x3 xo4 xo5 xo6 xo7 = k0_pay10 x2 x0 x3 xo4 := by
  unfold out0_B_4
  rw [View.read_writes_eq_canon _ _ _ (cover0_B_4 c i arg1 harg1 arg2 harg2 arg3 harg3 arg4 harg4 arg5 harg5 arg6 harg6 arg7 harg7 arg8 harg8 hc0 x0 x1 x2 x3 xo4 xo5 xo6 xo7)]
  unfold kernelRun0_B
  dsimp only
  sl_unfold_words
  rw [View.canon_unit_zero (S := S1x128) hz]
  simp only [View.readAt_eq_ld, harg1.read_unread, harg2.read_unread, harg3.read_unread, harg4.read_unread, harg5.read_unread, harg6.read_unread, harg7.read_unread, harg8.read_unread, View.ld_unit_zero (S := S1x128) hz, View.ld_unit_zero (S := S128x128) hz, View.ld_unit_zero (S := S5000x128) hz]

/-- Output 4 after the first point: zero plus the source tile's affine map summed over its rows. -/
theorem piece_A_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 : Vec F S5000x128 .f32) (x1 : Vec F S5000x128 .f32) (x2 : Vec F S128x128 .f32) (x3 : Vec F S1x128 .f32) :
    out0_A_4 c i arg1 harg1 arg2 harg2 arg3 harg3 arg4 harg4 arg5 harg5 arg6 harg6 arg7 harg7 arg8 harg8 hc0 x0 x1 x2 x3 = k0_pay10 x2 x0 x3 (k0_pay3 (F := F)) := by
  unfold out0_A_4
  rw [View.read_writes_eq_canon _ _ _ (cover0_A_4 c i arg1 harg1 arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg7.read_unread, harg8.read_unread, View.ld_unit_zero (S := S1x128) hz, View.ld_unit_zero (S := S128x128) hz, View.ld_unit_zero (S := S5000x128) hz]

/-- Output 5 after a later point: what it held plus the squares of the source tile's affine map summed over its rows. -/
theorem piece_B_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 : Vec F S5000x128 .f32) (x1 : Vec F S5000x128 .f32) (x2 : Vec F S128x128 .f32) (x3 : Vec F S1x128 .f32) (xo4 : Vec F S1x128 .f32) (xo5 : Vec F S1x128 .f32) (xo6 : Vec F S1x128 .f32) (xo7 : Vec F S1x128 .f32) :
    out0_B_5 c i arg1 harg1 arg2 harg2 arg3 harg3 arg4 harg4 arg5 harg5 arg6 harg6 arg7 harg7 arg8 harg8 hc0 x0 x1 x2 x3 xo4 xo5 xo6 xo7 = k0_pay11 x2 x0 x3 xo5 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 xo4 xo5 xo6 xo7)]
  unfold kernelRun0_B
  dsimp only
  sl_unfold_words
  rw [View.canon_unit_zero (S := S1x128) hz]
  simp only [View.readAt_eq_ld, harg1.read_unread, harg2.read_unread, harg3.read_unread, harg4.read_unread, harg5.read_unread, harg6.read_unread, harg7.read_unread, harg8.read_unread, View.ld_unit_zero (S := S1x128) hz, View.ld_unit_zero (S := S128x128) hz, View.ld_unit_zero (S := S5000x128) hz]

/-- Output 5 after the first point: zero plus the squares of the source tile's affine map summed over its rows. -/
theorem piece_A_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 : Vec F S5000x128 .f32) (x1 : Vec F S5000x128 .f32) (x2 : Vec F S128x128 .f32) (x3 : Vec F S1x128 .f32) :
    out0_A_5 c i arg1 harg1 arg2 harg2 arg3 harg3 arg4 harg4 arg5 harg5 arg6 harg6 arg7 harg7 arg8 harg8 hc0 x0 x1 x2 x3 = k0_pay11 x2 x0 x3 (k0_pay4 (F := F)) := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg7.read_unread, harg8.read_unread, View.ld_unit_zero (S := S1x128) hz, View.ld_unit_zero (S := S128x128) hz, View.ld_unit_zero (S := S5000x128) hz]

/-- Output 6 after a later point: what it held plus the destination tile's affine map summed over its rows. -/
theorem piece_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 : Vec F S5000x128 .f32) (x1 : Vec F S5000x128 .f32) (x2 : Vec F S128x128 .f32) (x3 : Vec F S1x128 .f32) (xo4 : Vec F S1x128 .f32) (xo5 : Vec F S1x128 .f32) (xo6 : Vec F S1x128 .f32) (xo7 : Vec F S1x128 .f32) :
    out0_B_6 c i arg1 harg1 arg2 harg2 arg3 harg3 arg4 harg4 arg5 harg5 arg6 harg6 arg7 harg7 arg8 harg8 hc0 x0 x1 x2 x3 xo4 xo5 xo6 xo7 = k0_pay1 (k0_pay9 x2 x1 x3) xo6 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 xo4 xo5 xo6 xo7)]
  unfold kernelRun0_B
  dsimp only
  sl_unfold_words
  rw [View.canon_unit_zero (S := S1x128) hz]
  simp only [View.readAt_eq_ld, harg1.read_unread, harg2.read_unread, harg3.read_unread, harg4.read_unread, harg5.read_unread, harg6.read_unread, harg7.read_unread, harg8.read_unread, View.ld_unit_zero (S := S1x128) hz, View.ld_unit_zero (S := S128x128) hz, View.ld_unit_zero (S := S5000x128) hz]

/-- Output 6 after the first point: zero plus the destination tile's affine map summed over its rows. -/
theorem piece_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 : Vec F S5000x128 .f32) (x1 : Vec F S5000x128 .f32) (x2 : Vec F S128x128 .f32) (x3 : Vec F S1x128 .f32) :
    out0_A_6 c i arg1 harg1 arg2 harg2 arg3 harg3 arg4 harg4 arg5 harg5 arg6 harg6 arg7 harg7 arg8 harg8 hc0 x0 x1 x2 x3 = k0_pay1 (k0_pay9 x2 x1 x3) (k0_pay5 (F := F)) := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg7.read_unread, harg8.read_unread, View.ld_unit_zero (S := S1x128) hz, View.ld_unit_zero (S := S128x128) hz, View.ld_unit_zero (S := S5000x128) hz]

/-- Output 7 after a later point: what it held plus the squares of the destination tile's affine map summed over its rows. -/
theorem piece_B_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 : Vec F S5000x128 .f32) (x1 : Vec F S5000x128 .f32) (x2 : Vec F S128x128 .f32) (x3 : Vec F S1x128 .f32) (xo4 : Vec F S1x128 .f32) (xo5 : Vec F S1x128 .f32) (xo6 : Vec F S1x128 .f32) (xo7 : Vec F S1x128 .f32) :
    out0_B_7 c i arg1 harg1 arg2 harg2 arg3 harg3 arg4 harg4 arg5 harg5 arg6 harg6 arg7 harg7 arg8 harg8 hc0 x0 x1 x2 x3 xo4 xo5 xo6 xo7 = k0_pay2 (k0_pay9 x2 x1 x3) xo7 := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 xo4 xo5 xo6 xo7)]
  unfold kernelRun0_B
  dsimp only
  sl_unfold_words
  rw [View.canon_unit_zero (S := S1x128) hz]
  simp only [View.readAt_eq_ld, harg1.read_unread, harg2.read_unread, harg3.read_unread, harg4.read_unread, harg5.read_unread, harg6.read_unread, harg7.read_unread, harg8.read_unread, View.ld_unit_zero (S := S1x128) hz, View.ld_unit_zero (S := S128x128) hz, View.ld_unit_zero (S := S5000x128) hz]

/-- Output 7 after the first point: zero plus the squares of the destination tile's affine map summed over its rows. -/
theorem piece_A_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 : Vec F S5000x128 .f32) (x1 : Vec F S5000x128 .f32) (x2 : Vec F S128x128 .f32) (x3 : Vec F S1x128 .f32) :
    out0_A_7 c i arg1 harg1 arg2 harg2 arg3 harg3 arg4 harg4 arg5 harg5 arg6 harg6 arg7 harg7 arg8 harg8 hc0 x0 x1 x2 x3 = k0_pay2 (k0_pay9 x2 x1 x3) (k0_pay6 (F := F)) := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg7.read_unread, harg8.read_unread, View.ld_unit_zero (S := S1x128) hz, View.ld_unit_zero (S := S128x128) hz, View.ld_unit_zero (S := S5000x128) hz]

end Pieces

/-! ## The update's arithmetic over the extended reals

At the ideal values every operation is exact and the narrowing to 16 bits is the identity. The product of a tile
with the transposed weight matrix into a zero accumulator is, at row `r` and feature `j`, the sum over `k` of
`X r k · W j k`; the bias row is broadcast down the rows; a reduction over axis 0 is the sum over the tile's rows;
and the reset value is zero. The destination tile's map is the source tile's map at other arguments, and the two
updates of the source statistics are the two updates of the destination statistics applied to that map. -/

section Bridges
variable {F : FTy → Type} [FloatOps F]

/-- The destination tile's affine map is the source tile's, at the destination tile. -/
theorem pay9_eq (W : Vec F S128x128 .f32) (X : Vec F S5000x128 .f32) (B : Vec F S1x128 .f32) :
    k0_pay9 W X B = k0_pay8 W X B := rfl

/-- The source sum's update is the column-sum update applied to the source tile's affine map. -/
theorem pay10_eq (W : Vec F S128x128 .f32) (X : Vec F S5000x128 .f32) (B : Vec F S1x128 .f32) (A : Vec F S1x128 .f32) :
    k0_pay10 W X B A = k0_pay1 (k0_pay8 W X B) A := rfl

/-- The source sum of squares' update is the column-sum-of-squares update applied to the source tile's affine map. -/
theorem pay11_eq (W : Vec F S128x128 .f32) (X : Vec F S5000x128 .f32) (B : Vec F S1x128 .f32) (A : Vec F S1x128 .f32) :
    k0_pay11 W X B A = k0_pay2 (k0_pay8 W X B) A := rfl

end Bridges

section Values
open ValueIdx

/-- A tile's affine map at row `r`, feature `j`: the row against row `j` of the weights, plus the bias. -/
theorem pay8_apply (W : Vec Ideal S128x128 .f32) (X : Vec Ideal S5000x128 .f32) (B : Vec Ideal S1x128 .f32)
    (r : Fin 5000) (j : Fin 128) :
    k0_pay8 (F := Ideal) W X B (ix2 r j) = (∑ k : Fin 128, X (ix2 r k) * W (ix2 j k)) + B (ix2 (0 : Fin 1) j) := by
  unfold k0_pay8 k0_pay7
  dsimp only
  refine (addf_apply _ _ _).trans ?_
  refine congrArg₂ (· + ·) ?_ ?_
  · refine (Cert.Lib.MatmulPlain.matmul_zero_apply dot_S5000x128_S128x128_S5000x128_1_0_0_1_n_n rfl rfl rfl rfl rfl rfl
      none _ _ r j).trans ?_
    refine Finset.sum_congr rfl fun k _ => ?_
    refine congrArg₂ (· * ·) ?_ ?_
    · exact congrFun (shapeCast_self X shapeCasts_S5000x128_S5000x128) (ix2 r k)
    · refine (transpose_apply [1, 0] _ transposes_S128x128_p1_0_S128x128 (ix2 k j) (ix2 j k) ?_).trans rfl
      intro b
      match b with
      | ⟨0, _⟩ => rfl
      | ⟨1, _⟩ => rfl
  · refine (broadcastTo_apply _ broadcasts_S1x128_S5000x128 (ix2 r j) (ix2 (0 : Fin 1) j) ?_).trans ?_
    · intro a
      match a with
      | ⟨0, _⟩ => rfl
      | ⟨1, _⟩ => rfl
    · exact congrFun (shapeCast_self B shapeCasts_S1x128_S1x128) (ix2 (0 : Fin 1) j)

/-- The column-sum update at feature `j`: what the block held plus the sum of the tile's column `j`. -/
theorem pay1_apply (H : FVec Ideal S5000x128 .f32) (A : Vec Ideal S1x128 .f32) (j : Fin 128) :
    k0_pay1 (F := Ideal) H A (ix2 (0 : Fin 1) j) = A (ix2 (0 : Fin 1) j) + ∑ r : Fin 5000, H (ix2 r j) := by
  unfold k0_pay1
  refine (addf_apply _ _ _).trans ?_
  refine congrArg₂ (· + ·) (congrFun (shapeCast_self A shapeCasts_S1x128_S1x128) (ix2 (0 : Fin 1) j)) ?_
  refine (shapeCast_addUnit_apply ![128] _ shapeCasts_S128_S1x128 (ix2 (0 : Fin 1) j)).trans ?_
  refine (Ideal.multiReduction_add_single H _ reduces_S5000x128_S128 _ _ _).trans ?_
  refine Finset.sum_congr rfl fun r _ => ?_
  refine congrArg H ?_
  funext a
  apply Fin.ext
  match a with
  | ⟨0, _⟩ => rfl
  | ⟨1, _⟩ => rfl

/-- The column-sum-of-squares update at feature `j`: what the block held plus the sum of the squares of the
    tile's column `j`. -/
theorem pay2_apply (H : FVec Ideal S5000x128 .f32) (A : Vec Ideal S1x128 .f32) (j : Fin 128) :
    k0_pay2 (F := Ideal) H A (ix2 (0 : Fin 1) j)
      = A (ix2 (0 : Fin 1) j) + ∑ r : Fin 5000, H (ix2 r j) * H (ix2 r j) := by
  unfold k0_pay2
  refine (addf_apply _ _ _).trans ?_
  refine congrArg₂ (· + ·) (congrFun (shapeCast_self A shapeCasts_S1x128_S1x128) (ix2 (0 : Fin 1) j)) ?_
  refine (shapeCast_addUnit_apply ![128] _ shapeCasts_S128_S1x128 (ix2 (0 : Fin 1) j)).trans ?_
  refine (Ideal.multiReduction_add_single (mulf H H) _ reduces_S5000x128_S128 _ _ _).trans ?_
  refine Finset.sum_congr rfl fun r _ => ?_
  have e : reduces_S5000x128_S128.lift (fun a => ix2 (0 : Fin 1) j a.succ) r = ix2 r j := by
    funext a
    apply Fin.ext
    match a with
    | ⟨0, _⟩ => rfl
    | ⟨1, _⟩ => rfl
  exact (mulf_apply H H _).trans (congrArg (fun i => H i * H i) e)

/-- The four reset values are zero. -/
theorem pay3_apply (j : Fin 128) : k0_pay3 (F := Ideal) (ix2 (0 : Fin 1) j) = 0 := Ideal.ofBits_zero_f32
theorem pay4_apply (j : Fin 128) : k0_pay4 (F := Ideal) (ix2 (0 : Fin 1) j) = 0 := Ideal.ofBits_zero_f32
theorem pay5_apply (j : Fin 128) : k0_pay5 (F := Ideal) (ix2 (0 : Fin 1) j) = 0 := Ideal.ofBits_zero_f32
theorem pay6_apply (j : Fin 128) : k0_pay6 (F := Ideal) (ix2 (0 : Fin 1) j) = 0 := Ideal.ofBits_zero_f32

end Values

/-! ## The input blocks of a grid point

Point `t` reads rows `5000 t … 5000 t + 4999` of the two gathered tables, and the whole weight matrix and bias
row: an element of a block sits in its array, on each axis, at the block index times the block's extent plus its
own coordinate, and the block indices are `(t, 0)` for the tables and `(0, 0)` for the parameters. -/

section Blocks
open ValueIdx

/-- The four input blocks of point `t`, by literal type. -/
abbrev xsblk (c : Dev nD) (t : Fin cfg0.N) : Vec Ideal S5000x128 .f32 := iblk0 (F := Ideal) V c 0 t
abbrev xdblk (c : Dev nD) (t : Fin cfg0.N) : Vec Ideal S5000x128 .f32 := iblk0 (F := Ideal) V c 1 t
abbrev wblk (c : Dev nD) (t : Fin cfg0.N) : Vec Ideal S128x128 .f32 := iblk0 (F := Ideal) V c 2 t
abbrev bblk (c : Dev nD) (t : Fin cfg0.N) : Vec Ideal S1x128 .f32 := iblk0 (F := Ideal) V c 3 t

/-- The block indices of the four input windows at every point, checked at each of the grid's points. -/
theorem idx_in : ∀ t : Fin cfg0.N,
    (win0_0.index t 0 = t.val ∧ win0_0.index t 1 = 0) ∧ (win0_1.index t 0 = t.val ∧ win0_1.index t 1 = 0)
      ∧ (win0_2.index t 0 = 0 ∧ win0_2.index t 1 = 0) ∧ (win0_3.index t 0 = 0 ∧ win0_3.index t 1 = 0) :=
  (by decide +kernel : ∀ t : Fin grid0.N,
    (win0_0.index t 0 = t.val ∧ win0_0.index t 1 = 0) ∧ (win0_1.index t 0 = t.val ∧ win0_1.index t 1 = 0)
      ∧ (win0_2.index t 0 = 0 ∧ win0_2.index t 1 = 0) ∧ (win0_3.index t 0 = 0 ∧ win0_3.index t 1 = 0))

/-- Row `r` of the source tile at point `t` is row `5000 t + r` of the source table. -/
theorem xsblk_apply (c : Dev nD) (t : Fin cfg0.N) (r : Fin 5000) (k : Fin 128) (h : 5000 * t.val + r.val < 500000) :
    xsblk V c t (ix2 r k) = xs0 V c (ix2 ⟨5000 * t.val + r.val, h⟩ k) := by
  have hi := (idx_in t).1
  unfold xsblk iblk0
  rw [View.read_apply]
  show V c (Pipeline.arrRef spec0 0) _ = V c (Pipeline.arrRef spec0 0) _
  refine congrArg (V c (Pipeline.arrRef spec0 0)) ?_
  funext a
  apply Fin.ext
  match a with
  | ⟨0, _⟩ => show win0_0.index t 0 * 5000 + 1 * r.val = 5000 * t.val + r.val; rw [hi.1]; omega
  | ⟨1, _⟩ => show win0_0.index t 1 * 128 + 1 * k.val = k.val; rw [hi.2]; omega

/-- Row `r` of the destination tile at point `t` is row `5000 t + r` of the destination table. -/
theorem xdblk_apply (c : Dev nD) (t : Fin cfg0.N) (r : Fin 5000) (k : Fin 128) (h : 5000 * t.val + r.val < 500000) :
    xdblk V c t (ix2 r k) = xd0 V c (ix2 ⟨5000 * t.val + r.val, h⟩ k) := by
  have hi := (idx_in t).2.1
  unfold xdblk iblk0
  rw [View.read_apply]
  show V c (Pipeline.arrRef spec0 1) _ = V c (Pipeline.arrRef spec0 1) _
  refine congrArg (V c (Pipeline.arrRef spec0 1)) ?_
  funext a
  apply Fin.ext
  match a with
  | ⟨0, _⟩ => show win0_1.index t 0 * 5000 + 1 * r.val = 5000 * t.val + r.val; rw [hi.1]; omega
  | ⟨1, _⟩ => show win0_1.index t 1 * 128 + 1 * k.val = k.val; rw [hi.2]; omega

/-- The weight block at every point is the whole weight matrix. -/
theorem wblk_apply (c : Dev nD) (t : Fin cfg0.N) (p : Fin 128) (q : Fin 128) :
    wblk V c t (ix2 p q) = w0 V c (ix2 p q) := by
  have hi := (idx_in t).2.2.1
  unfold wblk iblk0
  rw [View.read_apply]
  show V c (Pipeline.arrRef spec0 2) _ = V c (Pipeline.arrRef spec0 2) _
  refine congrArg (V c (Pipeline.arrRef spec0 2)) ?_
  funext a
  apply Fin.ext
  match a with
  | ⟨0, _⟩ => show win0_2.index t 0 * 128 + 1 * p.val = p.val; rw [hi.1]; omega
  | ⟨1, _⟩ => show win0_2.index t 1 * 128 + 1 * q.val = q.val; rw [hi.2]; omega

/-- The bias block at every point is the whole bias row. -/
theorem bblk_apply (c : Dev nD) (t : Fin cfg0.N) (q : Fin 128) :
    bblk V c t (ix2 (0 : Fin 1) q) = b0 V c (ix2 (0 : Fin 1) q) := by
  have hi := (idx_in t).2.2.2
  unfold bblk iblk0
  rw [View.read_apply]
  show V c (Pipeline.arrRef spec0 3) _ = V c (Pipeline.arrRef spec0 3) _
  refine congrArg (V c (Pipeline.arrRef spec0 3)) ?_
  funext a
  apply Fin.ext
  match a with
  | ⟨0, _⟩ => show win0_3.index t 0 * 1 + 1 * 0 = 0; rw [hi.1]
  | ⟨1, _⟩ => show win0_3.index t 1 * 128 + 1 * q.val = q.val; rw [hi.2]; omega

/-- The affine map of the whole source table, and of the whole destination table. -/
abbrev linS (c : Dev nD) : Fin 500000 → Fin 128 → EReal :=
  Spec.lin (Spec.mat (xs0 V c)) (Spec.mat (w0 V c)) (Spec.row (b0 V c))
abbrev linD (c : Dev nD) : Fin 500000 → Fin 128 → EReal :=
  Spec.lin (Spec.mat (xd0 V c)) (Spec.mat (w0 V c)) (Spec.row (b0 V c))

/-- The source tile's affine map at point `t`, row `r`, is the table's at edge `5000 t + r`. -/
theorem tileS (c : Dev nD) (t : Fin cfg0.N) (r : Fin 5000) (j : Fin 128) (h : 5000 * t.val + r.val < 500000) :
    k0_pay8 (F := Ideal) (wblk V c t) (xsblk V c t) (bblk V c t) (ix2 r j) = linS V c ⟨5000 * t.val + r.val, h⟩ j := by
  refine (pay8_apply (wblk V c t) (xsblk V c t) (bblk V c t) r j).trans ?_
  unfold linS Spec.lin Spec.mat Spec.row
  refine congrArg₂ (· + ·) (Finset.sum_congr rfl fun k _ => ?_) (bblk_apply V c t j)
  exact congrArg₂ (· * ·) (xsblk_apply V c t r k h) (wblk_apply V c t j k)

/-- The destination tile's affine map at point `t`, row `r`, is the table's at edge `5000 t + r`. -/
theorem tileD (c : Dev nD) (t : Fin cfg0.N) (r : Fin 5000) (j : Fin 128) (h : 5000 * t.val + r.val < 500000) :
    k0_pay8 (F := Ideal) (wblk V c t) (xdblk V c t) (bblk V c t) (ix2 r j) = linD V c ⟨5000 * t.val + r.val, h⟩ j := by
  refine (pay8_apply (wblk V c t) (xdblk V c t) (bblk V c t) r j).trans ?_
  unfold linD Spec.lin Spec.mat Spec.row
  refine congrArg₂ (· + ·) (Finset.sum_congr rfl fun k _ => ?_) (bblk_apply V c t j)
  exact congrArg₂ (· * ·) (xdblk_apply V c t r k h) (wblk_apply V c t j k)

end Blocks

/-! ## The running sums over the grid

The first point leaves, in each output block, zero plus its tile's contribution; every later point adds its own
tile's contribution to what the point before left. So after point `n` a block holds the sum of the contributions of
tiles `0 … n`, and after the last point, the tiles being the consecutive runs of 5000 edges, the sum over all
edges. -/

section Accumulate
open ValueIdx

/-- A quantity over the points that starts at `0 + T 0` and grows by `T (n + 1)` at point `n + 1` is, at point `n`,
    the sum of `T` over the points up to `n`. -/
theorem sum_of_steps {N : Nat} (q : (n : Nat) → n < N → EReal) (T : Nat → EReal)
    (h0 : ∀ h : 0 < N, q 0 h = 0 + T 0)
    (hs : ∀ (n : Nat) (h : n + 1 < N), q (n + 1) h = q n (Nat.lt_of_succ_lt h) + T (n + 1)) :
    ∀ (n : Nat) (h : n < N), q n h = ∑ s ∈ Finset.range (n + 1), T s
  | 0, h => by rw [h0 h, zero_add, Finset.sum_range_one]
  | n + 1, h => by
    rw [hs n h, sum_of_steps q T h0 hs n (Nat.lt_of_succ_lt h), Finset.sum_range_succ _ (n + 1)]

/-- The sum of `f` over the 5000 edges of tile `n`; an index past the table's end, which no tile of the grid
    reaches, counts as zero. -/
def tileSum (f : Fin 500000 → EReal) (n : Nat) : EReal :=
  ∑ r : Fin 5000, if h : 5000 * n + r.val < 500000 then f ⟨5000 * n + r.val, h⟩ else 0

/-- The 100 tiles' sums add up to the sum over all 500000 edges. -/
theorem sum_tileSum (f : Fin 500000 → EReal) : ∑ s ∈ Finset.range 100, tileSum f s = ∑ e : Fin 500000, f e := by
  unfold tileSum
  exact Cert.Lib.Tiles.sum_range_tiles_500000 f

/-- Every row of every tile of the grid lies in the table. -/
theorem row_lt (t : Fin cfg0.N) (r : Fin 5000) : 5000 * t.val + r.val < 500000 := by
  have hN : t.val < 100 := lt_of_lt_of_eq t.isLt (show cfg0.N = 100 from N_0)
  have := r.isLt
  omega

/-- The column sum of the source tile's affine map at point `t` is the table's affine map summed over tile `t`. -/
theorem rowsS (c : Dev nD) (t : Fin cfg0.N) (j : Fin 128) :
    ∑ r : Fin 5000, k0_pay8 (F := Ideal) (wblk V c t) (xsblk V c t) (bblk V c t) (ix2 r j)
      = tileSum (fun e => linS V c e j) t.val := by
  unfold tileSum
  refine Finset.sum_congr rfl fun r _ => ?_
  rw [dif_pos (row_lt t r)]
  exact tileS V c t r j (row_lt t r)

/-- The same for its squares. -/
theorem rowsSqS (c : Dev nD) (t : Fin cfg0.N) (j : Fin 128) :
    ∑ r : Fin 5000, k0_pay8 (F := Ideal) (wblk V c t) (xsblk V c t) (bblk V c t) (ix2 r j)
        * k0_pay8 (F := Ideal) (wblk V c t) (xsblk V c t) (bblk V c t) (ix2 r j)
      = tileSum (fun e => linS V c e j * linS V c e j) t.val := by
  unfold tileSum
  refine Finset.sum_congr rfl fun r _ => ?_
  rw [dif_pos (row_lt t r)]
  exact congrArg₂ (· * ·) (tileS V c t r j (row_lt t r)) (tileS V c t r j (row_lt t r))

/-- The column sum of the destination tile's affine map at point `t` is the table's summed over tile `t`. -/
theorem rowsD (c : Dev nD) (t : Fin cfg0.N) (j : Fin 128) :
    ∑ r : Fin 5000, k0_pay8 (F := Ideal) (wblk V c t) (xdblk V c t) (bblk V c t) (ix2 r j)
      = tileSum (fun e => linD V c e j) t.val := by
  unfold tileSum
  refine Finset.sum_congr rfl fun r _ => ?_
  rw [dif_pos (row_lt t r)]
  exact tileD V c t r j (row_lt t r)

/-- The same for its squares. -/
theorem rowsSqD (c : Dev nD) (t : Fin cfg0.N) (j : Fin 128) :
    ∑ r : Fin 5000, k0_pay8 (F := Ideal) (wblk V c t) (xdblk V c t) (bblk V c t) (ix2 r j)
        * k0_pay8 (F := Ideal) (wblk V c t) (xdblk V c t) (bblk V c t) (ix2 r j)
      = tileSum (fun e => linD V c e j * linD V c e j) t.val := by
  unfold tileSum
  refine Finset.sum_congr rfl fun r _ => ?_
  rw [dif_pos (row_lt t r)]
  exact congrArg₂ (· * ·) (tileD V c t r j (row_lt t r)) (tileD V c t r j (row_lt t r))

/-- What the four output blocks held after the point before `t`. -/
abbrev prev (c : Dev nD) (t : Fin cfg0.N) :
    Vec Ideal S1x128 .f32 × Vec Ideal S1x128 .f32 × Vec Ideal S1x128 .f32 × Vec Ideal S1x128 .f32 :=
  outsAt0 (F := Ideal) V c (t.val - 1) (Nat.lt_of_le_of_lt (Nat.sub_le _ _) t.isLt)

/-- The last point of the grid. -/
abbrev tLast : Fin cfg0.N := ⟨99, by decide⟩

/-- The block indices of the four output windows at every point, checked at each of the grid's points. -/
theorem idx_out : ∀ t : Fin cfg0.N,
    (win0_4.index t 0 = 0 ∧ win0_4.index t 1 = 0) ∧ (win0_5.index t 0 = 0 ∧ win0_5.index t 1 = 0)
      ∧ (win0_6.index t 0 = 0 ∧ win0_6.index t 1 = 0) ∧ (win0_7.index t 0 = 0 ∧ win0_7.index t 1 = 0) :=
  (by decide +kernel : ∀ t : Fin grid0.N,
    (win0_4.index t 0 = 0 ∧ win0_4.index t 1 = 0) ∧ (win0_5.index t 0 = 0 ∧ win0_5.index t 1 = 0)
      ∧ (win0_6.index t 0 = 0 ∧ win0_6.index t 1 = 0) ∧ (win0_7.index t 0 = 0 ∧ win0_7.index t 1 = 0))

/-! ### Output 4: the source column sums -/

/-- At the first point the block is left at zero plus tile 0's contribution. -/
theorem first_4 (c : Dev nD) (t : Fin cfg0.N) (h0 : t.val % 100 = 0) (j : Fin 128) :
    (outsAt0 (F := Ideal) V c t.val t.isLt).1 (ix2 (0 : Fin 1) j) = 0 + tileSum (fun e => linS V c e j) t.val := by
  rw [outsAt0_A V c t h0]
  dsimp only
  refine (congrFun (piece_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0)
    (xsblk V c t) (xdblk V c t) (wblk V c t) (bblk V c t)) (ix2 (0 : Fin 1) j)).trans ?_
  refine (congrFun (pay10_eq (wblk V c t) (xsblk V c t) (bblk V c t) (k0_pay3 (F := Ideal))) (ix2 (0 : Fin 1) j)).trans ?_
  refine (pay1_apply _ _ j).trans ?_
  exact congrArg₂ (· + ·) (pay3_apply j) (rowsS V c t j)

/-- At a later point the block is left at what the point before left plus this tile's contribution. -/
theorem later_4 (c : Dev nD) (t : Fin cfg0.N) (h0 : ¬t.val % 100 = 0) (j : Fin 128) :
    (outsAt0 (F := Ideal) V c t.val t.isLt).1 (ix2 (0 : Fin 1) j)
      = (prev V c t).1 (ix2 (0 : Fin 1) j) + tileSum (fun e => linS V c e j) t.val := by
  rw [outsAt0_B V c t h0]
  dsimp only
  refine (congrFun (piece_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h))
    (xsblk V c t) (xdblk V c t) (wblk V c t) (bblk V c t) (prev V c t).1 (prev V c t).2.1 (prev V c t).2.2.1 (prev V c t).2.2.2) (ix2 (0 : Fin 1) j)).trans ?_
  refine (congrFun (pay10_eq (wblk V c t) (xsblk V c t) (bblk V c t) (prev V c t).1) (ix2 (0 : Fin 1) j)).trans ?_
  refine (pay1_apply _ _ j).trans ?_
  exact congrArg (fun z => (prev V c t).1 (ix2 (0 : Fin 1) j) + z) (rowsS V c t j)

/-- After point `n` the block holds the contributions of tiles `0 … n`. -/
theorem acc_4 (c : Dev nD) (j : Fin 128) : ∀ (n : Nat) (h : n < cfg0.N),
    (outsAt0 (F := Ideal) V c n h).1 (ix2 (0 : Fin 1) j) = ∑ s ∈ Finset.range (n + 1), tileSum (fun e => linS V c e j) s :=
  sum_of_steps (fun n h => (outsAt0 (F := Ideal) V c n h).1 (ix2 (0 : Fin 1) j)) (tileSum (fun e => linS V c e j))
    (fun h => first_4 V c ⟨0, h⟩ rfl j)
    (fun n h => later_4 V c ⟨n + 1, h⟩
      (by have : n + 1 < 100 := lt_of_lt_of_eq h (show cfg0.N = 100 from N_0)
          show ¬(n + 1) % 100 = 0
          omega) j)

/-- After the last point the block is the row of the source column sums over all edges. -/
theorem result_4 (c : Dev nD) :
    (outsAt0 (F := Ideal) V c tLast.val tLast.isLt).1 = Spec.rowArr (Spec.colSum (linS V c)) := by
  funext i
  obtain ⟨p, q, rfl⟩ : ∃ (p : Fin 1) (q : Fin 128), i = ix2 p q := ⟨i 0, i 1, eq_ix2 i⟩
  obtain rfl : p = 0 := Subsingleton.elim p 0
  refine (acc_4 V c q 99 tLast.isLt).trans ?_
  refine (sum_tileSum (fun e => linS V c e q)).trans ?_
  rfl

/-- The one write-back of the block, at the last point, writes that row: the block at index `(0, 0)` of a
    `[1, 128]` array is the array. -/
theorem flushed_4 (c : Dev nD) (t : Fin cfg0.N) (hf : (cfg0.win 4).flush t = true) :
    (dat0 (F := Ideal) V c).flushed 4 t
      = ((cfg0.win 4).blk t).view.read (Elt Ideal) (Spec.rowArr (Spec.colSum (linS V c))) := by
  have hN : cfg0.N = 100 := N_0
  have h99 : t.val = 99 := by have := (flush0_4 t).mp hf; have := t.isLt; omega
  obtain rfl : t = tLast := Fin.ext h99
  have hi := (idx_out tLast).1
  show (cfg0.win 4).cut (grid0.coords tLast) ((dat0 (F := Ideal) V c).after 4 tLast) = _
  rw [after0_4, result_4]
  have hz' : (fun a => win0_4.index tLast a * main_v7_0.ty.shape.size a) = fun _ => 0 := funext fun a => by
    match a with
    | ⟨0, _⟩ => show win0_4.index tLast 0 * 1 = 0; rw [hi.1]
    | ⟨1, _⟩ => show win0_4.index tLast 1 * 128 = 0; rw [hi.2]
  exact (Memref.read_access_unit_zero (Elt Ideal) main_v7_0 hz' (fun a => by rw [congrFun hz' a]; simp) _).symm

/-- So the array ends holding that row: the last point's block covers it. -/
theorem final_4 (c : Dev nD) :
    (dat0 (F := Ideal) V c).arrAt 4 cfg0.N = Spec.rowArr (Spec.colSum (linS V c)) :=
  (dat0 (F := Ideal) V c).arrAt_eq_of_cover 4 (Spec.rowArr (Spec.colSum (linS V c))) (flushed_4 V c) fun i =>
    ⟨tLast, (flush0_4 tLast).mpr rfl, by
      have hi := (idx_out tLast).1
      show i ∈ ((View.whole main_v7_0).slice (win0_4.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win0_4.index tLast 0 * 1 ≤ (i 0 : Nat) ∧ (i 0 : Nat) < win0_4.index tLast 0 * 1 + 1
        rw [hi.1]; omega
      | ⟨1, _⟩ =>
        show win0_4.index tLast 1 * 128 ≤ (i 1 : Nat) ∧ (i 1 : Nat) < win0_4.index tLast 1 * 128 + 128
        rw [hi.2]; omega⟩

/-! ### Output 5: the source column sums of squares -/

/-- At the first point the block is left at zero plus tile 0's contribution. -/
theorem first_5 (c : Dev nD) (t : Fin cfg0.N) (h0 : t.val % 100 = 0) (j : Fin 128) :
    (outsAt0 (F := Ideal) V c t.val t.isLt).2.1 (ix2 (0 : Fin 1) j) = 0 + tileSum (fun e => linS V c e j * linS V c e j) t.val := by
  rw [outsAt0_A V c t h0]
  dsimp only
  refine (congrFun (piece_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0)
    (xsblk V c t) (xdblk V c t) (wblk V c t) (bblk V c t)) (ix2 (0 : Fin 1) j)).trans ?_
  refine (congrFun (pay11_eq (wblk V c t) (xsblk V c t) (bblk V c t) (k0_pay4 (F := Ideal))) (ix2 (0 : Fin 1) j)).trans ?_
  refine (pay2_apply _ _ j).trans ?_
  exact congrArg₂ (· + ·) (pay4_apply j) (rowsSqS V c t j)

/-- At a later point the block is left at what the point before left plus this tile's contribution. -/
theorem later_5 (c : Dev nD) (t : Fin cfg0.N) (h0 : ¬t.val % 100 = 0) (j : Fin 128) :
    (outsAt0 (F := Ideal) V c t.val t.isLt).2.1 (ix2 (0 : Fin 1) j)
      = (prev V c t).2.1 (ix2 (0 : Fin 1) j) + tileSum (fun e => linS V c e j * linS V c e j) t.val := by
  rw [outsAt0_B V c t h0]
  dsimp only
  refine (congrFun (piece_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h))
    (xsblk V c t) (xdblk V c t) (wblk V c t) (bblk V c t) (prev V c t).1 (prev V c t).2.1 (prev V c t).2.2.1 (prev V c t).2.2.2) (ix2 (0 : Fin 1) j)).trans ?_
  refine (congrFun (pay11_eq (wblk V c t) (xsblk V c t) (bblk V c t) (prev V c t).2.1) (ix2 (0 : Fin 1) j)).trans ?_
  refine (pay2_apply _ _ j).trans ?_
  exact congrArg (fun z => (prev V c t).2.1 (ix2 (0 : Fin 1) j) + z) (rowsSqS V c t j)

/-- After point `n` the block holds the contributions of tiles `0 … n`. -/
theorem acc_5 (c : Dev nD) (j : Fin 128) : ∀ (n : Nat) (h : n < cfg0.N),
    (outsAt0 (F := Ideal) V c n h).2.1 (ix2 (0 : Fin 1) j) = ∑ s ∈ Finset.range (n + 1), tileSum (fun e => linS V c e j * linS V c e j) s :=
  sum_of_steps (fun n h => (outsAt0 (F := Ideal) V c n h).2.1 (ix2 (0 : Fin 1) j)) (tileSum (fun e => linS V c e j * linS V c e j))
    (fun h => first_5 V c ⟨0, h⟩ rfl j)
    (fun n h => later_5 V c ⟨n + 1, h⟩
      (by have : n + 1 < 100 := lt_of_lt_of_eq h (show cfg0.N = 100 from N_0)
          show ¬(n + 1) % 100 = 0
          omega) j)

/-- After the last point the block is the row of the source column sums of squares over all edges. -/
theorem result_5 (c : Dev nD) :
    (outsAt0 (F := Ideal) V c tLast.val tLast.isLt).2.1 = Spec.rowArr (Spec.colSumSq (linS V c)) := by
  funext i
  obtain ⟨p, q, rfl⟩ : ∃ (p : Fin 1) (q : Fin 128), i = ix2 p q := ⟨i 0, i 1, eq_ix2 i⟩
  obtain rfl : p = 0 := Subsingleton.elim p 0
  refine (acc_5 V c q 99 tLast.isLt).trans ?_
  refine (sum_tileSum (fun e => linS V c e q * linS V c e q)).trans ?_
  rfl

/-- The one write-back of the block, at the last point, writes that row: the block at index `(0, 0)` of a
    `[1, 128]` array is the array. -/
theorem flushed_5 (c : Dev nD) (t : Fin cfg0.N) (hf : (cfg0.win 5).flush t = true) :
    (dat0 (F := Ideal) V c).flushed 5 t
      = ((cfg0.win 5).blk t).view.read (Elt Ideal) (Spec.rowArr (Spec.colSumSq (linS V c))) := by
  have hN : cfg0.N = 100 := N_0
  have h99 : t.val = 99 := by have := (flush0_5 t).mp hf; have := t.isLt; omega
  obtain rfl : t = tLast := Fin.ext h99
  have hi := (idx_out tLast).2.1
  show (cfg0.win 5).cut (grid0.coords tLast) ((dat0 (F := Ideal) V c).after 5 tLast) = _
  rw [after0_5, result_5]
  have hz' : (fun a => win0_5.index tLast a * main_v7_1.ty.shape.size a) = fun _ => 0 := funext fun a => by
    match a with
    | ⟨0, _⟩ => show win0_5.index tLast 0 * 1 = 0; rw [hi.1]
    | ⟨1, _⟩ => show win0_5.index tLast 1 * 128 = 0; rw [hi.2]
  exact (Memref.read_access_unit_zero (Elt Ideal) main_v7_1 hz' (fun a => by rw [congrFun hz' a]; simp) _).symm

/-- So the array ends holding that row: the last point's block covers it. -/
theorem final_5 (c : Dev nD) :
    (dat0 (F := Ideal) V c).arrAt 5 cfg0.N = Spec.rowArr (Spec.colSumSq (linS V c)) :=
  (dat0 (F := Ideal) V c).arrAt_eq_of_cover 5 (Spec.rowArr (Spec.colSumSq (linS V c))) (flushed_5 V c) fun i =>
    ⟨tLast, (flush0_5 tLast).mpr rfl, by
      have hi := (idx_out tLast).2.1
      show i ∈ ((View.whole main_v7_1).slice (win0_5.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win0_5.index tLast 0 * 1 ≤ (i 0 : Nat) ∧ (i 0 : Nat) < win0_5.index tLast 0 * 1 + 1
        rw [hi.1]; omega
      | ⟨1, _⟩ =>
        show win0_5.index tLast 1 * 128 ≤ (i 1 : Nat) ∧ (i 1 : Nat) < win0_5.index tLast 1 * 128 + 128
        rw [hi.2]; omega⟩

/-! ### Output 6: the destination column sums -/

/-- At the first point the block is left at zero plus tile 0's contribution. -/
theorem first_6 (c : Dev nD) (t : Fin cfg0.N) (h0 : t.val % 100 = 0) (j : Fin 128) :
    (outsAt0 (F := Ideal) V c t.val t.isLt).2.2.1 (ix2 (0 : Fin 1) j) = 0 + tileSum (fun e => linD V c e j) t.val := by
  rw [outsAt0_A V c t h0]
  dsimp only
  refine (congrFun (piece_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0)
    (xsblk V c t) (xdblk V c t) (wblk V c t) (bblk V c t)) (ix2 (0 : Fin 1) j)).trans ?_
  refine (congrFun (congrArg (fun H => k0_pay1 (F := Ideal) H (k0_pay5 (F := Ideal))) (pay9_eq (wblk V c t) (xdblk V c t) (bblk V c t))) (ix2 (0 : Fin 1) j)).trans ?_
  refine (pay1_apply _ _ j).trans ?_
  exact congrArg₂ (· + ·) (pay5_apply j) (rowsD V c t j)

/-- At a later point the block is left at what the point before left plus this tile's contribution. -/
theorem later_6 (c : Dev nD) (t : Fin cfg0.N) (h0 : ¬t.val % 100 = 0) (j : Fin 128) :
    (outsAt0 (F := Ideal) V c t.val t.isLt).2.2.1 (ix2 (0 : Fin 1) j)
      = (prev V c t).2.2.1 (ix2 (0 : Fin 1) j) + tileSum (fun e => linD V c e j) t.val := by
  rw [outsAt0_B V c t h0]
  dsimp only
  refine (congrFun (piece_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h))
    (xsblk V c t) (xdblk V c t) (wblk V c t) (bblk V c t) (prev V c t).1 (prev V c t).2.1 (prev V c t).2.2.1 (prev V c t).2.2.2) (ix2 (0 : Fin 1) j)).trans ?_
  refine (congrFun (congrArg (fun H => k0_pay1 (F := Ideal) H (prev V c t).2.2.1) (pay9_eq (wblk V c t) (xdblk V c t) (bblk V c t))) (ix2 (0 : Fin 1) j)).trans ?_
  refine (pay1_apply _ _ j).trans ?_
  exact congrArg (fun z => (prev V c t).2.2.1 (ix2 (0 : Fin 1) j) + z) (rowsD V c t j)

/-- After point `n` the block holds the contributions of tiles `0 … n`. -/
theorem acc_6 (c : Dev nD) (j : Fin 128) : ∀ (n : Nat) (h : n < cfg0.N),
    (outsAt0 (F := Ideal) V c n h).2.2.1 (ix2 (0 : Fin 1) j) = ∑ s ∈ Finset.range (n + 1), tileSum (fun e => linD V c e j) s :=
  sum_of_steps (fun n h => (outsAt0 (F := Ideal) V c n h).2.2.1 (ix2 (0 : Fin 1) j)) (tileSum (fun e => linD V c e j))
    (fun h => first_6 V c ⟨0, h⟩ rfl j)
    (fun n h => later_6 V c ⟨n + 1, h⟩
      (by have : n + 1 < 100 := lt_of_lt_of_eq h (show cfg0.N = 100 from N_0)
          show ¬(n + 1) % 100 = 0
          omega) j)

/-- After the last point the block is the row of the destination column sums over all edges. -/
theorem result_6 (c : Dev nD) :
    (outsAt0 (F := Ideal) V c tLast.val tLast.isLt).2.2.1 = Spec.rowArr (Spec.colSum (linD V c)) := by
  funext i
  obtain ⟨p, q, rfl⟩ : ∃ (p : Fin 1) (q : Fin 128), i = ix2 p q := ⟨i 0, i 1, eq_ix2 i⟩
  obtain rfl : p = 0 := Subsingleton.elim p 0
  refine (acc_6 V c q 99 tLast.isLt).trans ?_
  refine (sum_tileSum (fun e => linD V c e q)).trans ?_
  rfl

/-- The one write-back of the block, at the last point, writes that row: the block at index `(0, 0)` of a
    `[1, 128]` array is the array. -/
theorem flushed_6 (c : Dev nD) (t : Fin cfg0.N) (hf : (cfg0.win 6).flush t = true) :
    (dat0 (F := Ideal) V c).flushed 6 t
      = ((cfg0.win 6).blk t).view.read (Elt Ideal) (Spec.rowArr (Spec.colSum (linD V c))) := by
  have hN : cfg0.N = 100 := N_0
  have h99 : t.val = 99 := by have := (flush0_6 t).mp hf; have := t.isLt; omega
  obtain rfl : t = tLast := Fin.ext h99
  have hi := (idx_out tLast).2.2.1
  show (cfg0.win 6).cut (grid0.coords tLast) ((dat0 (F := Ideal) V c).after 6 tLast) = _
  rw [after0_6, result_6]
  have hz' : (fun a => win0_6.index tLast a * main_v7_2.ty.shape.size a) = fun _ => 0 := funext fun a => by
    match a with
    | ⟨0, _⟩ => show win0_6.index tLast 0 * 1 = 0; rw [hi.1]
    | ⟨1, _⟩ => show win0_6.index tLast 1 * 128 = 0; rw [hi.2]
  exact (Memref.read_access_unit_zero (Elt Ideal) main_v7_2 hz' (fun a => by rw [congrFun hz' a]; simp) _).symm

/-- So the array ends holding that row: the last point's block covers it. -/
theorem final_6 (c : Dev nD) :
    (dat0 (F := Ideal) V c).arrAt 6 cfg0.N = Spec.rowArr (Spec.colSum (linD V c)) :=
  (dat0 (F := Ideal) V c).arrAt_eq_of_cover 6 (Spec.rowArr (Spec.colSum (linD V c))) (flushed_6 V c) fun i =>
    ⟨tLast, (flush0_6 tLast).mpr rfl, by
      have hi := (idx_out tLast).2.2.1
      show i ∈ ((View.whole main_v7_2).slice (win0_6.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win0_6.index tLast 0 * 1 ≤ (i 0 : Nat) ∧ (i 0 : Nat) < win0_6.index tLast 0 * 1 + 1
        rw [hi.1]; omega
      | ⟨1, _⟩ =>
        show win0_6.index tLast 1 * 128 ≤ (i 1 : Nat) ∧ (i 1 : Nat) < win0_6.index tLast 1 * 128 + 128
        rw [hi.2]; omega⟩

/-! ### Output 7: the destination column sums of squares -/

/-- At the first point the block is left at zero plus tile 0's contribution. -/
theorem first_7 (c : Dev nD) (t : Fin cfg0.N) (h0 : t.val % 100 = 0) (j : Fin 128) :
    (outsAt0 (F := Ideal) V c t.val t.isLt).2.2.2 (ix2 (0 : Fin 1) j) = 0 + tileSum (fun e => linD V c e j * linD V c e j) t.val := by
  rw [outsAt0_A V c t h0]
  dsimp only
  refine (congrFun (piece_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0)
    (xsblk V c t) (xdblk V c t) (wblk V c t) (bblk V c t)) (ix2 (0 : Fin 1) j)).trans ?_
  refine (congrFun (congrArg (fun H => k0_pay2 (F := Ideal) H (k0_pay6 (F := Ideal))) (pay9_eq (wblk V c t) (xdblk V c t) (bblk V c t))) (ix2 (0 : Fin 1) j)).trans ?_
  refine (pay2_apply _ _ j).trans ?_
  exact congrArg₂ (· + ·) (pay6_apply j) (rowsSqD V c t j)

/-- At a later point the block is left at what the point before left plus this tile's contribution. -/
theorem later_7 (c : Dev nD) (t : Fin cfg0.N) (h0 : ¬t.val % 100 = 0) (j : Fin 128) :
    (outsAt0 (F := Ideal) V c t.val t.isLt).2.2.2 (ix2 (0 : Fin 1) j)
      = (prev V c t).2.2.2 (ix2 (0 : Fin 1) j) + tileSum (fun e => linD V c e j * linD V c e j) t.val := by
  rw [outsAt0_B V c t h0]
  dsimp only
  refine (congrFun (piece_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h))
    (xsblk V c t) (xdblk V c t) (wblk V c t) (bblk V c t) (prev V c t).1 (prev V c t).2.1 (prev V c t).2.2.1 (prev V c t).2.2.2) (ix2 (0 : Fin 1) j)).trans ?_
  refine (congrFun (congrArg (fun H => k0_pay2 (F := Ideal) H (prev V c t).2.2.2) (pay9_eq (wblk V c t) (xdblk V c t) (bblk V c t))) (ix2 (0 : Fin 1) j)).trans ?_
  refine (pay2_apply _ _ j).trans ?_
  exact congrArg (fun z => (prev V c t).2.2.2 (ix2 (0 : Fin 1) j) + z) (rowsSqD V c t j)

/-- After point `n` the block holds the contributions of tiles `0 … n`. -/
theorem acc_7 (c : Dev nD) (j : Fin 128) : ∀ (n : Nat) (h : n < cfg0.N),
    (outsAt0 (F := Ideal) V c n h).2.2.2 (ix2 (0 : Fin 1) j) = ∑ s ∈ Finset.range (n + 1), tileSum (fun e => linD V c e j * linD V c e j) s :=
  sum_of_steps (fun n h => (outsAt0 (F := Ideal) V c n h).2.2.2 (ix2 (0 : Fin 1) j)) (tileSum (fun e => linD V c e j * linD V c e j))
    (fun h => first_7 V c ⟨0, h⟩ rfl j)
    (fun n h => later_7 V c ⟨n + 1, h⟩
      (by have : n + 1 < 100 := lt_of_lt_of_eq h (show cfg0.N = 100 from N_0)
          show ¬(n + 1) % 100 = 0
          omega) j)

/-- After the last point the block is the row of the destination column sums of squares over all edges. -/
theorem result_7 (c : Dev nD) :
    (outsAt0 (F := Ideal) V c tLast.val tLast.isLt).2.2.2 = Spec.rowArr (Spec.colSumSq (linD V c)) := by
  funext i
  obtain ⟨p, q, rfl⟩ : ∃ (p : Fin 1) (q : Fin 128), i = ix2 p q := ⟨i 0, i 1, eq_ix2 i⟩
  obtain rfl : p = 0 := Subsingleton.elim p 0
  refine (acc_7 V c q 99 tLast.isLt).trans ?_
  refine (sum_tileSum (fun e => linD V c e q * linD V c e q)).trans ?_
  rfl

/-- The one write-back of the block, at the last point, writes that row: the block at index `(0, 0)` of a
    `[1, 128]` array is the array. -/
theorem flushed_7 (c : Dev nD) (t : Fin cfg0.N) (hf : (cfg0.win 7).flush t = true) :
    (dat0 (F := Ideal) V c).flushed 7 t
      = ((cfg0.win 7).blk t).view.read (Elt Ideal) (Spec.rowArr (Spec.colSumSq (linD V c))) := by
  have hN : cfg0.N = 100 := N_0
  have h99 : t.val = 99 := by have := (flush0_7 t).mp hf; have := t.isLt; omega
  obtain rfl : t = tLast := Fin.ext h99
  have hi := (idx_out tLast).2.2.2
  show (cfg0.win 7).cut (grid0.coords tLast) ((dat0 (F := Ideal) V c).after 7 tLast) = _
  rw [after0_7, result_7]
  have hz' : (fun a => win0_7.index tLast a * main_v7_3.ty.shape.size a) = fun _ => 0 := funext fun a => by
    match a with
    | ⟨0, _⟩ => show win0_7.index tLast 0 * 1 = 0; rw [hi.1]
    | ⟨1, _⟩ => show win0_7.index tLast 1 * 128 = 0; rw [hi.2]
  exact (Memref.read_access_unit_zero (Elt Ideal) main_v7_3 hz' (fun a => by rw [congrFun hz' a]; simp) _).symm

/-- So the array ends holding that row: the last point's block covers it. -/
theorem final_7 (c : Dev nD) :
    (dat0 (F := Ideal) V c).arrAt 7 cfg0.N = Spec.rowArr (Spec.colSumSq (linD V c)) :=
  (dat0 (F := Ideal) V c).arrAt_eq_of_cover 7 (Spec.rowArr (Spec.colSumSq (linD V c))) (flushed_7 V c) fun i =>
    ⟨tLast, (flush0_7 tLast).mpr rfl, by
      have hi := (idx_out tLast).2.2.2
      show i ∈ ((View.whole main_v7_3).slice (win0_7.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win0_7.index tLast 0 * 1 ≤ (i 0 : Nat) ∧ (i 0 : Nat) < win0_7.index tLast 0 * 1 + 1
        rw [hi.1]; omega
      | ⟨1, _⟩ =>
        show win0_7.index tLast 1 * 128 ≤ (i 1 : Nat) ∧ (i 1 : Nat) < win0_7.index tLast 1 * 128 + 128
        rw [hi.2]; omega⟩

end Accumulate

end R0

/-! ## Region 0's four statistics -/

/-- Output array 4 ends as the row of column sums of the source table's affine map. -/
theorem sum_s (c : Dev nD) :
    (dat0 (F := Ideal) V c).arrAt 4 cfg0.N
      = Spec.rowArr (Spec.colSum (Spec.lin (Spec.mat (xs0 V c)) (Spec.mat (w0 V c)) (Spec.row (b0 V c)))) :=
  R0.final_4 V c
/-- Output array 5 ends as the row of column sums of squares of the source table's affine map. -/
theorem sumsq_s (c : Dev nD) :
    (dat0 (F := Ideal) V c).arrAt 5 cfg0.N
      = Spec.rowArr (Spec.colSumSq (Spec.lin (Spec.mat (xs0 V c)) (Spec.mat (w0 V c)) (Spec.row (b0 V c)))) :=
  R0.final_5 V c
/-- Output array 6 ends as the row of column sums of the destination table's affine map. -/
theorem sum_d (c : Dev nD) :
    (dat0 (F := Ideal) V c).arrAt 6 cfg0.N
      = Spec.rowArr (Spec.colSum (Spec.lin (Spec.mat (xd0 V c)) (Spec.mat (w0 V c)) (Spec.row (b0 V c)))) :=
  R0.final_6 V c
/-- Output array 7 ends as the row of column sums of squares of the destination table's affine map. -/
theorem sumsq_d (c : Dev nD) :
    (dat0 (F := Ideal) V c).arrAt 7 cfg0.N
      = Spec.rowArr (Spec.colSumSq (Spec.lin (Spec.mat (xd0 V c)) (Spec.mat (w0 V c)) (Spec.row (b0 V c)))) :=
  R0.final_7 V c

end Cert.KernelIdeal.Regions

end
-- ==== Proof.LibLaneSums.lean ====
/-
  Sums over the last axis, and a value kept along a new last axis, read at an index.

  On the extended reals a `vector.multi_reduction <add>` over the last axis of a rank-2 array `[a, b]` reads, at row `r`,
  the sum over `k` of the entries `(r, k)`; over the last axis of a rank-3 array `[a, b, c]` it reads, at `(p, q)`, the sum
  over `k` of the entries `(p, q, k)`. A rank-2 array `[a, b]` cast to `[a, b, 1]` and broadcast to `[a, b, c]` reads, at
  `(p, q, k)`, the array at `(p, q)`: a per-position quantity applied to every entry of the last axis.
-/
import Idealize.ShloMosaic.PureOps.Ideal.Laws
import Idealize.ShloMosaic.Lib.Pipeline.Value
import Idealize.ShloMosaic.Lib.ValueIdx

noncomputable section

namespace Cert.Lib.LaneSums

open Idealize.ShloMosaic Idealize.ShloMosaic.ValueIdx

/-- The sum over the columns of a rank-2 array, at row `r`. -/
theorem sum_axis1_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v _ h hφ hacc (ix1 r)).trans ?_
  refine Finset.sum_congr rfl fun k _ => congrArg v ?_
  funext c
  apply Fin.ext
  match c with
  | ⟨0, _⟩ => rfl
  | ⟨1, _⟩ => rfl

/-- The sum over the last axis of a rank-3 array, at `(p, q)`. -/
theorem sum_axis2_apply {a b c : ℕ} (v : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (p : Fin a) (q : Fin b) :
    multiReduction .add [2] ⟨2, ![a, b]⟩ v 0x00000000#32 h hφ hacc (ix2 p q) = ∑ k : Fin c, v (ix3 p q k) := by
  refine (Ideal.multiReduction_add_single v _ h hφ hacc (ix2 p q)).trans ?_
  refine Finset.sum_congr rfl fun k _ => congrArg v ?_
  funext d
  apply Fin.ext
  match d with
  | ⟨0, _⟩ => rfl
  | ⟨1, _⟩ => rfl
  | ⟨2, _⟩ => rfl

variable {α : Type}

/-- An `[a, b]` array cast to `[a, b, 1]` and broadcast to `[a, b, c]` reads, at `(p, q, k)`, the array at `(p, q)`. -/
theorem broadcastTo_lastAxis_apply {a b c : ℕ} (x : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (p : Fin a) (q : Fin b) (k : Fin c) :
    broadcastTo ⟨3, ![a, b, c]⟩ (shapeCast ⟨3, ![a, b, 1]⟩ x h) h' (ix3 p q k) = x (ix2 p q) := by
  refine (broadcastTo_apply _ h' (ix3 p q k) (ix3 p q (0 : Fin 1)) fun ax => ?_).trans ?_
  · match ax with
    | ⟨0, _⟩ =>
      show p.val = if a = 1 then 0 else p.val
      split
      · have := p.isLt; omega
      · rfl
    | ⟨1, _⟩ =>
      show q.val = if b = 1 then 0 else q.val
      split
      · have := q.isLt; omega
      · rfl
    | ⟨2, _⟩ => rfl
  · refine shapeCast_apply x h _ _ ?_
    rw [Shape.rowMajor_val_two, Shape.rowMajor_val_three]
    show p.val * b + q.val = (p.val * b + q.val) * 1 + 0
    omega

end Cert.Lib.LaneSums

end
-- ==== Proof.Region1.lean ====
/-
  The value of the output kernel's region.

  The 500000 edges come in 100 tiles of 5000 rows. Grid point `t` reads rows `5000 t … 5000 t + 4999` of the two
  gathered tables and writes rows `5000 t … 5000 t + 4999` of the `[500000, 1]` result; every other operand — the weight
  matrix, the bias, scale and shift rows, the two pairs of statistics rows, the two halves of the attention row — is its
  whole array at every point. For row `p` of a tile the body forms the affine rows `x · Wᵀ + b` of the source and of the
  destination tile, normalises each with the statistics it is handed, `g · (h − mean) · istd + β`, multiplies the
  source row by the first half of the attention row and the destination row by the second, sums each over the 128
  lanes, adds the two sums, applies the logistic function, and returns that times ½ plus ½. So the array after the
  region is, at edge `e`, `Spec.outK1` of the region's arrays at `e`: first the payloads at an index, then one tile as
  rows of the tables, then the hundred tiles as one array.
-/
import proofs.«429111_j24678882083441_1_alg».proof.Proof.Gen.KernelIdeal.Frame
import proofs.«429111_j24678882083441_1_alg».proof.Proof.Spec
import proofs.«429111_j24678882083441_1_alg».proof.Proof.LibMatmulPlain
import proofs.«429111_j24678882083441_1_alg».proof.Proof.LibLaneSums
import Idealize.ShloMosaic.Lib.Pipeline.Value
import Idealize.ShloMosaic.Lib.ValueLayout

set_option maxRecDepth 16384

noncomputable section

namespace Cert.KernelIdeal.Regions

open Idealize.ShloMosaic Idealize.ShloMosaic.TcCoe Idealize.SL.Sem Cert.KernelIdeal Cert.KernelIdeal.Gen
open Idealize.ShloMosaic.Pipeline (Dat Cfg Window)
open Idealize.ShloMosaic.ValueIdx

namespace OutKernel

/-! ## The payloads of one tile, read at an index -/

/-- A row `[1, 128]` cast to its own shape and spread over the 5000 rows of a tile reads, at `(p, q)`, the row at `q`. -/
theorem row_spread (r : Vec Ideal S1x128 .f32) (h : S1x128.ShapeCasts S1x128) (h' : S1x128.Broadcasts S5000x128)
    (p : Fin 5000) (q : Fin 128) :
    broadcastTo S5000x128 (shapeCast S1x128 r h) h' (ix2 p q) = r (ix2 (0 : Fin 1) q) := by
  rw [broadcastTo_1b_ab_apply, shapeCast_self]

/-- The affine map of a tile: the product of the tile's rows with the TRANSPOSED weights into a zero accumulator is,
    at `(p, q)`, the sum over `k` of `x (p, k) · w (q, k)`; the bias row is added to every row. The change of format
    before the product is the identity on the extended reals. -/
theorem affine_tile (w : Vec Ideal S128x128 .f32) (x : Vec Ideal S5000x128 .f32) (b : Vec Ideal S1x128 .f32)
    (p : Fin 5000) (q : Fin 128) :
    k1_pay3 w x b (ix2 p q) = (∑ k : Fin 128, x (ix2 p k) * w (ix2 q k)) + b (ix2 (0 : Fin 1) q) := by
  unfold k1_pay3 k1_pay2
  dsimp only
  rw [addf_apply, row_spread]
  congr 1
  refine (Cert.Lib.MatmulPlain.matmul_zero_apply dot_S5000x128_S128x128_S5000x128_1_0_0_1_n_n rfl rfl rfl rfl rfl rfl none _ _ p q).trans ?_
  refine Finset.sum_congr rfl fun k _ => ?_
  rw [truncf_apply, shapeCast_self, transpose_ix2_apply, truncf_apply]

/-- The rows of a tile normalised with a given mean row and inverse-deviation row, scaled by `g` and shifted by
    `beta`: the tile-level operations, each row operand spread over the tile's rows. -/
def normTile (g mu istd beta : Vec Ideal S1x128 .f32) (h : FVec Ideal S5000x128 .f32) : FVec Ideal S5000x128 .f32 :=
  addf (mulf (mulf (broadcastTo S5000x128 (shapeCast S1x128 g shapeCasts_S1x128_S1x128) broadcasts_S1x128_S5000x128)
      (subf h (broadcastTo S5000x128 (shapeCast S1x128 mu shapeCasts_S1x128_S1x128) broadcasts_S1x128_S5000x128)))
      (broadcastTo S5000x128 (shapeCast S1x128 istd shapeCasts_S1x128_S1x128) broadcasts_S1x128_S5000x128))
    (broadcastTo S5000x128 (shapeCast S1x128 beta shapeCasts_S1x128_S1x128) broadcasts_S1x128_S5000x128)

/-- At `(p, q)` it is `g q · (h (p, q) − mu q) · istd q + beta q`. -/
theorem normTile_apply (g mu istd beta : Vec Ideal S1x128 .f32) (h : FVec Ideal S5000x128 .f32) (p : Fin 5000) (q : Fin 128) :
    normTile g mu istd beta h (ix2 p q)
      = g (ix2 (0 : Fin 1) q) * (h (ix2 p q) - mu (ix2 (0 : Fin 1) q)) * istd (ix2 (0 : Fin 1) q) + beta (ix2 (0 : Fin 1) q) := by
  unfold normTile
  rw [addf_apply, mulf_apply, mulf_apply, subf_apply, row_spread, row_spread, row_spread, row_spread]

/-- The source payload is the affine map of the source tile, normalised. -/
theorem source_tile_eq (w : Vec Ideal S128x128 .f32) (x : Vec Ideal S5000x128 .f32) (b g mu istd beta : Vec Ideal S1x128 .f32) :
    k1_pay4 w x b g mu istd beta = normTile g mu istd beta (k1_pay3 w x b) := rfl

/-- A column `[5000]` cast to `[5000, 1]` reads, at `(p, q)`, the column at `p`: the one lane coordinate is `0`, so
    the two row-major positions agree. -/
theorem column_cast {α : Type} (v : S5000.Idx → α) (h : S5000.ShapeCasts S5000x1) (p : Fin 5000) (q : Fin 1) :
    shapeCast S5000x1 v h (ix2 p q) = v (ix1 p) :=
  shapeCast_apply v h _ _ (by
    have hq : q.val = 0 := by omega
    rw [Shape.rowMajor_val_two, Shape.rowMajor_val_one]
    show p.val = p.val * 1 + q.val
    omega)

/-- The logistic function of a vector, at an index. -/
theorem logistic_apply {s : Shape} (v : FVec Ideal s .f32) (i : s.Idx) : logistic v i = Ideal.logistic (v i) := rfl

/-- The lane sum of the products of a tile with a row spread over its rows, as a column, at `(p, q)`: the sum over the
    128 lanes of `h (p, j) · a j`. -/
theorem lane_sum (h : FVec Ideal S5000x128 .f32) (a : Vec Ideal S1x128 .f32) (p : Fin 5000) (q : Fin 1) :
    shapeCast S5000x1 (multiReduction .add [1] S5000
        (mulf h (broadcastTo S5000x128 (shapeCast S1x128 a shapeCasts_S1x128_S1x128) broadcasts_S1x128_S5000x128))
        0x00000000#32 reduces_S5000x128_S5000 (.inl rfl) rfl) shapeCasts_S5000_S5000x1 (ix2 p q)
      = ∑ j : Fin 128, h (ix2 p j) * a (ix2 (0 : Fin 1) j) := by
  rw [column_cast]
  refine (Cert.Lib.LaneSums.sum_axis1_apply _ reduces_S5000x128_S5000 (.inl rfl) rfl p).trans ?_
  refine Finset.sum_congr rfl fun j _ => ?_
  rw [mulf_apply, row_spread]

/-- THE OUTPUT PAYLOAD at `(p, q)`: the destination tile `hd` normalised, each of the two tiles multiplied by its half
    of the attention row and summed over the lanes, the two sums added (source first), the logistic function, times ½
    plus ½. -/
theorem out_tile (hd hs : FVec Ideal S5000x128 .f32) (g mu istd beta aS aD : Vec Ideal S1x128 .f32) (p : Fin 5000) (q : Fin 1) :
    k1_pay1 hd hs g mu istd beta aS aD (ix2 p q)
      = Ideal.logistic ((∑ j : Fin 128, hs (ix2 p j) * aS (ix2 (0 : Fin 1) j))
          + (∑ j : Fin 128, normTile g mu istd beta hd (ix2 p j) * aD (ix2 (0 : Fin 1) j))) * Spec.half + Spec.half := by
  have e : k1_pay1 hd hs g mu istd beta aS aD
      = addf (mulf (logistic (addf
          (shapeCast S5000x1 (multiReduction .add [1] S5000
            (mulf hs (broadcastTo S5000x128 (shapeCast S1x128 aS shapeCasts_S1x128_S1x128) broadcasts_S1x128_S5000x128))
            0x00000000#32 reduces_S5000x128_S5000 (.inl rfl) rfl) shapeCasts_S5000_S5000x1)
          (shapeCast S5000x1 (multiReduction .add [1] S5000
            (mulf (normTile g mu istd beta hd) (broadcastTo S5000x128 (shapeCast S1x128 aD shapeCasts_S1x128_S1x128) broadcasts_S1x128_S5000x128))
            0x00000000#32 reduces_S5000x128_S5000 (.inl rfl) rfl) shapeCasts_S5000_S5000x1)))
          (broadcast S5000x1 (Scalar.ofBits .f32 0x3F000000#32))) (broadcast S5000x1 (Scalar.ofBits .f32 0x3F000000#32)) := rfl
  rw [e, addf_apply, mulf_apply, logistic_apply, addf_apply, lane_sum, lane_sum]
  rfl

/-- ONE TILE OF THE RESULT. If the table blocks `xs`, `xd` are rows `5000 n … 5000 n + 4999` of the tables `Xs`, `Xd`,
    and the ten other blocks are their whole arrays, the output payload at row `p` is the second pass's value at edge
    `5000 n + p`: the source sum is over the normalised affine rows of `Xs` against `aS`, the destination sum over those
    of `Xd` against `aD`. -/
theorem tile_spec (Xs Xd : Vec Ideal S500000x128 .f32) (W : Vec Ideal S128x128 .f32)
    (b g beta mS iS mD iD aS aD : Vec Ideal S1x128 .f32) (xs xd : Vec Ideal S5000x128 .f32) (w' : Vec Ideal S128x128 .f32)
    (b' g' beta' mS' iS' mD' iD' aS' aD' : Vec Ideal S1x128 .f32) (n : Nat) (hn : n < 100)
    (hxs : ∀ (p : Fin 5000) (k : Fin 128), xs (ix2 p k) = Xs (ix2 ⟨n * 5000 + p.val, by have := p.isLt; omega⟩ k))
    (hxd : ∀ (p : Fin 5000) (k : Fin 128), xd (ix2 p k) = Xd (ix2 ⟨n * 5000 + p.val, by have := p.isLt; omega⟩ k))
    (hw : w' = W) (hb : b' = b) (hg : g' = g) (hbeta : beta' = beta) (hmS : mS' = mS) (hiS : iS' = iS)
    (hmD : mD' = mD) (hiD : iD' = iD) (haS : aS' = aS) (haD : aD' = aD) (p : Fin 5000) (q : Fin 1) :
    k1_pay1 (k1_pay3 w' xd b') (k1_pay4 w' xs b' g' mS' iS' beta') g' mD' iD' beta' aS' aD' (ix2 p q)
      = Spec.outK1 (Spec.mat Xs) (Spec.mat Xd) (Spec.mat W) (Spec.row b) (Spec.row g) (Spec.row beta)
          (Spec.row mS) (Spec.row iS) (Spec.row mD) (Spec.row iD) (Spec.row aS) (Spec.row aD)
          ⟨n * 5000 + p.val, by have := p.isLt; omega⟩ := by
  subst hw hb hg hbeta hmS hiS hmD hiD haS haD
  rw [out_tile, source_tile_eq]
  unfold Spec.outK1 Spec.bnWith Spec.lin Spec.mat Spec.row
  simp only [normTile_apply, affine_tile, hxs, hxd]

end OutKernel

variable (V : (c : Dev nD) → (b : Ref sig .tc) → Buf (Elt Ideal) ((c : Thread nD τ).loc b))

/-! region 1's arrays -/
abbrev xs1 (c : Dev nD) : Vec Ideal S500000x128 .f32 := V c (Pipeline.arrRef spec1 0)
abbrev xd1 (c : Dev nD) : Vec Ideal S500000x128 .f32 := V c (Pipeline.arrRef spec1 1)
abbrev w1 (c : Dev nD) : Vec Ideal S128x128 .f32 := V c (Pipeline.arrRef spec1 2)

namespace OutKernel

/-! ## The windows' blocks, read off the arrays -/

theorem zero_offsets : (![0, 0] : Fin 2 → Nat) = fun _ => 0 := funext fun a => by fin_cases a <;> rfl

/-- The block indices of the windows that move with the grid point, decided over the 100 points: the two gathered
    tables and the output sit at block `(t, 0)`. -/
theorem moving_blocks : ∀ t : Fin cfg1.N,
    win1_0.index t (0 : Fin 2) = t.val ∧ win1_0.index t (1 : Fin 2) = 0
    ∧ win1_1.index t (0 : Fin 2) = t.val ∧ win1_1.index t (1 : Fin 2) = 0
    ∧ win1_12.index t (0 : Fin 2) = t.val ∧ win1_12.index t (1 : Fin 2) = 0 :=
  (by decide +kernel : ∀ t : Fin grid1.N, _)

/-- Every other window (2 to 11, in this order) sits at block `(0, 0)` at every point: it is its whole array. -/
theorem fixed_blocks : ∀ (t : Fin cfg1.N) (a : Fin 2),
    win1_2.index t a = 0 ∧ win1_3.index t a = 0 ∧ win1_4.index t a = 0 ∧ win1_5.index t a = 0 ∧ win1_6.index t a = 0
    ∧ win1_7.index t a = 0 ∧ win1_8.index t a = 0 ∧ win1_9.index t a = 0 ∧ win1_10.index t a = 0 ∧ win1_11.index t a = 0 :=
  (by decide +kernel : ∀ (t : Fin grid1.N) (a : Fin 2), _)

/-- The source table's block at point `t` is rows `5000 t … 5000 t + 4999` of the table: an element of a block sits at
    block index × block size + its coordinate inside the block. -/
theorem block0 (c : Dev nD) (t : Fin cfg1.N) (ht : t.val < 100) (p : Fin 5000) (k : Fin 128) :
    (iblk1 V c 0 t : Vec Ideal S5000x128 .f32) (ix2 p k) = xs1 V c (ix2 ⟨t.val * 5000 + p.val, by have := p.isLt; omega⟩ k) := by
  show (V c (Pipeline.arrRef spec1 0) : Vec Ideal S500000x128 .f32) (((cfg1.win 0).blk t).view.emb (ix2 p k)) = _
  refine congrArg _ (funext fun a => Fin.ext ?_)
  obtain ⟨e0, e1, -⟩ := moving_blocks t
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

/-- The destination table's block at point `t` is rows `5000 t … 5000 t + 4999` of the table. -/
theorem block1 (c : Dev nD) (t : Fin cfg1.N) (ht : t.val < 100) (p : Fin 5000) (k : Fin 128) :
    (iblk1 V c 1 t : Vec Ideal S5000x128 .f32) (ix2 p k) = xd1 V c (ix2 ⟨t.val * 5000 + p.val, by have := p.isLt; omega⟩ k) := by
  show (V c (Pipeline.arrRef spec1 1) : Vec Ideal S500000x128 .f32) (((cfg1.win 1).blk t).view.emb (ix2 p k)) = _
  refine congrArg _ (funext fun a => Fin.ext ?_)
  obtain ⟨-, -, e0, e1, -⟩ := moving_blocks t
  match a with
  | ⟨0, _⟩ => show win1_1.index t (0 : Fin 2) * 5000 + 1 * p.val = t.val * 5000 + p.val; rw [e0]; omega
  | ⟨1, _⟩ => show win1_1.index t (1 : Fin 2) * 128 + 1 * k.val = k.val; rw [e1]; omega

/-- The weights' block is the weight matrix: on an axis where the block index is zero an element of the block has the
    same coordinate in the array. -/
theorem block2 (c : Dev nD) (t : Fin cfg1.N) : (iblk1 V c 2 t : Vec Ideal S128x128 .f32) = w1 V c :=
  funext fun y => congrArg (w1 V c) (funext fun a =>
    let ⟨h, _⟩ := fixed_blocks t a
    Fin.ext (win1_2.rect_emb_val_of_index_zero t a h y))

/-- The bias row's block is the bias row. -/
theorem block3 (c : Dev nD) (t : Fin cfg1.N) :
    (iblk1 V c 3 t : Vec Ideal S1x128 .f32) = (V c (Pipeline.arrRef spec1 3) : Vec Ideal S1x128 .f32) :=
  funext fun y => congrArg (V c (Pipeline.arrRef spec1 3) : Vec Ideal S1x128 .f32) (funext fun a =>
    let ⟨_, h, _⟩ := fixed_blocks t a
    Fin.ext (win1_3.rect_emb_val_of_index_zero t a h y))

/-- The scale row's block is the scale row. -/
theorem block4 (c : Dev nD) (t : Fin cfg1.N) :
    (iblk1 V c 4 t : Vec Ideal S1x128 .f32) = (V c (Pipeline.arrRef spec1 4) : Vec Ideal S1x128 .f32) :=
  funext fun y => congrArg (V c (Pipeline.arrRef spec1 4) : Vec Ideal S1x128 .f32) (funext fun a =>
    let ⟨_, _, h, _⟩ := fixed_blocks t a
    Fin.ext (win1_4.rect_emb_val_of_index_zero t a h y))

/-- The shift row's block is the shift row. -/
theorem block5 (c : Dev nD) (t : Fin cfg1.N) :
    (iblk1 V c 5 t : Vec Ideal S1x128 .f32) = (V c (Pipeline.arrRef spec1 5) : Vec Ideal S1x128 .f32) :=
  funext fun y => congrArg (V c (Pipeline.arrRef spec1 5) : Vec Ideal S1x128 .f32) (funext fun a =>
    let ⟨_, _, _, h, _⟩ := fixed_blocks t a
    Fin.ext (win1_5.rect_emb_val_of_index_zero t a h y))

/-- The source mean row's block is that row. -/
theorem block6 (c : Dev nD) (t : Fin cfg1.N) :
    (iblk1 V c 6 t : Vec Ideal S1x128 .f32) = (V c (Pipeline.arrRef spec1 6) : Vec Ideal S1x128 .f32) :=
  funext fun y => congrArg (V c (Pipeline.arrRef spec1 6) : Vec Ideal S1x128 .f32) (funext fun a =>
    let ⟨_, _, _, _, h, _⟩ := fixed_blocks t a
    Fin.ext (win1_6.rect_emb_val_of_index_zero t a h y))

/-- The source inverse-deviation row's block is that row. -/
theorem block7 (c : Dev nD) (t : Fin cfg1.N) :
    (iblk1 V c 7 t : Vec Ideal S1x128 .f32) = (V c (Pipeline.arrRef spec1 7) : Vec Ideal S1x128 .f32) :=
  funext fun y => congrArg (V c (Pipeline.arrRef spec1 7) : Vec Ideal S1x128 .f32) (funext fun a =>
    let ⟨_, _, _, _, _, h, _⟩ := fixed_blocks t a
    Fin.ext (win1_7.rect_emb_val_of_index_zero t a h y))

/-- The destination mean row's block is that row. -/
theorem block8 (c : Dev nD) (t : Fin cfg1.N) :
    (iblk1 V c 8 t : Vec Ideal S1x128 .f32) = (V c (Pipeline.arrRef spec1 8) : Vec Ideal S1x128 .f32) :=
  funext fun y => congrArg (V c (Pipeline.arrRef spec1 8) : Vec Ideal S1x128 .f32) (funext fun a =>
    let ⟨_, _, _, _, _, _, h, _⟩ := fixed_blocks t a
    Fin.ext (win1_8.rect_emb_val_of_index_zero t a h y))

/-- The destination inverse-deviation row's block is that row. -/
theorem block9 (c : Dev nD) (t : Fin cfg1.N) :
    (iblk1 V c 9 t : Vec Ideal S1x128 .f32) = (V c (Pipeline.arrRef spec1 9) : Vec Ideal S1x128 .f32) :=
  funext fun y => congrArg (V c (Pipeline.arrRef spec1 9) : Vec Ideal S1x128 .f32) (funext fun a =>
    let ⟨_, _, _, _, _, _, _, h, _⟩ := fixed_blocks t a
    Fin.ext (win1_9.rect_emb_val_of_index_zero t a h y))

/-- The block of the attention row's source half is that half. -/
theorem block10 (c : Dev nD) (t : Fin cfg1.N) :
    (iblk1 V c 10 t : Vec Ideal S1x128 .f32) = (V c (Pipeline.arrRef spec1 10) : Vec Ideal S1x128 .f32) :=
  funext fun y => congrArg (V c (Pipeline.arrRef spec1 10) : Vec Ideal S1x128 .f32) (funext fun a =>
    let ⟨_, _, _, _, _, _, _, _, h, _⟩ := fixed_blocks t a
    Fin.ext (win1_10.rect_emb_val_of_index_zero t a h y))

/-- The block of the attention row's destination half is that half. -/
theorem block11 (c : Dev nD) (t : Fin cfg1.N) :
    (iblk1 V c 11 t : Vec Ideal S1x128 .f32) = (V c (Pipeline.arrRef spec1 11) : Vec Ideal S1x128 .f32) :=
  funext fun y => congrArg (V c (Pipeline.arrRef spec1 11) : Vec Ideal S1x128 .f32) (funext fun a =>
    let ⟨_, _, _, _, _, _, _, _, _, h⟩ := fixed_blocks t a
    Fin.ext (win1_11.rect_emb_val_of_index_zero t a h y))

/-! ## From the hundred tiles to the array -/

/-- The second pass's result over all edges, laid out as the `[500000, 1]` array. -/
abbrev result (c : Dev nD) : Vec Ideal S500000x1 .f32 :=
  Spec.outArr (Spec.outK1 (Spec.mat (xs1 V c)) (Spec.mat (xd1 V c)) (Spec.mat (w1 V c))
    (Spec.row (V c (Pipeline.arrRef spec1 3) : Vec Ideal S1x128 .f32)) (Spec.row (V c (Pipeline.arrRef spec1 4) : Vec Ideal S1x128 .f32))
    (Spec.row (V c (Pipeline.arrRef spec1 5) : Vec Ideal S1x128 .f32)) (Spec.row (V c (Pipeline.arrRef spec1 6) : Vec Ideal S1x128 .f32))
    (Spec.row (V c (Pipeline.arrRef spec1 7) : Vec Ideal S1x128 .f32)) (Spec.row (V c (Pipeline.arrRef spec1 8) : Vec Ideal S1x128 .f32))
    (Spec.row (V c (Pipeline.arrRef spec1 9) : Vec Ideal S1x128 .f32)) (Spec.row (V c (Pipeline.arrRef spec1 10) : Vec Ideal S1x128 .f32))
    (Spec.row (V c (Pipeline.arrRef spec1 11) : Vec Ideal S1x128 .f32)))

/-- `result` at an index whose row coordinate is edge `e` is the second pass's value at `e`. -/
theorem result_apply (c : Dev nD) (i : S500000x1.Idx) (e : Fin 500000) (he : (i 0).val = e.val) :
    result V c i = Spec.outK1 (Spec.mat (xs1 V c)) (Spec.mat (xd1 V c)) (Spec.mat (w1 V c))
      (Spec.row (V c (Pipeline.arrRef spec1 3) : Vec Ideal S1x128 .f32)) (Spec.row (V c (Pipeline.arrRef spec1 4) : Vec Ideal S1x128 .f32))
      (Spec.row (V c (Pipeline.arrRef spec1 5) : Vec Ideal S1x128 .f32)) (Spec.row (V c (Pipeline.arrRef spec1 6) : Vec Ideal S1x128 .f32))
      (Spec.row (V c (Pipeline.arrRef spec1 7) : Vec Ideal S1x128 .f32)) (Spec.row (V c (Pipeline.arrRef spec1 8) : Vec Ideal S1x128 .f32))
      (Spec.row (V c (Pipeline.arrRef spec1 9) : Vec Ideal S1x128 .f32)) (Spec.row (V c (Pipeline.arrRef spec1 10) : Vec Ideal S1x128 .f32))
      (Spec.row (V c (Pipeline.arrRef spec1 11) : Vec Ideal S1x128 .f32)) e := by
  obtain rfl : e = ⟨(i 0).val, idx2_lt0 i⟩ := Fin.ext he.symm
  rfl

/-- WHAT POINT `t` WRITES BACK is block `t` of `result`: the one store covers the staging buffer, each load reads its
    whole block, the ten fixed blocks are their arrays, and row `p` of the tile is edge `5000 t + p`. -/
theorem written_back (c : Dev nD) (t : Fin cfg1.N) :
    (dat1 (F := Ideal) V c).flushed 12 t = ((cfg1.win 12).blk t).view.read (Elt Ideal) (result V c) := by
  have hN : t.val < 100 := Nat.lt_of_lt_of_eq t.isLt N_1
  show (cfg1.win 12).cut (grid1.coords t) ((dat1 (F := Ideal) V c).after 12 t) = _
  rw [after1_12]
  unfold out1_12
  rw [View.canon_unit_zero zero_offsets]
  simp only [View.ld_unit_zero (S := S128x128) zero_offsets, View.ld_unit_zero (S := S5000x128) zero_offsets,
    View.ld_unit_zero (S := S1x128) zero_offsets]
  funext y
  obtain ⟨p, q, rfl⟩ : ∃ (p : Fin 5000) (q : Fin 1), y = ix2 p q := ⟨y 0, y 1, eq_ix2 (n0 := 5000) (n1 := 1) y⟩
  refine (tile_spec (xs1 V c) (xd1 V c) (w1 V c) _ _ _ _ _ _ _ _ _ (iblk1 V c 0 t) (iblk1 V c 1 t) (iblk1 V c 2 t)
    (iblk1 V c 3 t) (iblk1 V c 4 t) (iblk1 V c 5 t) (iblk1 V c 6 t) (iblk1 V c 7 t) (iblk1 V c 8 t) (iblk1 V c 9 t)
    (iblk1 V c 10 t) (iblk1 V c 11 t) t.val hN (block0 V c t hN) (block1 V c t hN) (block2 V c t) (block3 V c t)
    (block4 V c t) (block5 V c t) (block6 V c t) (block7 V c t) (block8 V c t) (block9 V c t) (block10 V c t)
    (block11 V c t) p q).trans ?_
  show _ = result V c (((cfg1.win 12).blk t).view.emb (ix2 p q))
  refine (result_apply V c _ _ ?_).symm
  obtain ⟨-, -, -, -, e0, -⟩ := moving_blocks t
  show win1_12.index t (0 : Fin 2) * 5000 + 1 * p.val = t.val * 5000 + p.val
  rw [e0]; omega

/-- An index of the result array is in point `t`'s block iff each coordinate is in the block's range on its axis. -/
theorem mem_block (t : Fin cfg1.N) (i : S500000x1.Idx) :
    i ∈ ((cfg1.win 12).blk t).view.set ↔ ∀ a : Fin 2, win1_12.index t a * S5000x1.size a ≤ (i a).val
      ∧ (i a).val < win1_12.index t a * S5000x1.size a + S5000x1.size a := by
  show i ∈ ((View.whole main_v26).slice (win1_12.rect t)).set ↔ _
  rw [View.set_slice_whole, Rect.mem_set_unit]
  exact Iff.rfl

/-- EVERY EDGE IS COVERED: edge `e` lies in the block of point `e / 5000`, and every point writes its block back. -/
theorem covered (i : S500000x1.Idx) :
    ∃ t : Fin cfg1.N, (cfg1.win 12).flush t = true ∧ i ∈ ((cfg1.win 12).blk t).view.set := by
  have hi0 : (i 0).val < 500000 := idx2_lt0 i
  have hi1 : (i 1).val < 1 := idx2_lt1 i
  obtain ⟨t, ht⟩ : ∃ t : Fin cfg1.N, t.val = (i 0).val / 5000 :=
    ⟨⟨(i 0).val / 5000, by rw [show cfg1.N = 100 from N_1]; omega⟩, rfl⟩
  obtain ⟨-, -, -, -, e0, e1⟩ := moving_blocks t
  refine ⟨t, flush1_12 t, ?_⟩
  rw [mem_block]
  intro a
  match a with
  | ⟨0, _⟩ =>
    show win1_12.index t (0 : Fin 2) * 5000 ≤ (i 0).val ∧ (i 0).val < win1_12.index t (0 : Fin 2) * 5000 + 5000
    rw [e0, ht]; omega
  | ⟨1, _⟩ =>
    show win1_12.index t (1 : Fin 2) * 1 ≤ (i 1).val ∧ (i 1).val < win1_12.index t (1 : Fin 2) * 1 + 1
    rw [e1]; omega

end OutKernel

/-- THE ARRAY AFTER THE REGION: every point writes back its block of one function of the region's arrays and the blocks
    cover the array, so the array ends holding that function — the second pass's value at every edge. -/
theorem out (c : Dev nD) :
    (dat1 (F := Ideal) V c).arrAt 12 cfg1.N
      = Spec.outArr (Spec.outK1 (Spec.mat (xs1 V c)) (Spec.mat (xd1 V c)) (Spec.mat (w1 V c))
          (Spec.row (V c (Pipeline.arrRef spec1 3) : Vec Ideal S1x128 .f32)) (Spec.row (V c (Pipeline.arrRef spec1 4) : Vec Ideal S1x128 .f32))
          (Spec.row (V c (Pipeline.arrRef spec1 5) : Vec Ideal S1x128 .f32)) (Spec.row (V c (Pipeline.arrRef spec1 6) : Vec Ideal S1x128 .f32))
          (Spec.row (V c (Pipeline.arrRef spec1 7) : Vec Ideal S1x128 .f32)) (Spec.row (V c (Pipeline.arrRef spec1 8) : Vec Ideal S1x128 .f32))
          (Spec.row (V c (Pipeline.arrRef spec1 9) : Vec Ideal S1x128 .f32)) (Spec.row (V c (Pipeline.arrRef spec1 10) : Vec Ideal S1x128 .f32))
          (Spec.row (V c (Pipeline.arrRef spec1 11) : Vec Ideal S1x128 .f32))) :=
  (dat1 (F := Ideal) V c).arrAt_eq_of_cover 12 (OutKernel.result V c) (fun t _ => OutKernel.written_back V c t) OutKernel.covered

end Cert.KernelIdeal.Regions

end
-- ==== Proof.KernelValue.lean ====
/-
  The kernel program's result as one function of its arguments.

  @main takes the source and destination rows of the node table, re-lays the parameters out as rows, runs the
  statistics region (four column sums over all edges), turns the sums into means and inverse standard deviations,
  and runs the output region. Reading each region's operands off the contents its entry finds — the takes under the
  index range of the precondition, the parameters through their re-layout, the statistics through the arithmetic
  between the regions — the output region's array is the specification `Spec.GK` of the launch arrays.
-/
import proofs.«429111_j24678882083441_1_alg».proof.Proof.Gen.KernelIdeal.Frame
import proofs.«429111_j24678882083441_1_alg».proof.Proof.Spec
import proofs.«429111_j24678882083441_1_alg».proof.Proof.HostKeep
import proofs.«429111_j24678882083441_1_alg».proof.Proof.HostStats
import proofs.«429111_j24678882083441_1_alg».proof.Proof.HostTake
import proofs.«429111_j24678882083441_1_alg».proof.Proof.TakeRows
import proofs.«429111_j24678882083441_1_alg».proof.Proof.Region0
import proofs.«429111_j24678882083441_1_alg».proof.Proof.Region1
import Idealize.ShloMosaic.Lib.ValueLayout

set_option maxRecDepth 16384

noncomputable section

namespace Cert.KernelIdeal.Whole

open Idealize.ShloMosaic Idealize.ShloMosaic.TcCoe Idealize.SL.Sem Cert.KernelIdeal Cert.KernelIdeal.Gen
open Idealize.ShloMosaic.StableHlo Idealize.ShloMosaic.ValueIdx Cert.KernelIdeal.Host Cert.KernelIdeal.Regions
open Idealize.ShloMosaic.Pipeline (Dat Cfg Window)

variable (m : (ℓ : Loc nD τ sig) → Buf (Elt Ideal) ℓ) (ρ : Dev nD → PrngReg) (c : Dev nD)

/-- The second pass at equal operands. -/
theorem outK1_congr {Xs Xs' Xd Xd' : Fin 500000 → Fin 128 → EReal} {W W' : Fin 128 → Fin 128 → EReal}
    {b b' g g' β β' mS mS' iS iS' mD mD' iD iD' aS aS' aD aD' : Fin 128 → EReal}
    (h1 : Xs = Xs') (h2 : Xd = Xd') (h3 : W = W') (h4 : b = b') (h5 : g = g') (h6 : β = β') (h7 : mS = mS')
    (h8 : iS = iS') (h9 : mD = mD') (h10 : iD = iD') (h11 : aS = aS') (h12 : aD = aD') :
    Cert.Spec.outK1 Xs Xd W b g β mS iS mD iD aS aD = Cert.Spec.outK1 Xs' Xd' W' b' g' β' mS' iS' mD' iD' aS' aD' := by
  subst h1 h2 h3 h4 h5 h6 h7 h8 h9 h10 h11 h12; rfl

/-- With the statistics of the one-pass variance and the attention row's two halves, the second pass is the
    specification (by unfolding the definitions). -/
theorem outK1_eq_GK (Xs Xd : Fin 500000 → Fin 128 → EReal) (W : Fin 128 → Fin 128 → EReal) (b g β : Fin 128 → EReal)
    (aw : Fin 256 → EReal) :
    Cert.Spec.outK1 Xs Xd W b g β (Cert.Spec.mean (Cert.Spec.lin Xs W b))
        (fun j => Ideal.rsqrt (Cert.Spec.varK (Cert.Spec.lin Xs W b) j + Cert.Spec.eps))
        (Cert.Spec.mean (Cert.Spec.lin Xd W b))
        (fun j => Ideal.rsqrt (Cert.Spec.varK (Cert.Spec.lin Xd W b) j + Cert.Spec.eps))
        (fun j : Fin 128 => aw ⟨j.val, by omega⟩) (fun j : Fin 128 => aw ⟨128 + j.val, by omega⟩)
      = Cert.Spec.GK Xs Xd W b g β aw := rfl

/-! ## The launch arrays, by literal type -/

abbrev aX : FVec Ideal S100000x128 .f32 := m ((c : Thread nD τ).loc main_arg0)
abbrev aW : FVec Ideal S128x128 .f32 := m ((c : Thread nD τ).loc main_arg1)
abbrev aB : FVec Ideal S128 .f32 := m ((c : Thread nD τ).loc main_arg2)
abbrev aG : FVec Ideal S128 .f32 := m ((c : Thread nD τ).loc main_arg3)
abbrev aBeta : FVec Ideal S128 .f32 := m ((c : Thread nD τ).loc main_arg4)
abbrev aAtt : FVec Ideal S1x256 .f32 := m ((c : Thread nD τ).loc main_arg5)
abbrev aSrc : IVec S500000 32 := m ((c : Thread nD τ).loc main_arg6)
abbrev aDst : IVec S500000 32 := m ((c : Thread nD τ).loc main_arg7)

/-! ## The contents the statistics region is entered from -/

/-- The source rows: the take at the source index vector. -/
theorem W3_v0 : (W3 m ρ c (Proc.devRef .tc main_v0) : FVec Ideal S500000x128 .f32) = takeRows (aX m c) (aSrc m c) :=
  calc W3 m ρ c (Proc.devRef .tc main_v0)
    _ = W2 m ρ c (Proc.devRef .tc main_v0) := relayout_keeps_v0 (W2 m ρ c)
    _ = W1 m ρ c (Proc.devRef .tc main_v0) := take_d_keeps_v0 (W1 m ρ c)
    _ = takeRows (aX m c) (aSrc m c) := take_s_result (W0 m ρ c)

/-- The destination rows: the take at the destination index vector (the first stretch leaves the table and the
    destination indices alone). -/
theorem W3_v1 : (W3 m ρ c (Proc.devRef .tc main_v1) : FVec Ideal S500000x128 .f32) = takeRows (aX m c) (aDst m c) := by
  have h0 : W1 m ρ c (Proc.devRef .tc main_arg0) = aX m c := take_s_keeps_arg0 (W0 m ρ c)
  have h7 : W1 m ρ c (Proc.devRef .tc main_arg7) = aDst m c := take_s_keeps_arg7 (W0 m ρ c)
  have h := take_d_result (W1 m ρ c)
  rw [h0, h7] at h
  exact (relayout_keeps_v1 (W2 m ρ c)).trans h

/-- The weight matrix is as launched. -/
theorem W3_arg1 : (W3 m ρ c (Proc.devRef .tc main_arg1) : FVec Ideal S128x128 .f32) = aW m c :=
  calc W3 m ρ c (Proc.devRef .tc main_arg1)
    _ = W2 m ρ c (Proc.devRef .tc main_arg1) := relayout_keeps_arg1 (W2 m ρ c)
    _ = W1 m ρ c (Proc.devRef .tc main_arg1) := take_d_keeps_arg1 (W1 m ρ c)
    _ = aW m c := take_s_keeps_arg1 (W0 m ρ c)

/-- An argument vector at the third stretch's start is as launched. -/
theorem W2_arg2 : (W2 m ρ c (Proc.devRef .tc main_arg2) : FVec Ideal S128 .f32) = aB m c :=
  (take_d_keeps_arg2 (W1 m ρ c)).trans (take_s_keeps_arg2 (W0 m ρ c))
theorem W2_arg3 : (W2 m ρ c (Proc.devRef .tc main_arg3) : FVec Ideal S128 .f32) = aG m c :=
  (take_d_keeps_arg3 (W1 m ρ c)).trans (take_s_keeps_arg3 (W0 m ρ c))
theorem W2_arg4 : (W2 m ρ c (Proc.devRef .tc main_arg4) : FVec Ideal S128 .f32) = aBeta m c :=
  (take_d_keeps_arg4 (W1 m ρ c)).trans (take_s_keeps_arg4 (W0 m ρ c))
theorem W2_arg5 : (W2 m ρ c (Proc.devRef .tc main_arg5) : FVec Ideal S1x256 .f32) = aAtt m c :=
  (take_d_keeps_arg5 (W1 m ρ c)).trans (take_s_keeps_arg5 (W0 m ρ c))

/-- The bias, scale and shift as rows, and the two halves of the attention row. -/
theorem W3_v2 : (W3 m ρ c (Proc.devRef .tc main_v2) : FVec Ideal S1x128 .f32)
    = shapeCast S1x128 (aB m c) shapeCasts_S128_S1x128 := by
  rw [← W2_arg2 m ρ c]; exact relayout_v2 (W2 m ρ c)
theorem W3_v3 : (W3 m ρ c (Proc.devRef .tc main_v3) : FVec Ideal S1x128 .f32)
    = shapeCast S1x128 (aG m c) shapeCasts_S128_S1x128 := by
  rw [← W2_arg3 m ρ c]; exact relayout_v3 (W2 m ρ c)
theorem W3_v4 : (W3 m ρ c (Proc.devRef .tc main_v4) : FVec Ideal S1x128 .f32)
    = shapeCast S1x128 (aBeta m c) shapeCasts_S128_S1x128 := by
  rw [← W2_arg4 m ρ c]; exact relayout_v4 (W2 m ρ c)
theorem W3_v5 : (W3 m ρ c (Proc.devRef .tc main_v5) : FVec Ideal S1x128 .f32)
    = extractStridedSlice S1x128 ![0, 0] (aAtt m c) slices_S1x256_S1x128_0_0 := by
  rw [← W2_arg5 m ρ c]; exact relayout_v5 (W2 m ρ c)
theorem W3_v6 : (W3 m ρ c (Proc.devRef .tc main_v6) : FVec Ideal S1x128 .f32)
    = extractStridedSlice S1x128 ![0, 128] (aAtt m c) slices_S1x256_S1x128_0_128 := by
  rw [← W2_arg5 m ρ c]; exact relayout_v6 (W2 m ρ c)

/-! ## Through the statistics region and the arithmetic after it -/

/-- An input array of the statistics region leaves it as it entered. -/
theorem W4_in (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hin cfg0.N).trans (A_eq0 (V3 m ρ) c w))

theorem W5_v0 : W5 m ρ c (Proc.devRef .tc main_v0) = W3 m ρ c (Proc.devRef .tc main_v0) :=
  (stats_keeps_v0 (W4 m ρ c)).trans (W4_in m ρ c 0 rfl)
theorem W5_v1 : W5 m ρ c (Proc.devRef .tc main_v1) = W3 m ρ c (Proc.devRef .tc main_v1) :=
  (stats_keeps_v1 (W4 m ρ c)).trans (W4_in m ρ c 1 rfl)
theorem W5_arg1 : W5 m ρ c (Proc.devRef .tc main_arg1) = W3 m ρ c (Proc.devRef .tc main_arg1) :=
  (stats_keeps_arg1 (W4 m ρ c)).trans (W4_in m ρ c 2 rfl)
theorem W5_v2 : W5 m ρ c (Proc.devRef .tc main_v2) = W3 m ρ c (Proc.devRef .tc main_v2) :=
  (stats_keeps_v2 (W4 m ρ c)).trans (W4_in m ρ c 3 rfl)
theorem W5_v3 : W5 m ρ c (Proc.devRef .tc main_v3) = W3 m ρ c (Proc.devRef .tc main_v3) :=
  (stats_keeps_v3 (W4 m ρ c)).trans (W4_of_ne m ρ c main_v3 (by decide))
theorem W5_v4 : W5 m ρ c (Proc.devRef .tc main_v4) = W3 m ρ c (Proc.devRef .tc main_v4) :=
  (stats_keeps_v4 (W4 m ρ c)).trans (W4_of_ne m ρ c main_v4 (by decide))
theorem W5_v5 : W5 m ρ c (Proc.devRef .tc main_v5) = W3 m ρ c (Proc.devRef .tc main_v5) :=
  (stats_keeps_v5 (W4 m ρ c)).trans (W4_of_ne m ρ c main_v5 (by decide))
theorem W5_v6 : W5 m ρ c (Proc.devRef .tc main_v6) = W3 m ρ c (Proc.devRef .tc main_v6) :=
  (stats_keeps_v6 (W4 m ρ c)).trans (W4_of_ne m ρ c main_v6 (by decide))

/-! ## The operands at the specification's vocabulary -/

/-- The gathered source and destination tables, the weight, and the bias of the specification. -/
abbrev Xs : Fin 500000 → Fin 128 → EReal := Cert.Spec.gatherRows (aX m c) (aSrc m c)
abbrev Xd : Fin 500000 → Fin 128 → EReal := Cert.Spec.gatherRows (aX m c) (aDst m c)
abbrev Wm : Fin 128 → Fin 128 → EReal := Cert.Spec.mat (aW m c)
abbrev bv : Fin 128 → EReal := Cert.Spec.vec (aB m c)

section Ranges

variable (hs : ∀ i, (-100000 : Int) ≤ (aSrc m c i).toInt ∧ (aSrc m c i).toInt < 100000)
  (hd : ∀ i, (-100000 : Int) ≤ (aDst m c i).toInt ∧ (aDst m c i).toInt < 100000)

include hs in
/-- The source rows at either region's entry are the gathered source table. -/
theorem W3_v0_apply (e : Fin 500000) (k : Fin 128) :
    (W3 m ρ c (Proc.devRef .tc main_v0) : FVec Ideal S500000x128 .f32) (ix2 e k) = Xs m c e k := by
  rw [W3_v0]; exact takeRows_apply _ _ hs e k

include hd in
/-- The destination rows at either region's entry are the gathered destination table. -/
theorem W3_v1_apply (e : Fin 500000) (k : Fin 128) :
    (W3 m ρ c (Proc.devRef .tc main_v1) : FVec Ideal S500000x128 .f32) (ix2 e k) = Xd m c e k := by
  rw [W3_v1]; exact takeRows_apply _ _ hd e k

/-- The bias row at `(0, j)` is the bias at `j`; likewise the scale and the shift. -/
theorem W3_v2_apply (j : Fin 128) :
    (W3 m ρ c (Proc.devRef .tc main_v2) : FVec Ideal S1x128 .f32) (ix2 (0 : Fin 1) j) = bv m c j := by
  rw [W3_v2]; exact shapeCast_a_1a_apply _ _ 0 j
theorem W3_v3_apply (j : Fin 128) :
    (W3 m ρ c (Proc.devRef .tc main_v3) : FVec Ideal S1x128 .f32) (ix2 (0 : Fin 1) j) = Cert.Spec.vec (aG m c) j := by
  rw [W3_v3]; exact shapeCast_a_1a_apply _ _ 0 j
theorem W3_v4_apply (j : Fin 128) :
    (W3 m ρ c (Proc.devRef .tc main_v4) : FVec Ideal S1x128 .f32) (ix2 (0 : Fin 1) j) = Cert.Spec.vec (aBeta m c) j := by
  rw [W3_v4]; exact shapeCast_a_1a_apply _ _ 0 j

/-- The two halves of the attention row: column `j` of the first is column `j` of the row, column `j` of the second
    is column `128 + j`. -/
theorem W3_v5_apply (j : Fin 128) :
    (W3 m ρ c (Proc.devRef .tc main_v5) : FVec Ideal S1x128 .f32) (ix2 (0 : Fin 1) j)
      = Cert.Spec.row (aAtt m c) ⟨j.val, by omega⟩ := by
  rw [W3_v5]; exact slice2_axis1_apply 0 _ _ 0 j ⟨j.val, by omega⟩ (Nat.zero_add _).symm
theorem W3_v6_apply (j : Fin 128) :
    (W3 m ρ c (Proc.devRef .tc main_v6) : FVec Ideal S1x128 .f32) (ix2 (0 : Fin 1) j)
      = Cert.Spec.row (aAtt m c) ⟨128 + j.val, by omega⟩ := by
  rw [W3_v6]; exact slice2_axis1_apply 128 _ _ 0 j ⟨128 + j.val, by omega⟩ rfl

/-! ## The statistics region's operands and results -/

include hs in
theorem mat_xs0 : Cert.Spec.mat (xs0 (V3 m ρ) c) = Xs m c :=
  funext fun e => funext fun k => W3_v0_apply m ρ c hs e k
include hd in
theorem mat_xd0 : Cert.Spec.mat (xd0 (V3 m ρ) c) = Xd m c :=
  funext fun e => funext fun k => W3_v1_apply m ρ c hd e k
theorem mat_w0 : Cert.Spec.mat (w0 (V3 m ρ) c) = Wm m c := congrArg Cert.Spec.mat (W3_arg1 m ρ c)
theorem row_b0 : Cert.Spec.row (b0 (V3 m ρ) c) = bv m c := funext fun j => W3_v2_apply m ρ c j

include hs in
/-- The four sums the statistics region leaves, at column `j`. -/
theorem sum_s_apply (j : Fin 128) :
    (W4 m ρ c (Proc.devRef .tc main_v7_0) : FVec Ideal S1x128 .f32) (ix2 (0 : Fin 1) j)
      = Cert.Spec.colSum (Cert.Spec.lin (Xs m c) (Wm m c) (bv m c)) j := by
  have h : (W4 m ρ c (Proc.devRef .tc main_v7_0) : FVec Ideal S1x128 .f32) = _ := (W4_arr m ρ c 4).trans (sum_s (V3 m ρ) c)
  rw [h, mat_xs0 m ρ c hs, mat_w0, row_b0]; rfl
include hs in
theorem sumsq_s_apply (j : Fin 128) :
    (W4 m ρ c (Proc.devRef .tc main_v7_1) : FVec Ideal S1x128 .f32) (ix2 (0 : Fin 1) j)
      = Cert.Spec.colSumSq (Cert.Spec.lin (Xs m c) (Wm m c) (bv m c)) j := by
  have h : (W4 m ρ c (Proc.devRef .tc main_v7_1) : FVec Ideal S1x128 .f32) = _ := (W4_arr m ρ c 5).trans (sumsq_s (V3 m ρ) c)
  rw [h, mat_xs0 m ρ c hs, mat_w0, row_b0]; rfl
include hd in
theorem sum_d_apply (j : Fin 128) :
    (W4 m ρ c (Proc.devRef .tc main_v7_2) : FVec Ideal S1x128 .f32) (ix2 (0 : Fin 1) j)
      = Cert.Spec.colSum (Cert.Spec.lin (Xd m c) (Wm m c) (bv m c)) j := by
  have h : (W4 m ρ c (Proc.devRef .tc main_v7_2) : FVec Ideal S1x128 .f32) = _ := (W4_arr m ρ c 6).trans (sum_d (V3 m ρ) c)
  rw [h, mat_xd0 m ρ c hd, mat_w0, row_b0]; rfl
include hd in
theorem sumsq_d_apply (j : Fin 128) :
    (W4 m ρ c (Proc.devRef .tc main_v7_3) : FVec Ideal S1x128 .f32) (ix2 (0 : Fin 1) j)
      = Cert.Spec.colSumSq (Cert.Spec.lin (Xd m c) (Wm m c) (bv m c)) j := by
  have h : (W4 m ρ c (Proc.devRef .tc main_v7_3) : FVec Ideal S1x128 .f32) = _ := (W4_arr m ρ c 7).trans (sumsq_d (V3 m ρ) c)
  rw [h, mat_xd0 m ρ c hd, mat_w0, row_b0]; rfl

/-! ## The output region's operands -/

include hs in
theorem mat_xs1 : Cert.Spec.mat (xs1 (V5 m ρ) c) = Xs m c :=
  funext fun e => funext fun k => (congrFun (W5_v0 m ρ c) (ix2 e k)).trans (W3_v0_apply m ρ c hs e k)
include hd in
theorem mat_xd1 : Cert.Spec.mat (xd1 (V5 m ρ) c) = Xd m c :=
  funext fun e => funext fun k => (congrFun (W5_v1 m ρ c) (ix2 e k)).trans (W3_v1_apply m ρ c hd e k)
theorem mat_w1 : Cert.Spec.mat (w1 (V5 m ρ) c) = Wm m c :=
  congrArg Cert.Spec.mat ((W5_arg1 m ρ c).trans (W3_arg1 m ρ c))
theorem row_b1 : Cert.Spec.row (V5 m ρ c (Pipeline.arrRef spec1 3) : Vec Ideal S1x128 .f32) = bv m c :=
  funext fun j => (congrFun (W5_v2 m ρ c) (ix2 (0 : Fin 1) j)).trans (W3_v2_apply m ρ c j)
theorem row_g1 : Cert.Spec.row (V5 m ρ c (Pipeline.arrRef spec1 4) : Vec Ideal S1x128 .f32) = Cert.Spec.vec (aG m c) :=
  funext fun j => (congrFun (W5_v3 m ρ c) (ix2 (0 : Fin 1) j)).trans (W3_v3_apply m ρ c j)
theorem row_beta1 : Cert.Spec.row (V5 m ρ c (Pipeline.arrRef spec1 5) : Vec Ideal S1x128 .f32) = Cert.Spec.vec (aBeta m c) :=
  funext fun j => (congrFun (W5_v4 m ρ c) (ix2 (0 : Fin 1) j)).trans (W3_v4_apply m ρ c j)
theorem row_as1 : Cert.Spec.row (V5 m ρ c (Pipeline.arrRef spec1 10) : Vec Ideal S1x128 .f32)
    = fun j : Fin 128 => Cert.Spec.row (aAtt m c) ⟨j.val, by omega⟩ :=
  funext fun j => (congrFun (W5_v5 m ρ c) (ix2 (0 : Fin 1) j)).trans (W3_v5_apply m ρ c j)
theorem row_ad1 : Cert.Spec.row (V5 m ρ c (Pipeline.arrRef spec1 11) : Vec Ideal S1x128 .f32)
    = fun j : Fin 128 => Cert.Spec.row (aAtt m c) ⟨128 + j.val, by omega⟩ :=
  funext fun j => (congrFun (W5_v6 m ρ c) (ix2 (0 : Fin 1) j)).trans (W3_v6_apply m ρ c j)

include hs in
/-- The source mean and inverse standard deviation the output region is handed. -/
theorem row_ms1 : Cert.Spec.row (V5 m ρ c (Pipeline.arrRef spec1 6) : Vec Ideal S1x128 .f32)
    = Cert.Spec.mean (Cert.Spec.lin (Xs m c) (Wm m c) (bv m c)) := by
  funext j
  refine (stats_v9 (W4 m ρ c) j).trans ?_
  rw [sum_s_apply m ρ c hs]; rfl
include hs in
theorem row_is1 : Cert.Spec.row (V5 m ρ c (Pipeline.arrRef spec1 7) : Vec Ideal S1x128 .f32)
    = fun j => Ideal.rsqrt (Cert.Spec.varK (Cert.Spec.lin (Xs m c) (Wm m c) (bv m c)) j + Cert.Spec.eps) := by
  funext j
  refine (stats_v16 (W4 m ρ c) j).trans ?_
  rw [sum_s_apply m ρ c hs, sumsq_s_apply m ρ c hs]; rfl
include hd in
/-- The destination mean and inverse standard deviation. -/
theorem row_md1 : Cert.Spec.row (V5 m ρ c (Pipeline.arrRef spec1 8) : Vec Ideal S1x128 .f32)
    = Cert.Spec.mean (Cert.Spec.lin (Xd m c) (Wm m c) (bv m c)) := by
  funext j
  refine (stats_v18 (W4 m ρ c) j).trans ?_
  rw [sum_d_apply m ρ c hd]; rfl
include hd in
theorem row_id1 : Cert.Spec.row (V5 m ρ c (Pipeline.arrRef spec1 9) : Vec Ideal S1x128 .f32)
    = fun j => Ideal.rsqrt (Cert.Spec.varK (Cert.Spec.lin (Xd m c) (Wm m c) (bv m c)) j + Cert.Spec.eps) := by
  funext j
  refine (stats_v25 (W4 m ρ c) j).trans ?_
  rw [sum_d_apply m ρ c hd, sumsq_d_apply m ρ c hd]; rfl

/-! ## The result -/

include hs hd in
/-- THE KERNEL'S RESULT: with both index vectors in range, @main's result array is the specification of the launch
    arrays. -/
theorem result :
    (W6 m ρ c (Proc.devRef .tc main_v26) : FVec Ideal S500000x1 .f32)
      = Cert.Spec.outArr (Cert.Spec.GK (Xs m c) (Xd m c) (Wm m c) (bv m c) (Cert.Spec.vec (aG m c))
          (Cert.Spec.vec (aBeta m c)) (Cert.Spec.row (aAtt m c))) := by
  have h : (W6 m ρ c (Proc.devRef .tc main_v26) : FVec Ideal S500000x1 .f32) = _ :=
    (W6_arr m ρ c 12).trans (out (V5 m ρ) c)
  refine h.trans (congrArg Cert.Spec.outArr ?_)
  refine Eq.trans ?_ (outK1_eq_GK (Xs m c) (Xd m c) (Wm m c) (bv m c) (Cert.Spec.vec (aG m c)) (Cert.Spec.vec (aBeta m c))
    (Cert.Spec.row (aAtt m c)))
  exact outK1_congr (mat_xs1 m ρ c hs) (mat_xd1 m ρ c hd) (mat_w1 m ρ c) (row_b1 m ρ c) (row_g1 m ρ c)
    (row_beta1 m ρ c) (row_ms1 m ρ c hs) (row_is1 m ρ c hs) (row_md1 m ρ c hd) (row_id1 m ρ c hd) (row_as1 m ρ c)
    (row_ad1 m ρ c)

end Ranges

end Cert.KernelIdeal.Whole

end
-- ==== Proof.RefValue.lean ====
/-
  The reference program's result as a function of its arguments, index by index.

  For each of the 500000 edges the program takes the row of the node table that the edge's source index word selects
  (wrapped as a negative index is, then clamped into the table) and, separately, the row its destination index word
  selects. Each table of gathered rows `X` goes through the same chain:
      h e j   = (∑ k, X e k · W j k) + b j                       the affine map; the weight enters transposed
      mean j  = (0 + ∑ e, h e j) / 500000                         the sum starts from the zero word, and 0 + s = s
      var j   = (0 + ∑ e, (h e j − mean j)²) / 500000
      n e j   = g j · (h e j − mean j) · rsqrt (var j + ε) + β j
  A vector of 128 features enters a `[500000, 128]` operation as a `[1, 128]` row repeated for every edge, so at
  `(e, j)` it is the vector at `j`. The two normalised tables are joined along the feature axis into rows of 256,
  each row is paired with the attention vector (a `[256, 1]` column, the transpose of the `[1, 256]` argument), and
  the logit `l e` goes through `1 / (1 + exp (−l e)) · ½ + ½`.

  Each lemma reads one stage at an index built from its coordinates. The destination chain is the source chain at the
  other index vector, so one set of lemmas, stated for an arbitrary index vector, reads both.
-/
import proofs.«429111_j24678882083441_1_alg».proof.Proof.Gen.ReferenceIdeal.Run
import proofs.«429111_j24678882083441_1_alg».proof.Proof.Gen.ReferenceIdeal.Read
import proofs.«429111_j24678882083441_1_alg».proof.Proof.Spec
import proofs.«429111_j24678882083441_1_alg».proof.Proof.Index

noncomputable section

namespace Cert.ReferenceIdeal.RefValue

open Cert.ReferenceIdeal Idealize.ShloMosaic Idealize.ShloMosaic.TcCoe Idealize.SL.Sem
open Cert.ReferenceIdeal.Gen Cert.ReferenceIdeal.Read Idealize.ShloMosaic.ValueIdx

/-- Two `[500000, 128]` tables joined along the feature axis, read at `(e, k)`: the first table at `(e, k)` for
    `k < 128`, the second at `(e, k - 128)` otherwise. -/
theorem joined_apply (a b : (⟨2, ![500000, 128]⟩ : Shape).Idx → EReal)
    (h : Shape.Concatenates [(⟨2, ![500000, 128]⟩ : Shape), ⟨2, ![500000, 128]⟩] ⟨2, ![500000, 256]⟩ 1)
    (e : Fin 500000) (k : Fin 256) :
    concatenate ⟨2, ![500000, 256]⟩ 1 [⟨⟨2, ![500000, 128]⟩, a⟩, ⟨⟨2, ![500000, 128]⟩, b⟩] h (ix2 e k)
      = Cert.Spec.cat (fun e j => a (ix2 e j)) (fun e j => b (ix2 e j)) e k := by
  unfold Cert.Spec.cat
  by_cases hk : k.val < 128
  · rw [dif_pos hk]
    exact concatenate_pair_apply_left (1 : Fin 2) a b h (ix2 e k) rfl (ix2 e ⟨k.val, hk⟩)
      (fun c => match c with | ⟨0, _⟩ => rfl | ⟨1, _⟩ => rfl)
  · rw [dif_neg hk]
    exact concatenate_pair_apply_right (1 : Fin 2) a b h (ix2 e k) rfl rfl (ix2 e ⟨k.val - 128, by omega⟩)
      (fun c => match c with | ⟨0, _⟩ => fun _ => rfl | ⟨1, _⟩ => fun hc => absurd rfl hc)
      (show k.val - 128 + 128 = k.val by omega)

section Stages

variable (x0 : (⟨S100000x128, .f32⟩ : BufTy).Contents (Elt Ideal)) (x1 : (⟨S128x128, .f32⟩ : BufTy).Contents (Elt Ideal))
  (x2 x3 x4 : (⟨S128, .f32⟩ : BufTy).Contents (Elt Ideal)) (x5 : (⟨S1x256, .f32⟩ : BufTy).Contents (Elt Ideal))
  (s x6 x7 : (⟨S500000, .i32⟩ : BufTy).Contents (Elt Ideal))

/-- The gathered table at `(e, k)`: the node-table row the wrapped, clamped index word of edge `e` selects. -/
theorem rows_apply (e : Fin 500000) (k : Fin 128) :
    val_main_v6 (F := Ideal) x0 s (ix2 e k) = Cert.Spec.gatherRows x0 s e k :=
  Cert.Index.gathered_apply gather_S100000x128_S500000x1_S500000x128_1_0_n_n_0_1_1128_wf x0 s bcast_S_S500000
    bcast_S500000_S500000x1_0 e k

/-- The transposed weight at `(k, j)` is the weight at `(j, k)`. -/
theorem weightT_apply (k j : Fin 128) : val_main_v7 (F := Ideal) x1 (ix2 k j) = Cert.Spec.mat x1 j k := by
  have h : idx_main_v7 (ix2 k j) = ix2 j k :=
    funext fun a => Fin.ext (by match a with | ⟨0, _⟩ => rfl | ⟨1, _⟩ => rfl)
  rw [val_main_v7_apply, h]
  rfl

/-- A feature vector laid out as a `[1, 128]` row and repeated for every edge, read at `(e, j)`: the vector at `j`. -/
theorem rowOfVec_apply (y : (⟨S128, .f32⟩ : BufTy).Contents (Elt Ideal)) (e : Fin 500000) (j : Fin 128) :
    val_main_v10 (F := Ideal) y (ix2 e j) = y (ix1 j) := by
  have h : idx_main_v9 (idx_main_v10 (ix2 e j)) = ix1 j :=
    funext fun a => Fin.ext (by match a with | ⟨0, _⟩ => rfl)
  rw [val_main_v10_apply, val_main_v9_apply, h]

/-- The affine map at `(e, j)`: the gathered row of edge `e` against row `j` of the weight, plus the bias at `j`. -/
theorem lin_apply (e : Fin 500000) (j : Fin 128) :
    val_main_v11 (F := Ideal) x0 x1 x2 s (ix2 e j)
      = Cert.Spec.lin (Cert.Spec.gatherRows x0 s) (Cert.Spec.mat x1) (Cert.Spec.vec x2) e j := by
  rw [val_main_v11_apply, val_main_v8_apply, rowOfVec_apply]
  unfold Cert.Spec.lin
  refine congrArg (· + x2 (ix1 j)) (Finset.sum_congr rfl fun k _ => ?_)
  have hl : lidx_main_v8 (ix2 e j) k = ix2 e k :=
    funext fun a => Fin.ext (by match a with | ⟨0, _⟩ => rfl | ⟨1, _⟩ => rfl)
  have hr : ridx_main_v8 (ix2 e j) k = ix2 k j :=
    funext fun a => Fin.ext (by match a with | ⟨0, _⟩ => rfl | ⟨1, _⟩ => rfl)
  rw [hl, hr, rows_apply, weightT_apply]

/-- The column mean at `j`: the sum of the affine map's column over all edges (from the zero word), over the
    edge count. -/
theorem mean_apply (j : Fin 128) :
    val_main_v14 (F := Ideal) x0 x1 x2 s (ix1 j)
      = Cert.Spec.mean (Cert.Spec.lin (Cert.Spec.gatherRows x0 s) (Cert.Spec.mat x1) (Cert.Spec.vec x2)) j := by
  have hz : (val_main_cst (F := Ideal)) (Shape.Idx.first h_S_) = 0 := Ideal.ofBits_zero_f32
  have hn : val_main_v13 (F := Ideal) (ix1 j) = Cert.Spec.nE := (val_main_v13_apply _).trans (val_main_cst_1_apply _)
  rw [val_main_v14_apply, val_main_v12_apply, hz, hn, zero_add]
  unfold Cert.Spec.mean Cert.Spec.colSum
  refine congrArg (fun t => Ideal.div t Cert.Spec.nE) (Finset.sum_congr rfl fun k _ => ?_)
  have hi : idx_main_v12 (ix1 j) k = ix2 k j :=
    funext fun a => Fin.ext (by match a with | ⟨0, _⟩ => rfl | ⟨1, _⟩ => rfl)
  rw [hi, lin_apply]

/-- The deviation from the column mean at `(e, j)`. -/
theorem dev_apply (e : Fin 500000) (j : Fin 128) :
    val_main_v17 (F := Ideal) x0 x1 x2 s (ix2 e j)
      = Cert.Spec.lin (Cert.Spec.gatherRows x0 s) (Cert.Spec.mat x1) (Cert.Spec.vec x2) e j
        - Cert.Spec.mean (Cert.Spec.lin (Cert.Spec.gatherRows x0 s) (Cert.Spec.mat x1) (Cert.Spec.vec x2)) j := by
  have hm : val_main_v16 (F := Ideal) x0 x1 x2 s (ix2 e j) = val_main_v14 (F := Ideal) x0 x1 x2 s (ix1 j) :=
    rowOfVec_apply (val_main_v14 (F := Ideal) x0 x1 x2 s) e j
  rw [val_main_v17_apply, hm, mean_apply, lin_apply]
  rfl

/-- The variance at `j`: the sum of the squared deviations over all edges (from the zero word), over the edge count. -/
theorem var_apply (j : Fin 128) :
    val_main_v21 (F := Ideal) x0 x1 x2 s (ix1 j)
      = Cert.Spec.varR (Cert.Spec.lin (Cert.Spec.gatherRows x0 s) (Cert.Spec.mat x1) (Cert.Spec.vec x2)) j := by
  have hz : (val_main_cst_2 (F := Ideal)) (Shape.Idx.first h_S_) = 0 := Ideal.ofBits_zero_f32
  have hn : val_main_v20 (F := Ideal) (ix1 j) = Cert.Spec.nE := (val_main_v20_apply _).trans (val_main_cst_3_apply _)
  rw [val_main_v21_apply, val_main_v19_apply, hz, hn, zero_add]
  unfold Cert.Spec.varR
  refine congrArg (fun t => Ideal.div t Cert.Spec.nE) (Finset.sum_congr rfl fun k _ => ?_)
  have hi : idx_main_v19 (ix1 j) k = ix2 k j :=
    funext fun a => Fin.ext (by match a with | ⟨0, _⟩ => rfl | ⟨1, _⟩ => rfl)
  rw [hi, val_main_v18_apply, dev_apply]
  rfl

/-- The inverse standard deviation at `j`. -/
theorem istd_apply (j : Fin 128) :
    val_main_v30 (F := Ideal) x0 x1 x2 s (ix1 j)
      = Ideal.rsqrt (Cert.Spec.varR (Cert.Spec.lin (Cert.Spec.gatherRows x0 s) (Cert.Spec.mat x1) (Cert.Spec.vec x2)) j
          + Cert.Spec.eps) := by
  have he : val_main_v28 (F := Ideal) (ix1 j) = Cert.Spec.eps := (val_main_v28_apply _).trans (val_main_cst_4_apply _)
  rw [val_main_v30_apply, val_main_v29_apply, var_apply, he]
  rfl

/-- The normalised table at `(e, j)`. -/
theorem bn_apply (e : Fin 500000) (j : Fin 128) :
    val_main_v36 (F := Ideal) x0 x1 x2 x3 x4 s (ix2 e j)
      = Cert.Spec.bn Cert.Spec.varR (Cert.Spec.vec x3) (Cert.Spec.vec x4)
          (Cert.Spec.lin (Cert.Spec.gatherRows x0 s) (Cert.Spec.mat x1) (Cert.Spec.vec x2)) e j := by
  have hg : val_main_v26 (F := Ideal) x3 (ix2 e j) = x3 (ix1 j) := rowOfVec_apply x3 e j
  have hb : val_main_v35 (F := Ideal) x4 (ix2 e j) = x4 (ix1 j) := rowOfVec_apply x4 e j
  have hm : val_main_v23 (F := Ideal) x0 x1 x2 s (ix2 e j) = val_main_v14 (F := Ideal) x0 x1 x2 s (ix1 j) :=
    rowOfVec_apply (val_main_v14 (F := Ideal) x0 x1 x2 s) e j
  have hi : val_main_v32 (F := Ideal) x0 x1 x2 s (ix2 e j) = val_main_v30 (F := Ideal) x0 x1 x2 s (ix1 j) :=
    rowOfVec_apply (val_main_v30 (F := Ideal) x0 x1 x2 s) e j
  rw [val_main_v36_apply, val_main_v33_apply, val_main_v27_apply, val_main_v24_apply, hg, hb, hm, hi, mean_apply,
    istd_apply, lin_apply]
  rfl

/-- The destination chain applies to its index vector exactly the operations the source chain applies to its own, so
    as functions of the index vector the two normalised tables are one. -/
theorem bnD_eq : val_main_v73 (F := Ideal) x0 x1 x2 x3 x4 s = val_main_v36 (F := Ideal) x0 x1 x2 x3 x4 s := rfl

/-- The two normalised tables side by side, at `(e, k)`. -/
theorem cat_apply (e : Fin 500000) (k : Fin 256) :
    val_main_v74 (F := Ideal) x0 x1 x2 x3 x4 x6 x7 (ix2 e k)
      = Cert.Spec.cat
          (Cert.Spec.bn Cert.Spec.varR (Cert.Spec.vec x3) (Cert.Spec.vec x4)
            (Cert.Spec.lin (Cert.Spec.gatherRows x0 x6) (Cert.Spec.mat x1) (Cert.Spec.vec x2)))
          (Cert.Spec.bn Cert.Spec.varR (Cert.Spec.vec x3) (Cert.Spec.vec x4)
            (Cert.Spec.lin (Cert.Spec.gatherRows x0 x7) (Cert.Spec.mat x1) (Cert.Spec.vec x2))) e k := by
  unfold val_main_v74
  rw [joined_apply]
  exact congrArg₂ (fun a b => Cert.Spec.cat a b e k)
    (funext fun e' => funext fun j => bn_apply x0 x1 x2 x3 x4 x6 e' j)
    (funext fun e' => funext fun j => (congrFun (bnD_eq x0 x1 x2 x3 x4 x7) (ix2 e' j)).trans (bn_apply x0 x1 x2 x3 x4 x7 e' j))

/-- The logit of edge `e`: the joined row against the attention vector. -/
theorem logit_apply (e : Fin 500000) (q : Fin 1) :
    val_main_v76 (F := Ideal) x0 x1 x2 x3 x4 x5 x6 x7 (ix2 e q)
      = Cert.Spec.logitR (Cert.Spec.row x5)
          (Cert.Spec.bn Cert.Spec.varR (Cert.Spec.vec x3) (Cert.Spec.vec x4)
            (Cert.Spec.lin (Cert.Spec.gatherRows x0 x6) (Cert.Spec.mat x1) (Cert.Spec.vec x2)))
          (Cert.Spec.bn Cert.Spec.varR (Cert.Spec.vec x3) (Cert.Spec.vec x4)
            (Cert.Spec.lin (Cert.Spec.gatherRows x0 x7) (Cert.Spec.mat x1) (Cert.Spec.vec x2))) e := by
  rw [val_main_v76_apply]
  unfold Cert.Spec.logitR
  refine Finset.sum_congr rfl fun k _ => ?_
  have hl : lidx_main_v76 (ix2 e q) k = ix2 e k :=
    funext fun a => Fin.ext (by match a with | ⟨0, _⟩ => rfl | ⟨1, _⟩ => rfl)
  have hr : idx_main_v75 (ridx_main_v76 (ix2 e q) k) = ix2 (0 : Fin 1) k :=
    funext fun a => Fin.ext (by
      match a with
      | ⟨0, _⟩ => show q.val = 0; omega
      | ⟨1, _⟩ => rfl)
  rw [hl, val_main_v75_apply, hr, cat_apply]
  rfl

/-- The result at edge `e`: the spelled-out sigmoid of the logit, halved, plus one half. -/
theorem out_apply (e : Fin 500000) (q : Fin 1) :
    val_main_v86 (F := Ideal) x0 x1 x2 x3 x4 x5 x6 x7 (ix2 e q)
      = Cert.Spec.GR (Cert.Spec.gatherRows x0 x6) (Cert.Spec.gatherRows x0 x7) (Cert.Spec.mat x1) (Cert.Spec.vec x2)
          (Cert.Spec.vec x3) (Cert.Spec.vec x4) (Cert.Spec.row x5) e := by
  have h79 : val_main_v79 (F := Ideal) (ix2 e q) = Cert.Spec.one := (val_main_v79_apply _).trans (val_main_cst_12_apply _)
  have h81 : val_main_v81 (F := Ideal) (ix2 e q) = Cert.Spec.one := (val_main_v81_apply _).trans (val_main_cst_13_apply _)
  have h83 : val_main_v83 (F := Ideal) (ix2 e q) = Cert.Spec.half := (val_main_v83_apply _).trans (val_main_cst_14_apply _)
  have h85 : val_main_v85 (F := Ideal) (ix2 e q) = Cert.Spec.half := (val_main_v85_apply _).trans (val_main_cst_15_apply _)
  rw [val_main_v86_apply, val_main_v84_apply, val_main_v82_apply, val_main_v80_apply, val_main_v78_apply,
    val_main_v77_apply, logit_apply, h79, h81, h83, h85]
  rfl

end Stages

theorem res_eq (m : (ℓ : Loc nD τ sig) → Buf (Elt Ideal) ℓ) (c : Dev nD) :
    Cert.ReferenceIdeal.Value.res_out0 (F := Ideal) m c
      = Cert.Spec.outArr (Cert.Spec.GR
          (Cert.Spec.gatherRows (m ((c.tc : Thread nD τ).loc main_arg0)) (m ((c.tc : Thread nD τ).loc main_arg6)))
          (Cert.Spec.gatherRows (m ((c.tc : Thread nD τ).loc main_arg0)) (m ((c.tc : Thread nD τ).loc main_arg7)))
          (Cert.Spec.mat (m ((c.tc : Thread nD τ).loc main_arg1))) (Cert.Spec.vec (m ((c.tc : Thread nD τ).loc main_arg2)))
          (Cert.Spec.vec (m ((c.tc : Thread nD τ).loc main_arg3))) (Cert.Spec.vec (m ((c.tc : Thread nD τ).loc main_arg4)))
          (Cert.Spec.row (m ((c.tc : Thread nD τ).loc main_arg5)))) := by
  funext i
  obtain ⟨e, q, rfl⟩ : ∃ (e : Fin 500000) (q : Fin 1), i = ix2 e q := ⟨i 0, i 1, eq_ix2 i⟩
  show Cert.ReferenceIdeal.Value.res_main_v86 m c (ix2 e q) = _
  rw [val_main_v86_eq]
  exact out_apply _ _ _ _ _ _ _ _ e q

end Cert.ReferenceIdeal.RefValue

end
-- ==== Proof.SpecLaw.lean ====
/-
  The algebra that joins the two programs' results, over the extended reals and with no program in sight.

  Three facts are needed.  (1) The affine map of real inputs takes real values, so the columns that batch
  normalisation sees are columns of reals.  (2) On a column of reals the two spellings of the variance agree:
  with N = 500000 terms and μ = (∑ f)/N one has (∑ (f − μ)²)/N = (∑ f²)/N − μ²; this is an identity of the real
  field, transported to the extended reals through the coercion, which commutes with finite sums, products
  and differences.  (3) A sum of 256 products over a concatenated row is the sum over its first 128 places
  plus the sum over its last 128; this holds for all extended reals.  The logistic function is by definition
  1 / (1 + exp (−l)), and the constant the reference spells for its numerator denotes 1.
-/
import proofs.«429111_j24678882083441_1_alg».proof.Proof.Spec
import Mathlib.Algebra.BigOperators.Fin
import Mathlib.Tactic.Ring
import Mathlib.Tactic.NormNum

noncomputable section

namespace Cert.Spec

open Idealize.ShloMosaic

/-! ## The constants as extended reals -/

/-- The f32 pattern 0x48F42400 has exponent field 145 and fraction field 7611392, so it denotes
    (2^23 + 7611392) · 2^(145 − 127 − 23) = 16000000 / 32 = 500000. -/
theorem nE_eq : nE = ((500000 : ℝ) : EReal) := by
  simp [nE, Ideal.ofBits, Ideal.ieee, -EReal.coe_mul]; norm_num

/-- The f32 pattern 0x3F800000 has exponent field 127 and fraction field 0, so it denotes 2^23 · 2^(−23) = 1. -/
theorem one_eq : one = 1 := by
  simp [one, Ideal.ofBits, Ideal.ieee, -EReal.coe_mul]; norm_num

/-! ## Finite sums of reals inside the extended reals -/

/-- The coercion of the reals into the extended reals commutes with finite sums: by induction on the
    index set, from additivity of the coercion. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division by the edge count is multiplication by the real 1/500000. -/
theorem div_nE (x : EReal) : Ideal.div x nE = x * (((1 : ℝ) / 500000 : ℝ) : EReal) := by
  rw [nE_eq]; exact Ideal.div_coe (by norm_num) x

/-! ## The affine map of real data is real -/

/-- A finite sum of products of reals plus a real is a real. -/
theorem lin_real (X : Fin 500000 → Fin 128 → EReal) (W : Fin 128 → Fin 128 → EReal) (b : Fin 128 → EReal)
    (hX : ∀ e k, ∃ r : ℝ, X e k = (r : EReal)) (hW : ∀ j k, ∃ r : ℝ, W j k = (r : EReal))
    (hb : ∀ j, ∃ r : ℝ, b j = (r : EReal)) (e : Fin 500000) (j : Fin 128) :
    ∃ r : ℝ, lin X W b e j = (r : EReal) := by
  choose x hx using hX
  choose w hw using hW
  choose c hc using hb
  refine ⟨(∑ k : Fin 128, x e k * w j k) + c j, ?_⟩
  unfold lin
  rw [EReal.coe_add, coe_sum, hc]
  refine congrArg (· + (c j : EReal)) (Finset.sum_congr rfl fun k _ => ?_)
  rw [hx, hw, EReal.coe_mul]

/-! ## The one law: the two spellings of the variance agree on real columns -/

/-- In the reals, with μ = (∑ f)/N and N = 500000 the number of terms:
    (∑ (f − μ)²)/N = (∑ f²)/N − μ².  Expanding the square, the cross term sums to −2μ·(∑ f) = −2Nμ²
    and the constant term to Nμ². -/
theorem real_var (f : Fin 500000 → ℝ) :
    (∑ e, (f e - (∑ e, f e) * (1 / 500000)) * (f e - (∑ e, f e) * (1 / 500000))) * (1 / 500000)
      = (∑ e, f e * f e) * (1 / 500000)
        - ((∑ e, f e) * (1 / 500000)) * ((∑ e, f e) * (1 / 500000)) := by
  generalize hS : (∑ e, f e) = S
  have h1 : ∀ e, (f e - S * (1 / 500000)) * (f e - S * (1 / 500000))
      = f e * f e - (2 * (S * (1 / 500000))) * f e + (S * (1 / 500000)) * (S * (1 / 500000)) := by
    intro e; ring
  simp only [h1]
  rw [Finset.sum_add_distrib, Finset.sum_sub_distrib, ← Finset.mul_sum, hS, Finset.sum_const,
    Finset.card_univ, Fintype.card_fin, nsmul_eq_mul]
  push_cast
  ring

/-- On a column of reals the mean squared deviation is the mean of squares minus the squared mean. -/
theorem var_eq (h : Fin 500000 → Fin 128 → EReal) (hh : ∀ e j, ∃ r : ℝ, h e j = (r : EReal)) (j : Fin 128) :
    varR h j = varK h j := by
  choose r hr using hh
  obtain rfl : h = fun e j => (r e j : EReal) := funext fun e => funext fun j => hr e j
  clear hr
  have hmean : mean (fun e j => (r e j : EReal)) j = (((∑ e, r e j) * (1 / 500000) : ℝ) : EReal) := by
    unfold mean colSum
    beta_reduce
    rw [div_nE, EReal.coe_mul, coe_sum]
  unfold varR varK colSumSq
  rw [hmean, div_nE, div_nE]
  beta_reduce
  have hsq : (∑ e, (r e j : EReal) * (r e j : EReal)) = (((∑ e, r e j * r e j : ℝ)) : EReal) := by
    rw [coe_sum]
    exact Finset.sum_congr rfl fun e _ => (EReal.coe_mul _ _).symm
  have hdev : (∑ e, ((r e j : EReal) - (((∑ e, r e j) * (1 / 500000) : ℝ) : EReal))
        * ((r e j : EReal) - (((∑ e, r e j) * (1 / 500000) : ℝ) : EReal)))
      = (((∑ e, (r e j - (∑ e, r e j) * (1 / 500000)) * (r e j - (∑ e, r e j) * (1 / 500000)) : ℝ)) : EReal) := by
    rw [coe_sum]
    refine Finset.sum_congr rfl fun e _ => ?_
    rw [← EReal.coe_sub, EReal.coe_mul]
  rw [hsq, hdev, ← EReal.coe_mul, ← EReal.coe_mul, ← EReal.coe_mul, ← EReal.coe_sub, real_var]

/-- Batch normalisation with either variance is the same function on real data. -/
theorem bn_eq (g β : Fin 128 → EReal) (h : Fin 500000 → Fin 128 → EReal)
    (hh : ∀ e j, ∃ r : ℝ, h e j = (r : EReal)) : bn varR g β h = bn varK g β h := by
  unfold bn
  have hv : (fun j => Ideal.rsqrt (varR h j + eps)) = fun j => Ideal.rsqrt (varK h j + eps) :=
    funext fun j => by rw [var_eq h hh j]
  rw [hv]

/-! ## The logit: one sum of 256 products is two sums of 128 -/

/-- Below 128 the concatenated row reads the source row. -/
theorem cat_left (hs hd : Fin 500000 → Fin 128 → EReal) (e : Fin 500000) (i : Fin 128) :
    cat hs hd e (Fin.castAdd 128 i) = hs e i := by
  unfold cat
  rw [dif_pos (by simp : (Fin.castAdd 128 i).val < 128)]
  rfl

/-- From 128 on the concatenated row reads the destination row, shifted back by 128. -/
theorem cat_right (hs hd : Fin 500000 → Fin 128 → EReal) (e : Fin 500000) (i : Fin 128) :
    cat hs hd e (Fin.natAdd 128 i) = hd e i := by
  unfold cat
  rw [dif_neg (by simp : ¬ (Fin.natAdd 128 i).val < 128)]
  refine congrArg (hd e) (Fin.ext ?_)
  simp

/-- Splitting the index range [0, 256) into [0, 128) and [128, 256) splits the sum; addition and
    multiplication of extended reals need no finiteness for this. -/
theorem logit_eq (aw : Fin 256 → EReal) (hs hd : Fin 500000 → Fin 128 → EReal) (e : Fin 500000) :
    logitR aw hs hd e = logitK aw hs hd e := by
  unfold logitR logitK
  rw [Fin.sum_univ_add (a := 128) (b := 128) (fun k : Fin 256 => cat hs hd e k * aw k)]
  refine congrArg₂ (· + ·) (Finset.sum_congr rfl fun i _ => ?_) (Finset.sum_congr rfl fun i _ => ?_)
  · rw [cat_left]; rfl
  · rw [cat_right]; rfl

/-! ## The two results agree -/

theorem GK_eq_GR (Xs Xd : Fin 500000 → Fin 128 → EReal) (W : Fin 128 → Fin 128 → EReal) (b g β : Fin 128 → EReal) (aw : Fin 256 → EReal)
    (hXs : ∀ e k, ∃ r : ℝ, Xs e k = (r : EReal)) (hXd : ∀ e k, ∃ r : ℝ, Xd e k = (r : EReal))
    (hW : ∀ j k, ∃ r : ℝ, W j k = (r : EReal)) (hb : ∀ j, ∃ r : ℝ, b j = (r : EReal)) :
    GK Xs Xd W b g β aw = GR Xs Xd W b g β aw := by
  funext e
  unfold GK GR
  rw [bn_eq g β (lin Xs W b) (lin_real Xs W b hXs hW hb), bn_eq g β (lin Xd W b) (lin_real Xd W b hXd hW hb),
    logit_eq, one_eq]
  rfl

end Cert.Spec

end
-- ==== Proof.PreFacts.lean ====
/-
  What the precondition says of the inputs.

  The precondition is a conjunction of eight `jnp.all`s: for each float input, "every |x| is below +∞"; for each of the
  two index inputs, "every word s has -100000 ≤ s < 100000" read signed.  A reduction by `and` that comes out true had
  a true at every element, so each conjunct gives its elementwise fact: on the extended reals |x| = max x (-x) is below
  ⊤ exactly when x is neither ⊤ nor ⊥, that is a real; and a signed compare that is true orders the signed values.
-/
import Idealize.ShloMosaic.Lib.ReduceAll
import Idealize.ShloMosaic.Lib.ValueIdx
import Idealize.ShloMosaic.PureOps.Ideal.Laws
import proofs.«429111_j24678882083441_1_alg».proof.Pre_finite_inputs
import proofs.«429111_j24678882083441_1_alg».proof.Proof.Gen.Pre_finite_inputs

noncomputable section

namespace Cert.PreFacts

open Cert.Pre_finite_inputs Idealize.ShloMosaic

/-- The scalar shape has one index. -/
instance : Subsingleton S_.Idx := ⟨fun a b => funext fun d => d.elim0⟩

/-- The f32 pattern 0x7F800000 (exponent all ones, fraction zero, sign clear) denotes +∞. -/
theorem ofBits_inf : Ideal.ofBits .f32 0x7F800000#32 = (⊤ : EReal) := by
  simp [Ideal.ofBits, Ideal.ieee]

/-- An extended real whose absolute value `max x (-x)` is below ⊤ is a real: at ⊤ the maximum is ⊤, at ⊥ its
    negation is ⊤. -/
theorem real_of_abs_lt_top (x : EReal) (h : max x (-x) < ⊤) : ∃ r : ℝ, x = (r : EReal) := by
  induction x using EReal.rec with
  | bot => simp at h
  | top => simp at h
  | coe r => exact ⟨r, rfl⟩

/-- A `jnp.all` of "|x| < +∞" that is true: every entry of `x` is a real. -/
theorem real_of_all {s : Shape} {axes : List (Fin s.rank)} (x : FVec Ideal s .f32)
    (hb : S_.BroadcastsInDim s (![] : Fin 0 → Fin s.rank)) (hred : s.ReducesTo axes S_) (hpos : 0 < S_.numel)
    (h : Host.reduce IntOp.andi (cmpf .olt (Host.absf x) (broadcastInDim s ![] hb (constant S_ .f32 0x7F800000#32)))
        (constantI S_ 1 1#1) hred hpos ValueIdx.ix0 = 1#1) (i : s.Idx) : ∃ r : ℝ, x i = (r : EReal) := by
  have e := Host.reduce_andi_all _ _ hred hpos _ h i
  change Ideal.cmp .olt (max (x i) (-(x i))) (Ideal.ofBits .f32 0x7F800000#32) = 1#1 at e
  rw [ofBits_inf] at e
  apply real_of_abs_lt_top
  by_contra hn
  simp only [Ideal.cmp, hn, decide_false] at e
  exact absurd e (by decide)

/-- A `jnp.all` of "(s ≥ -100000) and (s < 100000)", compared signed, that is true: every word of `a` has its signed
    value in that range.  The word 4294867296 is -100000 read signed. -/
theorem range_of_all {axes : List (Fin S500000.rank)} (a : IVec S500000 32)
    (hb : S_.BroadcastsInDim S500000 (![] : Fin 0 → Fin S500000.rank)) (hred : S500000.ReducesTo axes S_) (hpos : 0 < S_.numel)
    (h : Host.reduce IntOp.andi
        (andi (cmpi .sge a (broadcastInDim S500000 ![] hb (constantI S_ 32 4294867296#32)))
          (cmpi .slt a (broadcastInDim S500000 ![] hb (constantI S_ 32 100000#32))))
        (constantI S_ 1 1#1) hred hpos ValueIdx.ix0 = 1#1) (i : S500000.Idx) :
    (-100000 : Int) ≤ (a i).toInt ∧ (a i).toInt < 100000 := by
  have e := Host.reduce_andi_all _ _ hred hpos _ h i
  change IntOp.andi (IntOp.cmpi .sge (a i) 4294867296#32) (IntOp.cmpi .slt (a i) 100000#32) = 1#1 at e
  obtain ⟨e1, e2⟩ := IntOp.andi_eq_one.1 e
  have h1 := IntOp.cmpi_sge.1 e1
  have h2 := IntOp.cmpi_slt.1 e2
  have c1 : (4294867296#32 : BitVec 32).toInt = -100000 := by decide
  have c2 : (100000#32 : BitVec 32).toInt = 100000 := by decide
  rw [c1] at h1
  rw [c2] at h2
  exact ⟨h1, h2⟩

/-- THE PRECONDITION, DECODED: the six float inputs are real at every entry, and every word of the two index inputs,
    read signed, lies in [-100000, 100000). -/
theorem of_pre [Cert.Pre_finite_inputs.Facts] (a0 : FVec Ideal S100000x128 .f32) (a1 : FVec Ideal S128x128 .f32)
    (a2 a3 a4 : FVec Ideal S128 .f32) (a5 : FVec Ideal S1x256 .f32) (a6 a7 : IVec S500000 32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, (-100000 : Int) ≤ (a6 i).toInt ∧ (a6 i).toInt < 100000)
      ∧ (∀ i, (-100000 : Int) ≤ (a7 i).toInt ∧ (a7 i).toInt < 100000) := by
  have h0 := congrFun h ValueIdx.ix0
  dsimp only [fn, fn_part1, fn_part2] at h0
  -- the eight conjuncts, the last joined outermost
  obtain ⟨h0, c7⟩ := IntOp.andi_eq_one.1 h0
  obtain ⟨h0, c6⟩ := IntOp.andi_eq_one.1 h0
  obtain ⟨h0, c5⟩ := IntOp.andi_eq_one.1 h0
  obtain ⟨h0, c4⟩ := IntOp.andi_eq_one.1 h0
  obtain ⟨h0, c3⟩ := IntOp.andi_eq_one.1 h0
  obtain ⟨h0, c2⟩ := IntOp.andi_eq_one.1 h0
  obtain ⟨c0, c1⟩ := IntOp.andi_eq_one.1 h0
  exact ⟨real_of_all a0 _ _ _ c0, real_of_all a1 _ _ _ c1, real_of_all a2 _ _ _ c2, real_of_all a3 _ _ _ c3,
    real_of_all a4 _ _ _ c4, real_of_all a5 _ _ _ c5, range_of_all a6 _ _ _ c6, range_of_all a7 _ _ _ c7⟩

end Cert.PreFacts

end
-- ==== Proof.lean ====
/-
  The certificate: a two-pass batch-normalised edge attention (gather rows of a node table by source and by
  destination index, an affine map, batch normalisation over the 500000 edges, a 256-wide attention dot, a
  sigmoid scaled into [½, 1]) computed by two tiled kernels around host arithmetic, against the direct jnp program.

  Over the extended reals both programs compute one function of the arguments (Proof/Spec.lean). The kernel's side
  is read off its frame run: the takes under the precondition's index range (Proof/TakeRows.lean, Proof/Mask.lean),
  the statistics region's four column sums (Proof/Region0.lean), the arithmetic between the regions
  (Proof/HostStats.lean), the output region (Proof/Region1.lean), joined in Proof/KernelValue.lean. The
  reference's side is its run read one operation at a time (Proof/RefValue.lean). The two differ in one law: the
  variance as the mean of squares minus the squared mean against the mean squared deviation, equal on real
  columns, which is where the finiteness of the float inputs is used (Proof/SpecLaw.lean); the 256-wide dot splits
  into two 128-wide ones with no hypothesis. The precondition also asks both index vectors to lie in
  [-100000, 100000), outside of which the reference indexes out of range (Proof/PreFacts.lean decodes it).
-/
import proofs.«429111_j24678882083441_1_alg».proof.Defs
import proofs.«429111_j24678882083441_1_alg».proof.Proof.Gen.Kernel
import proofs.«429111_j24678882083441_1_alg».proof.Proof.Gen.Kernel.Skeleton
import proofs.«429111_j24678882083441_1_alg».proof.Proof.Gen.Kernel.Launch
import proofs.«429111_j24678882083441_1_alg».proof.Proof.Gen.Kernel.Points
import proofs.«429111_j24678882083441_1_alg».proof.Proof.Gen.Kernel.Frame
import proofs.«429111_j24678882083441_1_alg».proof.Proof.Gen.KernelIdeal
import proofs.«429111_j24678882083441_1_alg».proof.Proof.Gen.KernelIdeal.Skeleton
import proofs.«429111_j24678882083441_1_alg».proof.Proof.Gen.KernelIdeal.Launch
import proofs.«429111_j24678882083441_1_alg».proof.Proof.Gen.KernelIdeal.Points
import proofs.«429111_j24678882083441_1_alg».proof.Proof.Gen.KernelIdeal.Frame
import proofs.«429111_j24678882083441_1_alg».proof.Proof.Gen.ReferenceIdeal
import proofs.«429111_j24678882083441_1_alg».proof.Proof.Gen.Pre_finite_inputs
import proofs.«429111_j24678882083441_1_alg».proof.Proof.Gen.ReferenceIdeal.Run
import proofs.«429111_j24678882083441_1_alg».proof.Proof.Gen.ReferenceIdeal.Read
import proofs.«429111_j24678882083441_1_alg».proof.Proof.RunResult
import proofs.«429111_j24678882083441_1_alg».proof.Proof.KernelValue
import proofs.«429111_j24678882083441_1_alg».proof.Proof.RefValue
import proofs.«429111_j24678882083441_1_alg».proof.Proof.SpecLaw
import proofs.«429111_j24678882083441_1_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the result array at the specification of the (agreeing) arguments: the
    kernel at its one-pass variance, the reference at its two-pass variance, equal on the real columns the finite
    inputs give. -/
theorem algebraic : Cert.algebraic_KernelIdeal_ReferenceIdeal := by
  intro m ρ m' ρ' hpre hagree
  have hP := fun c => Cert.PreFacts.of_pre _ _ _ _ _ _ _ _ (hpre c)
  refine ⟨fun c => Cert.Spec.outArr (Cert.Spec.GK (Cert.KernelIdeal.Whole.Xs m c) (Cert.KernelIdeal.Whole.Xd m c)
      (Cert.KernelIdeal.Whole.Wm m c) (Cert.KernelIdeal.Whole.bv m c) (Cert.Spec.vec (Cert.KernelIdeal.Whole.aG m c))
      (Cert.Spec.vec (Cert.KernelIdeal.Whole.aBeta m c)) (Cert.Spec.row (Cert.KernelIdeal.Whole.aAtt m c))), ?_, ?_⟩
  · exact (θ_run Cert.KernelIdeal.defs _ _).mono
      (fun r h c => ⟨(h c).1.trans (Cert.KernelIdeal.Whole.result m ρ c (hP c).2.2.2.2.2.2.1 (hP c).2.2.2.2.2.2.2), (h c).2⟩)
      (Cert.KernelIdeal.Gen.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    refine (Cert.ReferenceIdeal.RefValue.res_eq m' c).trans ?_
    rw [e0, e1, e2, e3, e4, e5, e6, e7]
    exact congrArg Cert.Spec.outArr
      (Cert.Spec.GK_eq_GR _ _ _ _ _ _ _ (fun e k => (hP c).1 _) (fun e k => (hP c).1 _) (fun j k => (hP c).2.1 _)
        (fun j => (hP c).2.2.1 _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
